-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1200x9x128 : Shape := ⟨3, ![1200, 9, 128]⟩
abbrev S12000x20 : Shape := ⟨2, ![12000, 20]⟩
abbrev S12000x3 : Shape := ⟨2, ![12000, 3]⟩
abbrev S12000x1 : Shape := ⟨2, ![12000, 1]⟩
abbrev S20x384 : Shape := ⟨2, ![20, 384]⟩
abbrev S384 : Shape := ⟨1, ![384]⟩
abbrev S137 : Shape := ⟨1, ![137]⟩
abbrev S12000 : Shape := ⟨1, ![12000]⟩
abbrev S_ : Shape := ⟨0, ![]⟩

class Facts : Prop where
  bcast_S_S1200x9x128 : S_.BroadcastsInDim S1200x9x128 (![] : Fin 0 → Fin S1200x9x128.rank)
  reducesTo_S1200x9x128_S_d0_1_2 : S1200x9x128.ReducesTo [0, 1, 2] S_
  h_S_ : 0 < S_.numel
  bcast_S_S12000x20 : S_.BroadcastsInDim S12000x20 (![] : Fin 0 → Fin S12000x20.rank)
  reducesTo_S12000x20_S_d0_1 : S12000x20.ReducesTo [0, 1] S_
  bcast_S_S12000x3 : S_.BroadcastsInDim S12000x3 (![] : Fin 0 → Fin S12000x3.rank)
  reducesTo_S12000x3_S_d0_1 : S12000x3.ReducesTo [0, 1] S_
  bcast_S_S12000x1 : S_.BroadcastsInDim S12000x1 (![] : Fin 0 → Fin S12000x1.rank)
  reducesTo_S12000x1_S_d0_1 : S12000x1.ReducesTo [0, 1] S_
  bcast_S_S20x384 : S_.BroadcastsInDim S20x384 (![] : Fin 0 → Fin S20x384.rank)
  reducesTo_S20x384_S_d0_1 : S20x384.ReducesTo [0, 1] S_
  bcast_S_S384 : S_.BroadcastsInDim S384 (![] : Fin 0 → Fin S384.rank)
  reducesTo_S384_S_d0 : S384.ReducesTo [0] S_
  bcast_S_S137 : S_.BroadcastsInDim S137 (![] : Fin 0 → Fin S137.rank)
  reducesTo_S137_S_d0 : S137.ReducesTo [0] S_
  reducesTo_S12000x3_S12000_d1 : S12000x3.ReducesTo [1] S12000
  bcast_S_S12000 : S_.BroadcastsInDim S12000 (![] : Fin 0 → Fin S12000.rank)
  reducesTo_S12000_S_d0 : S12000.ReducesTo [0] S_

variable [Facts]

def fn_part3 {F : FTy → Type} [FloatOps F] (main_arg10 : IVec S137 32) (main_arg12 : IVec S137 32) (main_v47 : IVec S_ 1) (main_v49 : IVec S137 1) : IVec S_ 1 :=
  let main_c_20 : IVec S_ 1 := constantI S_ 1 1#1
  let main_v50 : IVec S_ 1 := (fun x v => Host.reduce IntOp.andi x v reducesTo_S137_S_d0 h_S_) main_v49 main_c_20
  let main_v51 : IVec S_ 1 := andi main_v47 main_v50
  let main_c_21 : IVec S_ 32 := constantI S_ 32 9#32
  let main_v52 : IVec S137 32 := broadcastInDim S137 ![] bcast_S_S137 main_c_21
  let main_v53 : IVec S137 1 := cmpi .slt main_arg10 main_v52
  let main_c_22 : IVec S_ 1 := constantI S_ 1 1#1
  let main_v54 : IVec S_ 1 := (fun x v => Host.reduce IntOp.andi x v reducesTo_S137_S_d0 h_S_) main_v53 main_c_22
  let main_v55 : IVec S_ 1 := andi main_v51 main_v54
  let main_c_23 : IVec S_ 32 := constantI S_ 32 4294967293#32
  let main_v56 : IVec S137 32 := broadcastInDim S137 ![] bcast_S_S137 main_c_23
  let main_v57 : IVec S137 1 := cmpi .sge main_arg12 main_v56
  let main_c_24 : IVec S_ 1 := constantI S_ 1 1#1
  let main_v58 : IVec S_ 1 := (fun x v => Host.reduce IntOp.andi x v reducesTo_S137_S_d0 h_S_) main_v57 main_c_24
  let main_v59 : IVec S_ 1 := andi main_v55 main_v58
  let main_c_25 : IVec S_ 32 := constantI S_ 32 3#32
  let main_v60 : IVec S137 32 := broadcastInDim S137 ![] bcast_S_S137 main_c_25
  let main_v61 : IVec S137 1 := cmpi .slt main_arg12 main_v60
  let main_c_26 : IVec S_ 1 := constantI S_ 1 1#1
  let main_v62 : IVec S_ 1 := (fun x v => Host.reduce IntOp.andi x v reducesTo_S137_S_d0 h_S_) main_v61 main_c_26
  let main_v63 : IVec S_ 1 := andi main_v59 main_v62
  main_v63

def fn_part2 {F : FTy → Type} [FloatOps F] (main_arg2 : FVec F S12000x3 .f32) (main_arg9 : IVec S137 32) (main_arg10 : IVec S137 32) (main_arg12 : IVec S137 32) (main_v33 : IVec S_ 1) : IVec S_ 1 :=
  let main_v34 : FVec F S12000x3 .f32 := mulf main_arg2 main_arg2
  let main_cst_12 : FVec F S_ .f32 := constant S_ .f32 0x00000000#32
  let main_v35 : FVec F S12000 .f32 := (fun x v => Host.reduceAdd x v reducesTo_S12000x3_S12000_d1 h_S_) main_v34 main_cst_12
  let main_cst_13 : FVec F S_ .f32 := constant S_ .f32 0x00000000#32
  let main_v36 : FVec F S12000 .f32 := broadcastInDim S12000 ![] bcast_S_S12000 main_cst_13
  let main_v37 : IVec S12000 1 := cmpf .ogt main_v35 main_v36
  let main_c_14 : IVec S_ 1 := constantI S_ 1 1#1
  let main_v38 : IVec S_ 1 := (fun x v => Host.reduce IntOp.andi x v reducesTo_S12000_S_d0 h_S_) main_v37 main_c_14
  let main_v39 : IVec S_ 1 := andi main_v33 main_v38
  let main_c_15 : IVec S_ 32 := constantI S_ 32 4294967287#32
  let main_v40 : IVec S137 32 := broadcastInDim S137 ![] bcast_S_S137 main_c_15
  let main_v41 : IVec S137 1 := cmpi .sge main_arg9 main_v40
  let main_c_16 : IVec S_ 1 := constantI S_ 1 1#1
  let main_v42 : IVec S_ 1 := (fun x v => Host.reduce IntOp.andi x v reducesTo_S137_S_d0 h_S_) main_v41 main_c_16
  let main_v43 : IVec S_ 1 := andi main_v39 main_v42
  let main_c_17 : IVec S_ 32 := constantI S_ 32 9#32
  let main_v44 : IVec S137 32 := broadcastInDim S137 ![] bcast_S_S137 main_c_17
  let main_v45 : IVec S137 1 := cmpi .slt main_arg9 main_v44
  let main_c_18 : IVec S_ 1 := constantI S_ 1 1#1
  let main_v46 : IVec S_ 1 := (fun x v => Host.reduce IntOp.andi x v reducesTo_S137_S_d0 h_S_) main_v45 main_c_18
  let main_v47 : IVec S_ 1 := andi main_v43 main_v46
  let main_c_19 : IVec S_ 32 := constantI S_ 32 4294967287#32
  let main_v48 : IVec S137 32 := broadcastInDim S137 ![] bcast_S_S137 main_c_19
  let main_v49 : IVec S137 1 := cmpi .sge main_arg10 main_v48
  fn_part3 (F := F) main_arg10 main_arg12 main_v47 main_v49

def fn_part1 {F : FTy → Type} [FloatOps F] (main_arg2 : FVec F S12000x3 .f32) (main_arg4 : FVec F S20x384 .f32) (main_arg5 : FVec F S384 .f32) (main_arg6 : FVec F S137 .f32) (main_arg9 : IVec S137 32) (main_arg10 : IVec S137 32) (main_arg12 : IVec S137 32) (main_v13 : IVec S_ 1) (main_v16 : IVec S12000x1 1) : IVec S_ 1 :=
  let main_c_5 : IVec S_ 1 := constantI S_ 1 1#1
  let main_v17 : IVec S_ 1 := (fun x v => Host.reduce IntOp.andi x v reducesTo_S12000x1_S_d0_1 h_S_) main_v16 main_c_5
  let main_v18 : IVec S_ 1 := andi main_v13 main_v17
  let main_v19 : FVec F S20x384 .f32 := Host.absf main_arg4
  let main_cst_6 : FVec F S_ .f32 := constant S_ .f32 0x7F800000#32
  let main_v20 : FVec F S20x384 .f32 := broadcastInDim S20x384 ![] bcast_S_S20x384 main_cst_6
  let main_v21 : IVec S20x384 1 := cmpf .olt main_v19 main_v20
  let main_c_7 : IVec S_ 1 := constantI S_ 1 1#1
  let main_v22 : IVec S_ 1 := (fun x v => Host.reduce IntOp.andi x v reducesTo_S20x384_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S137 .f32 := Host.absf main_arg6
  let main_cst_10 : FVec F S_ .f32 := constant S_ .f32 0x7F800000#32
  let main_v30 : FVec F S137 .f32 := broadcastInDim S137 ![] bcast_S_S137 main_cst_10
  let main_v31 : IVec S137 1 := cmpf .olt main_v29 main_v30
  let main_c_11 : IVec S_ 1 := constantI S_ 1 1#1
  let main_v32 : IVec S_ 1 := (fun x v => Host.reduce IntOp.andi x v reducesTo_S137_S_d0 h_S_) main_v31 main_c_11
  let main_v33 : IVec S_ 1 := andi main_v28 main_v32
  fn_part2 (F := F) main_arg2 main_arg9 main_arg10 main_arg12 main_v33

def fn {F : FTy → Type} [FloatOps F] (main_arg0 : FVec F S1200x9x128 .f32) (main_arg1 : FVec F S12000x20 .f32) (main_arg2 : FVec F S12000x3 .f32) (main_arg3 : FVec F S12000x1 .f32) (main_arg4 : FVec F S20x384 .f32) (main_arg5 : FVec F S384 .f32) (main_arg6 : FVec F S137 .f32) (main_arg7 : IVec S12000 32) (main_arg8 : IVec S12000 32) (main_arg9 : IVec S137 32) (main_arg10 : IVec S137 32) (main_arg11 : IVec S137 32) (main_arg12 : IVec S137 32) : IVec S_ 1 :=
  let main_v0 : FVec F S1200x9x128 .f32 := Host.absf main_arg0
  let main_cst : FVec F S_ .f32 := constant S_ .f32 0x7F800000#32
  let main_v1 : FVec F S1200x9x128 .f32 := broadcastInDim S1200x9x128 ![] bcast_S_S1200x9x128 main_cst
  let main_v2 : IVec S1200x9x128 1 := cmpf .olt main_v0 main_v1
  let main_c : IVec S_ 1 := constantI S_ 1 1#1
  let main_v3 : IVec S_ 1 := (fun x v => Host.reduce IntOp.andi x v reducesTo_S1200x9x128_S_d0_1_2 h_S_) main_v2 main_c
  let main_v4 : FVec F S12000x20 .f32 := Host.absf main_arg1
  let main_cst_0 : FVec F S_ .f32 := constant S_ .f32 0x7F800000#32
  let main_v5 : FVec F S12000x20 .f32 := broadcastInDim S12000x20 ![] bcast_S_S12000x20 main_cst_0
  let main_v6 : IVec S12000x20 1 := cmpf .olt main_v4 main_v5
  let main_c_1 : IVec S_ 1 := constantI S_ 1 1#1
  let main_v7 : IVec S_ 1 := (fun x v => Host.reduce IntOp.andi x v reducesTo_S12000x20_S_d0_1 h_S_) main_v6 main_c_1
  let main_v8 : IVec S_ 1 := andi main_v3 main_v7
  let main_v9 : FVec F S12000x3 .f32 := Host.absf main_arg2
  let main_cst_2 : FVec F S_ .f32 := constant S_ .f32 0x7F800000#32
  let main_v10 : FVec F S12000x3 .f32 := broadcastInDim S12000x3 ![] bcast_S_S12000x3 main_cst_2
  let main_v11 : IVec S12000x3 1 := cmpf .olt main_v9 main_v10
  let main_c_3 : IVec S_ 1 := constantI S_ 1 1#1
  let main_v12 : IVec S_ 1 := (fun x v => Host.reduce IntOp.andi x v reducesTo_S12000x3_S_d0_1 h_S_) main_v11 main_c_3
  let main_v13 : IVec S_ 1 := andi main_v8 main_v12
  let main_v14 : FVec F S12000x1 .f32 := Host.absf main_arg3
  let main_cst_4 : FVec F S_ .f32 := constant S_ .f32 0x7F800000#32
  let main_v15 : FVec F S12000x1 .f32 := broadcastInDim S12000x1 ![] bcast_S_S12000x1 main_cst_4
  let main_v16 : IVec S12000x1 1 := cmpf .olt main_v14 main_v15
  fn_part1 (F := F) main_arg2 main_arg4 main_arg5 main_arg6 main_arg9 main_arg10 main_arg12 main_v13 main_v16
-- ==== Kernel.lean ====
abbrev S1200x9x128 : Shape := ⟨3, ![1200, 9, 128]⟩
abbrev S12000x20 : Shape := ⟨2, ![12000, 20]⟩
abbrev S12000x3 : Shape := ⟨2, ![12000, 3]⟩
abbrev S12000x1 : Shape := ⟨2, ![12000, 1]⟩
abbrev S20x384 : Shape := ⟨2, ![20, 384]⟩
abbrev S384 : Shape := ⟨1, ![384]⟩
abbrev S137 : Shape := ⟨1, ![137]⟩
abbrev S12000 : Shape := ⟨1, ![12000]⟩
abbrev S_ : Shape := ⟨0, ![]⟩
abbrev S9x9x9x3 : Shape := ⟨4, ![9, 9, 9, 3]⟩
abbrev S137x1 : Shape := ⟨2, ![137, 1]⟩
abbrev S137x4 : Shape := ⟨2, ![137, 4]⟩
abbrev S3x9x9x9 : Shape := ⟨4, ![3, 9, 9, 9]⟩
abbrev S3x9x81 : Shape := ⟨3, ![3, 9, 81]⟩
abbrev S12000x9x128 : Shape := ⟨3, ![12000, 9, 128]⟩
abbrev S1200x3 : Shape := ⟨2, ![1200, 3]⟩
abbrev S1200x20 : Shape := ⟨2, ![1200, 20]⟩
abbrev S1200x1 : Shape := ⟨2, ![1200, 1]⟩
abbrev S1200 : Shape := ⟨1, ![1200]⟩
abbrev S1200x9 : Shape := ⟨2, ![1200, 9]⟩
abbrev S1200x384 : Shape := ⟨2, ![1200, 384]⟩
abbrev S1x384 : Shape := ⟨2, ![1, 384]⟩
abbrev S1200x3x128 : Shape := ⟨3, ![1200, 3, 128]⟩
abbrev S1x9x81 : Shape := ⟨3, ![1, 9, 81]⟩
abbrev S9x81 : Shape := ⟨2, ![9, 81]⟩
abbrev S1200x81 : Shape := ⟨2, ![1200, 81]⟩
abbrev S1200x9x9 : Shape := ⟨3, ![1200, 9, 9]⟩
abbrev S1200x1x128 : Shape := ⟨3, ![1200, 1, 128]⟩
abbrev S1200x128 : Shape := ⟨2, ![1200, 128]⟩

abbrev nBuf : Space → Nat
  | .hbm => 65
  | .vmem => 13
  | .smem => 0
  | _ => 0

abbrev bufTy : (tb : Table) → Fin (tcTables nBuf tb) → BufTy
  | .hbm, ⟨0, _⟩ => ⟨S1200x9x128, .f32⟩
  | .hbm, ⟨1, _⟩ => ⟨S12000x20, .f32⟩
  | .hbm, ⟨2, _⟩ => ⟨S12000x3, .f32⟩
  | .hbm, ⟨3, _⟩ => ⟨S12000x1, .f32⟩
  | .hbm, ⟨4, _⟩ => ⟨S20x384, .f32⟩
  | .hbm, ⟨5, _⟩ => ⟨S384, .f32⟩
  | .hbm, ⟨6, _⟩ => ⟨S137, .f32⟩
  | .hbm, ⟨7, _⟩ => ⟨S12000, .i32⟩
  | .hbm, ⟨8, _⟩ => ⟨S12000, .i32⟩
  | .hbm, ⟨9, _⟩ => ⟨S137, .i32⟩
  | .hbm, ⟨10, _⟩ => ⟨S137, .i32⟩
  | .hbm, ⟨11, _⟩ => ⟨S137, .i32⟩
  | .hbm, ⟨12, _⟩ => ⟨S137, .i32⟩
  | .hbm, ⟨13, _⟩ => ⟨S_, .f32⟩
  | .hbm, ⟨14, _⟩ => ⟨S9x9x9x3, .f32⟩
  | .hbm, ⟨15, _⟩ => ⟨S_, .i32⟩
  | .hbm, ⟨16, _⟩ => ⟨S137, .i32⟩
  | .hbm, ⟨17, _⟩ => ⟨S137, .i1⟩
  | .hbm, ⟨18, _⟩ => ⟨S_, .i32⟩
  | .hbm, ⟨19, _⟩ => ⟨S137, .i32⟩
  | .hbm, ⟨20, _⟩ => ⟨S137, .i32⟩
  | .hbm, ⟨21, _⟩ => ⟨S137, .i32⟩
  | .hbm, ⟨22, _⟩ => ⟨S_, .i32⟩
  | .hbm, ⟨23, _⟩ => ⟨S137, .i32⟩
  | .hbm, ⟨24, _⟩ => ⟨S137, .i1⟩
  | .hbm, ⟨25, _⟩ => ⟨S_, .i32⟩
  | .hbm, ⟨26, _⟩ => ⟨S137, .i32⟩
  | .hbm, ⟨27, _⟩ => ⟨S137, .i32⟩
  | .hbm, ⟨28, _⟩ => ⟨S137, .i32⟩
  | .hbm, ⟨29, _⟩ => ⟨S_, .i32⟩
  | .hbm, ⟨30, _⟩ => ⟨S137, .i32⟩
  | .hbm, ⟨31, _⟩ => ⟨S137, .i1⟩
  | .hbm, ⟨32, _⟩ => ⟨S_, .i32⟩
  | .hbm, ⟨33, _⟩ => ⟨S137, .i32⟩
  | .hbm, ⟨34, _⟩ => ⟨S137, .i32⟩
  | .hbm, ⟨35, _⟩ => ⟨S137, .i32⟩
  | .hbm, ⟨36, _⟩ => ⟨S_, .i32⟩
  | .hbm, ⟨37, _⟩ => ⟨S137, .i32⟩
  | .hbm, ⟨38, _⟩ => ⟨S137, .i1⟩
  | .hbm, ⟨39, _⟩ => ⟨S_, .i32⟩
  | .hbm, ⟨40, _⟩ => ⟨S137, .i32⟩
  | .hbm, ⟨41, _⟩ => ⟨S137, .i32⟩
  | .hbm, ⟨42, _⟩ => ⟨S137, .i32⟩
  | .hbm, ⟨43, _⟩ => ⟨S137x1, .i32⟩
  | .hbm, ⟨44, _⟩ => ⟨S137x1, .i32⟩
  | .hbm, ⟨45, _⟩ => ⟨S137x1, .i32⟩
  | .hbm, ⟨46, _⟩ => ⟨S137x1, .i32⟩
  | .hbm, ⟨47, _⟩ => ⟨S137x4, .i32⟩
  | .hbm, ⟨48, _⟩ => ⟨S9x9x9x3, .f32⟩
  | .hbm, ⟨49, _⟩ => ⟨S3x9x9x9, .f32⟩
  | .hbm, ⟨50, _⟩ => ⟨S3x9x81, .f32⟩
  | .hbm, ⟨51, _⟩ => ⟨S_, .i32⟩
  | .hbm, ⟨52, _⟩ => ⟨S12000, .i32⟩
  | .hbm, ⟨53, _⟩ => ⟨S12000, .i1⟩
  | .hbm, ⟨54, _⟩ => ⟨S_, .i32⟩
  | .hbm, ⟨55, _⟩ => ⟨S12000, .i32⟩
  | .hbm, ⟨56, _⟩ => ⟨S12000, .i32⟩
  | .hbm, ⟨57, _⟩ => ⟨S12000, .i32⟩
  | .hbm, ⟨58, _⟩ => ⟨S12000x1, .i32⟩
  | .hbm, ⟨59, _⟩ => ⟨S12000x9x128, .f32⟩
  | .hbm, ⟨60, _⟩ => ⟨S12000x9x128, .f32⟩
  | .hbm, ⟨61, _⟩ => ⟨S_, .f32⟩
  | .hbm, ⟨62, _⟩ => ⟨S1200x9x128, .f32⟩
  | .hbm, ⟨63, _⟩ => ⟨S12000x1, .i32⟩
  | .hbm, ⟨64, _⟩ => ⟨S1200x9x128, .f32⟩
  | .local _ .vmem, ⟨0, _⟩ => ⟨S1200x9x128, .f32⟩
  | .local _ .vmem, ⟨1, _⟩ => ⟨S1200x9x128, .f32⟩
  | .local _ .vmem, ⟨2, _⟩ => ⟨S1200x3, .f32⟩
  | .local _ .vmem, ⟨3, _⟩ => ⟨S1200x3, .f32⟩
  | .local _ .vmem, ⟨4, _⟩ => ⟨S1200x20, .f32⟩
  | .local _ .vmem, ⟨5, _⟩ => ⟨S1200x20, .f32⟩
  | .local _ .vmem, ⟨6, _⟩ => ⟨S1200x1, .f32⟩
  | .local _ .vmem, ⟨7, _⟩ => ⟨S1200x1, .f32⟩
  | .local _ .vmem, ⟨8, _⟩ => ⟨S20x384, .f32⟩
  | .local _ .vmem, ⟨9, _⟩ => ⟨S384, .f32⟩
  | .local _ .vmem, ⟨10, _⟩ => ⟨S3x9x81, .f32⟩
  | .local _ .vmem, ⟨11, _⟩ => ⟨S1200x9x128, .f32⟩
  | .local _ .vmem, ⟨12, _⟩ => ⟨S1200x9x128, .f32⟩
  | _, _ => ⟨S1200x9x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_v7 : Ref sig .tc := ⟨.hbm, 24, rfl⟩
abbrev main_c_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_v11 : Ref sig .tc := ⟨.hbm, 30, rfl⟩
abbrev main_v12 : Ref sig .tc := ⟨.hbm, 31, rfl⟩
abbrev main_c_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_5 : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_c_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1200x9x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1200x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1200x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1200x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S20x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x9x81 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1200x9x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S9x9x9x3 : S_.BroadcastsInDim S9x9x9x3 (![] : Fin 0 → Fin S9x9x9x3.rank)
  bcast_S_S137 : S_.BroadcastsInDim S137 (![] : Fin 0 → Fin S137.rank)
  bcast_S137_S137x1_0 : S137.BroadcastsInDim S137x1 (![0] : Fin 1 → Fin S137x1.rank)
  concatenates_S137x1_S137x1_S137x1_S137x1_S137x4_d1 : Shape.Concatenates [S137x1, S137x1, S137x1, S137x1] S137x4 1
  transposes_S9x9x9x3_S3x9x9x9_3_1_0_2 : S9x9x9x3.Transposes [3, 1, 0, 2] S3x9x9x9
  shapeCasts_S3x9x9x9_S3x9x81 : S3x9x9x9.ShapeCasts S3x9x81
  bcast_S_S12000 : S_.BroadcastsInDim S12000 (![] : Fin 0 → Fin S12000.rank)
  bcast_S12000_S12000x1_0 : S12000.BroadcastsInDim S12000x1 (![0] : Fin 1 → Fin S12000x1.rank)
  inb_S1200x3_S1200x3_0_0 : ∀ a, (![0, 0] : Fin 2 → Nat) a + S1200x3.size a ≤ S1200x3.size a
  h_S1200x3 : 0 < S1200x3.numel
  reduces_S1200x3_S1200 : S1200x3.Reduces [1] S1200
  shapeCasts_S1200_S1200x1 : S1200.ShapeCasts S1200x1
  broadcasts_S1200x1_S1200x3 : S1200x1.Broadcasts S1200x3
  slices_S1200x3_o0_0_S1200x1 : S1200x3.Slices ![0, 0] S1200x1
  shapeCasts_S1200x1_S1200 : S1200x1.ShapeCasts S1200
  slices_S1200x3_o0_1_S1200x1 : S1200x3.Slices ![0, 1] S1200x1
  slices_S1200x3_o0_2_S1200x1 : S1200x3.Slices ![0, 2] S1200x1
  concatenates_S1200x1_S1200x1_S1200x1_S1200x1_S1200x1_S1200x1_S1200x1_S1200x1_S1200x1_S1200x9_d1 : Shape.Concatenates [S1200x1, S1200x1, S1200x1, S1200x1, S1200x1, S1200x1, S1200x1, S1200x1, S1200x1] S1200x9 1
  inb_S1200x20_S1200x20_0_0 : ∀ a, (![0, 0] : Fin 2 → Nat) a + S1200x20.size a ≤ S1200x20.size a
  h_S1200x20 : 0 < S1200x20.numel
  inb_S20x384_S20x384_0_0 : ∀ a, (![0, 0] : Fin 2 → Nat) a + S20x384.size a ≤ S20x384.size a
  h_S20x384 : 0 < S20x384.numel
  inb_S384_S384_0 : ∀ a, (![0] : Fin 1 → Nat) a + S384.size a ≤ S384.size a
  h_S384 : 0 < S384.numel
  shapeCasts_S384_S1x384 : S384.ShapeCasts S1x384
  broadcasts_S1x384_S1200x384 : S1x384.Broadcasts S1200x384
  inb_S1200x1_S1200x1_0_0 : ∀ a, (![0, 0] : Fin 2 → Nat) a + S1200x1.size a ≤ S1200x1.size a
  h_S1200x1 : 0 < S1200x1.numel
  broadcasts_S1200x1_S1200x384 : S1200x1.Broadcasts S1200x384
  shapeCasts_S1200x384_S1200x3x128 : S1200x384.ShapeCasts S1200x3x128
  inb_S1200x9x128_S1200x9x128_0_0_0 : ∀ a, (![0, 0, 0] : Fin 3 → Nat) a + S1200x9x128.size a ≤ S1200x9x128.size a
  h_S1200x9x128 : 0 < S1200x9x128.numel
  shapeCasts_S1200x9x128_S1200x9x128 : S1200x9x128.ShapeCasts S1200x9x128
  inb_S3x9x81_S1x9x81_0_0_0 : ∀ a, (![0, 0, 0] : Fin 3 → Nat) a + S1x9x81.size a ≤ S3x9x81.size a
  h_S1x9x81 : 0 < S1x9x81.numel
  shapeCasts_S1x9x81_S9x81 : S1x9x81.ShapeCasts S9x81
  shapeCasts_S1200x81_S1200x9x9 : S1200x81.ShapeCasts S1200x9x9
  slices_S1200x3x128_o0_0_0_S1200x1x128 : S1200x3x128.Slices ![0, 0, 0] S1200x1x128
  shapeCasts_S1200x1x128_S1200x128 : S1200x1x128.ShapeCasts S1200x128
  shapeCasts_S1200x128_S1200x1x128 : S1200x128.ShapeCasts S1200x1x128
  broadcasts_S1200x1x128_S1200x9x128 : S1200x1x128.Broadcasts S1200x9x128
  inb_S3x9x81_S1x9x81_1_0_0 : ∀ a, (![1, 0, 0] : Fin 3 → Nat) a + S1x9x81.size a ≤ S3x9x81.size a
  slices_S1200x3x128_o0_1_0_S1200x1x128 : S1200x3x128.Slices ![0, 1, 0] S1200x1x128
  inb_S3x9x81_S1x9x81_2_0_0 : ∀ a, (![2, 0, 0] : Fin 3 → Nat) a + S1x9x81.size a ≤ S3x9x81.size a
  slices_S1200x3x128_o0_2_0_S1200x1x128 : S1200x3x128.Slices ![0, 2, 0] S1200x1x128
  bcast_S_S1200x9x128 : S_.BroadcastsInDim S1200x9x128 (![] : Fin 0 → Fin S1200x9x128.rank)
  scatter_S9x9x9x3_S137x4_S137_n_0123_0123_1_wf : ScatterDims.WF S9x9x9x3 S137x4 S137 [] [0, 1, 2, 3] [0, 1, 2, 3] 1
  gather_S1200x9x128_S12000x1_S12000x9x128_12_0_n_n_0_1_19128_wf : GatherDims.WF S1200x9x128 S12000x1 S12000x9x128 [1, 2] [0] [] [0] [] 1 ![1, 9, 128]
  dot_S1200x20_S20x384_S1200x384_1_0_0_1_n_n_wf : DotDims.WF S1200x20 S20x384 S1200x384 [1] [0] [0] [1] [] []
  dot_S1200x9_S9x81_S1200x81_1_0_0_1_n_n_wf : DotDims.WF S1200x9 S9x81 S1200x81 [1] [0] [0] [1] [] []
  dot_S1200x9x9_S1200x9x128_S1200x9x128_1_1_2_2_0_0_wf : DotDims.WF S1200x9x9 S1200x9x128 S1200x9x128 [1] [1] [2] [2] [0] [0]
  scatter_S1200x9x128_S12000x1_S12000x9x128_12_0_0_1_wf : ScatterDims.WF S1200x9x128 S12000x1 S12000x9x128 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1200x9x128.size a ≤ S12000x9x128.size a
  hwx0_0 : ∀ i : grid0.Coords, EltTy.bits .f32 = 32 ∨ (Rect.block (s := S12000x9x128) S1200x9x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1200x3.size a ≤ S12000x3.size a
  hwx0_1 : ∀ i : grid0.Coords, EltTy.bits .f32 = 32 ∨ (Rect.block (s := S12000x3) S1200x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1200x20.size a ≤ S12000x20.size a
  hwx0_2 : ∀ i : grid0.Coords, EltTy.bits .f32 = 32 ∨ (Rect.block (s := S12000x20) S1200x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1200x1.size a ≤ S12000x1.size a
  hwx0_3 : ∀ i : grid0.Coords, EltTy.bits .f32 = 32 ∨ (Rect.block (s := S12000x1) S1200x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x384.size a ≤ S20x384.size a
  hwx0_4 : ∀ i : grid0.Coords, EltTy.bits .f32 = 32 ∨ (Rect.block (s := S20x384) S20x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384.size a ≤ S384.size a
  hwx0_5 : ∀ i : grid0.Coords, EltTy.bits .f32 = 32 ∨ (Rect.block (s := S384) S384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x9x81.size a ≤ S3x9x81.size a
  hwx0_6 : ∀ i : grid0.Coords, EltTy.bits .f32 = 32 ∨ (Rect.block (s := S3x9x81) S3x9x81.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1200x9x128.size a ≤ S12000x9x128.size a
  hwx0_7 : ∀ i : grid0.Coords, EltTy.bits .f32 = 32 ∨ (Rect.block (s := S12000x9x128) S1200x9x128.size (cc0_transform_7 i) (hinb0_7 i)).WholeWords (EltTy.packing .f32)

variable [Facts₀]

def scatter_S9x9x9x3_S137x4_S137_n_0123_0123_1 : ScatterDims S9x9x9x3 S137x4 S137 where
  updateWindowDims := []
  insertedWindowDims := [0, 1, 2, 3]
  scatterDimsToOperandDims := [0, 1, 2, 3]
  indexVectorDim := 1
  wf := scatter_S9x9x9x3_S137x4_S137_n_0123_0123_1_wf
def gather_S1200x9x128_S12000x1_S12000x9x128_12_0_n_n_0_1_19128 : GatherDims S1200x9x128 S12000x1 S12000x9x128 where
  offsetDims := [1, 2]
  collapsedSliceDims := [0]
  operandBatchingDims := []
  startIndicesBatchingDims := []
  startIndexMap := [0]
  indexVectorDim := 1
  sliceSizes := ![1, 9, 128]
  wf := gather_S1200x9x128_S12000x1_S12000x9x128_12_0_n_n_0_1_19128_wf
def dot_S1200x20_S20x384_S1200x384_1_0_0_1_n_n : DotDims S1200x20 S20x384 S1200x384 where
  lhsContracting := [1]
  rhsContracting := [0]
  lhsNonContracting := [0]
  rhsNonContracting := [1]
  lhsBatch := []
  rhsBatch := []
  wf := dot_S1200x20_S20x384_S1200x384_1_0_0_1_n_n_wf
def dot_S1200x9_S9x81_S1200x81_1_0_0_1_n_n : DotDims S1200x9 S9x81 S1200x81 where
  lhsContracting := [1]
  rhsContracting := [0]
  lhsNonContracting := [0]
  rhsNonContracting := [1]
  lhsBatch := []
  rhsBatch := []
  wf := dot_S1200x9_S9x81_S1200x81_1_0_0_1_n_n_wf
def dot_S1200x9x9_S1200x9x128_S1200x9x128_1_1_2_2_0_0 : DotDims S1200x9x9 S1200x9x128 S1200x9x128 where
  lhsContracting := [1]
  rhsContracting := [1]
  lhsNonContracting := [2]
  rhsNonContracting := [2]
  lhsBatch := [0]
  rhsBatch := [0]
  wf := dot_S1200x9x9_S1200x9x128_S1200x9x128_1_1_2_2_0_0_wf
def scatter_S1200x9x128_S12000x1_S12000x9x128_12_0_0_1 : ScatterDims S1200x9x128 S12000x1 S12000x9x128 where
  updateWindowDims := [1, 2]
  insertedWindowDims := [0]
  scatterDimsToOperandDims := [0]
  indexVectorDim := 1
  wf := scatter_S1200x9x128_S12000x1_S12000x9x128_12_0_0_1_wf

abbrev win0_0 : Pipeline.Window sig grid0 :=
  Pipeline.Window.ofSpec (Memref.whole main_v35) S1200x9x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1200x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1200x20.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1200x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S20x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S3x9x81.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36) S1200x9x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1200x9x128 : Shape := ⟨3, ![1200, 9, 128]⟩
abbrev S12000x20 : Shape := ⟨2, ![12000, 20]⟩
abbrev S12000x3 : Shape := ⟨2, ![12000, 3]⟩
abbrev S12000x1 : Shape := ⟨2, ![12000, 1]⟩
abbrev S20x384 : Shape := ⟨2, ![20, 384]⟩
abbrev S384 : Shape := ⟨1, ![384]⟩
abbrev S137 : Shape := ⟨1, ![137]⟩
abbrev S12000 : Shape := ⟨1, ![12000]⟩
abbrev S_ : Shape := ⟨0, ![]⟩
abbrev S12000x9 : Shape := ⟨2, ![12000, 9]⟩
abbrev S12000x384 : Shape := ⟨2, ![12000, 384]⟩
abbrev S1x384 : Shape := ⟨2, ![1, 384]⟩
abbrev S12000x3x128 : Shape := ⟨3, ![12000, 3, 128]⟩
abbrev S12000x9x128 : Shape := ⟨3, ![12000, 9, 128]⟩
abbrev S137x1 : Shape := ⟨2, ![137, 1]⟩
abbrev S12000x137 : Shape := ⟨2, ![12000, 137]⟩
abbrev S12000x137x1 : Shape := ⟨3, ![12000, 137, 1]⟩
abbrev S1x137x1 : Shape := ⟨3, ![1, 137, 1]⟩
abbrev S12000x137x128 : Shape := ⟨3, ![12000, 137, 128]⟩

abbrev nBuf : Space → Nat
  | .hbm => 140
  | .vmem => 0
  | .smem => 0
  | _ => 0

abbrev hbmTy0_0 (i : Nat) : BufTy := match i % 128 with
  | 0 => ⟨S1200x9x128, .f32⟩
  | 1 => ⟨S12000x20, .f32⟩
  | 2 => ⟨S12000x3, .f32⟩
  | 3 => ⟨S12000x1, .f32⟩
  | 4 => ⟨S20x384, .f32⟩
  | 5 => ⟨S384, .f32⟩
  | 6 => ⟨S137, .f32⟩
  | 7 => ⟨S12000, .i32⟩
  | 8 => ⟨S12000, .i32⟩
  | 9 => ⟨S137, .i32⟩
  | 10 => ⟨S137, .i32⟩
  | 11 => ⟨S137, .i32⟩
  | 12 => ⟨S137, .i32⟩
  | 13 => ⟨S12000x3, .f32⟩
  | 14 => ⟨S_, .f32⟩
  | 15 => ⟨S12000, .f32⟩
  | 16 => ⟨S12000x1, .f32⟩
  | 17 => ⟨S12000x1, .f32⟩
  | 18 => ⟨S12000x3, .f32⟩
  | 19 => ⟨S12000x3, .f32⟩
  | 20 => ⟨S12000x1, .f32⟩
  | 21 => ⟨S12000, .f32⟩
  | 22 => ⟨S12000x1, .f32⟩
  | 23 => ⟨S12000, .f32⟩
  | 24 => ⟨S12000x1, .f32⟩
  | 25 => ⟨S12000, .f32⟩
  | 26 => ⟨S_, .f32⟩
  | 27 => ⟨S12000, .f32⟩
  | 28 => ⟨S_, .f32⟩
  | 29 => ⟨S12000, .f32⟩
  | 30 => ⟨S12000, .f32⟩
  | 31 => ⟨S_, .f32⟩
  | 32 => ⟨S12000, .f32⟩
  | 33 => ⟨S12000, .f32⟩
  | 34 => ⟨S_, .f32⟩
  | 35 => ⟨S12000, .f32⟩
  | 36 => ⟨S12000, .f32⟩
  | 37 => ⟨S_, .f32⟩
  | 38 => ⟨S12000, .f32⟩
  | 39 => ⟨S12000, .f32⟩
  | 40 => ⟨S12000, .f32⟩
  | 41 => ⟨S_, .f32⟩
  | 42 => ⟨S12000, .f32⟩
  | 43 => ⟨S12000, .f32⟩
  | 44 => ⟨S12000, .f32⟩
  | 45 => ⟨S_, .f32⟩
  | 46 => ⟨S12000, .f32⟩
  | 47 => ⟨S12000, .f32⟩
  | 48 => ⟨S12000, .f32⟩
  | 49 => ⟨S_, .f32⟩
  | 50 => ⟨S12000, .f32⟩
  | 51 => ⟨S12000, .f32⟩
  | 52 => ⟨S_, .f32⟩
  | 53 => ⟨S12000, .f32⟩
  | 54 => ⟨S12000, .f32⟩
  | 55 => ⟨S_, .f32⟩
  | 56 => ⟨S12000, .f32⟩
  | 57 => ⟨S12000, .f32⟩
  | 58 => ⟨S12000, .f32⟩
  | 59 => ⟨S12000, .f32⟩
  | 60 => ⟨S12000, .f32⟩
  | 61 => ⟨S12000, .f32⟩
  | 62 => ⟨S_, .f32⟩
  | 63 => ⟨S12000, .f32⟩
  | 64 => ⟨S12000, .f32⟩
  | 65 => ⟨S12000x1, .f32⟩
  | 66 => ⟨S12000x1, .f32⟩
  | 67 => ⟨S12000x1, .f32⟩
  | 68 => ⟨S12000x1, .f32⟩
  | 69 => ⟨S12000x1, .f32⟩
  | 70 => ⟨S12000x1, .f32⟩
  | 71 => ⟨S12000x1, .f32⟩
  | 72 => ⟨S12000x1, .f32⟩
  | 73 => ⟨S12000x1, .f32⟩
  | 74 => ⟨S12000x9, .f32⟩
  | 75 => ⟨S12000x384, .f32⟩
  | 76 => ⟨S1x384, .f32⟩
  | 77 => ⟨S12000x384, .f32⟩
  | 78 => ⟨S12000x384, .f32⟩
  | 79 => ⟨S12000x384, .f32⟩
  | 80 => ⟨S12000x384, .f32⟩
  | 81 => ⟨S12000x3x128, .f32⟩
  | 82 => ⟨S_, .i32⟩
  | 83 => ⟨S12000, .i32⟩
  | 84 => ⟨S12000, .i1⟩
  | 85 => ⟨S_, .i32⟩
  | 86 => ⟨S12000, .i32⟩
  | 87 => ⟨S12000, .i32⟩
  | 88 => ⟨S12000, .i32⟩
  | 89 => ⟨S12000x1, .i32⟩
  | 90 => ⟨S12000x9x128, .f32⟩
  | 91 => ⟨S_, .i32⟩
  | 92 => ⟨S137, .i32⟩
  | 93 => ⟨S137, .i1⟩
  | 94 => ⟨S_, .i32⟩
  | 95 => ⟨S137, .i32⟩
  | 96 => ⟨S137, .i32⟩
  | 97 => ⟨S137, .i32⟩
  | 98 => ⟨S137x1, .i32⟩
  | 99 => ⟨S12000x137, .f32⟩
  | 100 => ⟨S12000x137x1, .f32⟩
  | 101 => ⟨S1x137x1, .f32⟩
  | 102 => ⟨S12000x137x1, .f32⟩
  | 103 => ⟨S12000x137x1, .f32⟩
  | 104 => ⟨S_, .i32⟩
  | 105 => ⟨S137, .i32⟩
  | 106 => ⟨S137, .i1⟩
  | 107 => ⟨S_, .i32⟩
  | 108 => ⟨S137, .i32⟩
  | 109 => ⟨S137, .i32⟩
  | 110 => ⟨S137, .i32⟩
  | 111 => ⟨S137x1, .i32⟩
  | 112 => ⟨S12000x137x128, .f32⟩
  | 113 => ⟨S12000x137x128, .f32⟩
  | 114 => ⟨S12000x137x128, .f32⟩
  | 115 => ⟨S_, .i32⟩
  | 116 => ⟨S137, .i32⟩
  | 117 => ⟨S137, .i1⟩
  | 118 => ⟨S_, .i32⟩
  | 119 => ⟨S137, .i32⟩
  | 120 => ⟨S137, .i32⟩
  | 121 => ⟨S137, .i32⟩
  | 122 => ⟨S137x1, .i32⟩
  | 123 => ⟨S12000x137x128, .f32⟩
  | 124 => ⟨S12000x137x128, .f32⟩
  | 125 => ⟨S_, .f32⟩
  | 126 => ⟨S12000x9x128, .f32⟩
  | 127 => ⟨S_, .i32⟩
  | _ => ⟨S1200x9x128, .f32⟩

abbrev hbmTy0_1 (i : Nat) : BufTy := match i % 128 with
  | 0 => ⟨S137, .i32⟩
  | 1 => ⟨S137, .i1⟩
  | 2 => ⟨S_, .i32⟩
  | 3 => ⟨S137, .i32⟩
  | 4 => ⟨S137, .i32⟩
  | 5 => ⟨S137, .i32⟩
  | 6 => ⟨S137x1, .i32⟩
  | 7 => ⟨S12000x9x128, .f32⟩
  | 8 => ⟨S_, .f32⟩
  | 9 => ⟨S1200x9x128, .f32⟩
  | 10 => ⟨S12000x1, .i32⟩
  | 11 => ⟨S1200x9x128, .f32⟩
  | _ => ⟨S1200x9x128, .f32⟩

abbrev hbmTy (i : Nat) : BufTy := match i / 128 with
  | 0 => hbmTy0_0 i
  | 1 => hbmTy0_1 i
  | _ => ⟨S1200x9x128, .f32⟩

abbrev bufTy : (tb : Table) → Fin (tcTables nBuf tb) → BufTy
  | .hbm, ⟨i, _⟩ => hbmTy i
  | _, _ => ⟨S1200x9x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_6 : Ref sig .tc := ⟨.hbm, 49, rfl⟩
abbrev main_v25 : Ref sig .tc := ⟨.hbm, 50, rfl⟩
abbrev main_v26 : Ref sig .tc := ⟨.hbm, 51, rfl⟩
abbrev main_cst_7 : Ref sig .tc := ⟨.hbm, 52, rfl⟩
abbrev main_v27 : Ref sig .tc := ⟨.hbm, 53, rfl⟩
abbrev main_v28 : Ref sig .tc := ⟨.hbm, 54, rfl⟩
abbrev main_cst_8 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_9 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c : Ref sig .tc := ⟨.hbm, 82, rfl⟩
abbrev main_v54 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_11 : Ref sig .tc := ⟨.hbm, 91, rfl⟩
abbrev main_v61 : Ref sig .tc := ⟨.hbm, 92, rfl⟩
abbrev main_v62 : Ref sig .tc := ⟨.hbm, 93, rfl⟩
abbrev main_c_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_13 : Ref sig .tc := ⟨.hbm, 104, rfl⟩
abbrev main_v72 : Ref sig .tc := ⟨.hbm, 105, rfl⟩
abbrev main_v73 : Ref sig .tc := ⟨.hbm, 106, rfl⟩
abbrev main_c_14 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_15 : Ref sig .tc := ⟨.hbm, 115, rfl⟩
abbrev main_v81 : Ref sig .tc := ⟨.hbm, 116, rfl⟩
abbrev main_v82 : Ref sig .tc := ⟨.hbm, 117, rfl⟩
abbrev main_c_16 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_17 : Ref sig .tc := ⟨.hbm, 125, rfl⟩
abbrev main_v89 : Ref sig .tc := ⟨.hbm, 126, rfl⟩
abbrev main_c_18 : Ref sig .tc := ⟨.hbm, 127, rfl⟩
abbrev main_v90 : Ref sig .tc := ⟨.hbm, 128, rfl⟩
abbrev main_v91 : Ref sig .tc := ⟨.hbm, 129, rfl⟩
abbrev main_c_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_20 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  reducesTo_S12000x3_S12000_d1 : S12000x3.ReducesTo [1] S12000
  h_S_ : 0 < S_.numel
  bcast_S12000_S12000x1_0 : S12000.BroadcastsInDim S12000x1 (![0] : Fin 1 → Fin S12000x1.rank)
  bcast_S12000x1_S12000x3_0_1 : S12000x1.BroadcastsInDim S12000x3 (![0, 1] : Fin 2 → Fin S12000x3.rank)
  slices_S12000x3_S12000x1_0_0 : S12000x3.Slices ![0, 0] S12000x1
  shapeCasts_S12000x1_S12000 : S12000x1.ShapeCasts S12000
  slices_S12000x3_S12000x1_0_1 : S12000x3.Slices ![0, 1] S12000x1
  slices_S12000x3_S12000x1_0_2 : S12000x3.Slices ![0, 2] S12000x1
  bcast_S_S12000 : S_.BroadcastsInDim S12000 (![] : Fin 0 → Fin S12000.rank)
  concatenates_S12000x1_S12000x1_S12000x1_S12000x1_S12000x1_S12000x1_S12000x1_S12000x1_S12000x1_S12000x9_d1 : Shape.Concatenates [S12000x1, S12000x1, S12000x1, S12000x1, S12000x1, S12000x1, S12000x1, S12000x1, S12000x1] S12000x9 1
  bcast_S384_S1x384_1 : S384.BroadcastsInDim S1x384 (![1] : Fin 1 → Fin S1x384.rank)
  bcast_S1x384_S12000x384_0_1 : S1x384.BroadcastsInDim S12000x384 (![0, 1] : Fin 2 → Fin S12000x384.rank)
  bcast_S12000x1_S12000x384_0_1 : S12000x1.BroadcastsInDim S12000x384 (![0, 1] : Fin 2 → Fin S12000x384.rank)
  shapeCasts_S12000x384_S12000x3x128 : S12000x384.ShapeCasts S12000x3x128
  bcast_S_S137 : S_.BroadcastsInDim S137 (![] : Fin 0 → Fin S137.rank)
  bcast_S137_S137x1_0 : S137.BroadcastsInDim S137x1 (![0] : Fin 1 → Fin S137x1.rank)
  bcast_S12000x137_S12000x137x1_0_1 : S12000x137.BroadcastsInDim S12000x137x1 (![0, 1] : Fin 2 → Fin S12000x137x1.rank)
  bcast_S137_S1x137x1_1 : S137.BroadcastsInDim S1x137x1 (![1] : Fin 1 → Fin S1x137x1.rank)
  bcast_S1x137x1_S12000x137x1_0_1_2 : S1x137x1.BroadcastsInDim S12000x137x1 (![0, 1, 2] : Fin 3 → Fin S12000x137x1.rank)
  bcast_S12000x137x1_S12000x137x128_0_1_2 : S12000x137x1.BroadcastsInDim S12000x137x128 (![0, 1, 2] : Fin 3 → Fin S12000x137x128.rank)
  bcast_S_S12000x9x128 : S_.BroadcastsInDim S12000x9x128 (![] : Fin 0 → Fin S12000x9x128.rank)
  bcast_S_S1200x9x128 : S_.BroadcastsInDim S1200x9x128 (![] : Fin 0 → Fin S1200x9x128.rank)
  dot_S12000x20_S20x384_S12000x384_1_0_0_1_n_n_wf : DotDims.WF S12000x20 S20x384 S12000x384 [1] [0] [0] [1] [] []
  gather_S1200x9x128_S12000x1_S12000x9x128_12_0_n_n_0_1_19128_wf : GatherDims.WF S1200x9x128 S12000x1 S12000x9x128 [1, 2] [0] [] [0] [] 1 ![1, 9, 128]
  gather_S12000x9_S137x1_S12000x137_0_1_n_n_1_1_120001_wf : GatherDims.WF S12000x9 S137x1 S12000x137 [0] [1] [] [1] [] 1 ![12000, 1]
  gather_S12000x3x128_S137x1_S12000x137x128_02_1_n_n_1_1_120001128_wf : GatherDims.WF S12000x3x128 S137x1 S12000x137x128 [0, 2] [1] [] [1] [] 1 ![12000, 1, 128]
  gather_S12000x9x128_S137x1_S12000x137x128_02_1_n_n_1_1_120001128_wf : GatherDims.WF S12000x9x128 S137x1 S12000x137x128 [0, 2] [1] [] [1] [] 1 ![12000, 1, 128]
  scatter_S12000x9x128_S137x1_S12000x137x128_02_1_1_1_wf : ScatterDims.WF S12000x9x128 S137x1 S12000x137x128 [0, 2] [1] [1] 1
  scatter_S1200x9x128_S12000x1_S12000x9x128_12_0_0_1_wf : ScatterDims.WF S1200x9x128 S12000x1 S12000x9x128 [1, 2] [0] [0] 1

variable [Facts₀]

def dot_S12000x20_S20x384_S12000x384_1_0_0_1_n_n : DotDims S12000x20 S20x384 S12000x384 where
  lhsContracting := [1]
  rhsContracting := [0]
  lhsNonContracting := [0]
  rhsNonContracting := [1]
  lhsBatch := []
  rhsBatch := []
  wf := dot_S12000x20_S20x384_S12000x384_1_0_0_1_n_n_wf
def gather_S1200x9x128_S12000x1_S12000x9x128_12_0_n_n_0_1_19128 : GatherDims S1200x9x128 S12000x1 S12000x9x128 where
  offsetDims := [1, 2]
  collapsedSliceDims := [0]
  operandBatchingDims := []
  startIndicesBatchingDims := []
  startIndexMap := [0]
  indexVectorDim := 1
  sliceSizes := ![1, 9, 128]
  wf := gather_S1200x9x128_S12000x1_S12000x9x128_12_0_n_n_0_1_19128_wf
def gather_S12000x9_S137x1_S12000x137_0_1_n_n_1_1_120001 : GatherDims S12000x9 S137x1 S12000x137 where
  offsetDims := [0]
  collapsedSliceDims := [1]
  operandBatchingDims := []
  startIndicesBatchingDims := []
  startIndexMap := [1]
  indexVectorDim := 1
  sliceSizes := ![12000, 1]
  wf := gather_S12000x9_S137x1_S12000x137_0_1_n_n_1_1_120001_wf
def gather_S12000x3x128_S137x1_S12000x137x128_02_1_n_n_1_1_120001128 : GatherDims S12000x3x128 S137x1 S12000x137x128 where
  offsetDims := [0, 2]
  collapsedSliceDims := [1]
  operandBatchingDims := []
  startIndicesBatchingDims := []
  startIndexMap := [1]
  indexVectorDim := 1
  sliceSizes := ![12000, 1, 128]
  wf := gather_S12000x3x128_S137x1_S12000x137x128_02_1_n_n_1_1_120001128_wf
def gather_S12000x9x128_S137x1_S12000x137x128_02_1_n_n_1_1_120001128 : GatherDims S12000x9x128 S137x1 S12000x137x128 where
  offsetDims := [0, 2]
  collapsedSliceDims := [1]
  operandBatchingDims := []
  startIndicesBatchingDims := []
  startIndexMap := [1]
  indexVectorDim := 1
  sliceSizes := ![12000, 1, 128]
  wf := gather_S12000x9x128_S137x1_S12000x137x128_02_1_n_n_1_1_120001128_wf
def scatter_S12000x9x128_S137x1_S12000x137x128_02_1_1_1 : ScatterDims S12000x9x128 S137x1 S12000x137x128 where
  updateWindowDims := [0, 2]
  insertedWindowDims := [1]
  scatterDimsToOperandDims := [1]
  indexVectorDim := 1
  wf := scatter_S12000x9x128_S137x1_S12000x137x128_02_1_1_1_wf
def scatter_S1200x9x128_S12000x1_S12000x9x128_12_0_0_1 : ScatterDims S1200x9x128 S12000x1 S12000x9x128 where
  updateWindowDims := [1, 2]
  insertedWindowDims := [0]
  scatterDimsToOperandDims := [0]
  indexVectorDim := 1
  wf := scatter_S1200x9x128_S12000x1_S12000x9x128_12_0_0_1_wf

class Facts : Prop extends Facts₀ where

variable [Facts]
-- ==== Proof.KFrameBits.lean ====
/-
  The frame run of the SO(3) tensor-product convolution's program: forty-seven host operations (the dense
  Clebsch–Gordan table by a four-index scatter-add, the gather of neighbour features), ONE pipelined region over ten
  blocks of 1200 edges, and four host operations after it (the segment sum).

  Three facts carry it.

  * Every host operation writes exactly one buffer, its own result, and no result is an argument array. So the region
    finds each of the thirteen argument arrays as launched, and an argument array that no window stages is still as
    launched when the program ends.
  * Inside the region each of the seven input windows' buffers holds its window's block of the array at every grid
    point. For the four windows whose block index follows the grid that is what the transfer at the point brings; for
    the three whose block index never moves (the filter matrix, its bias, the dense table) the one transfer at the
    first point brings the block, and an unmoved index means the previous point's block IS this point's.
  * The body reads nine vectors through fixed rectangles and then overwrites the WHOLE output block with one value,
    storeVal of the nine. The one store covers the block, so neither what the buffer held before nor the body's one
    (unused) read of it enters the result.
-/
import proofs.«408281_j76957224010212_1_alg».proof.Proof.Gen.Kernel.Launch
import proofs.«408281_j76957224010212_1_alg».proof.Proof.Gen.Kernel.Skeleton
import proofs.«408281_j76957224010212_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- the staged blocks are 1200 rows long
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry contents, the windows' blocks, the stored value -/

/-- Core `c`'s TensorCore buffers when the region is entered: the 47 host operations before it, applied to the
    launched memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- Window `w`'s block at grid point `t`, cut from its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the body stores into the output block, from the nine vectors it loads: `v0` the 1200 directions, `v51` the
    radial rows, `v52` the filter matrix, `v54` its bias, `v58` the cutoffs, `v62` the neighbour features, and `v65`,
    `v76`, `v87` the degree-0, 1, 2 slabs of the dense table. -/
def storeVal (v0 : Vec F S1200x3 .f32) (v51 : Vec F S1200x20 .f32) (v52 : Vec F S20x384 .f32) (v54 : Vec F S384 .f32)
    (v58 : Vec F S1200x1 .f32) (v62 : Vec F S1200x9x128 .f32) (v65 v76 v87 : Vec F S1x9x81 .f32) : FVec F S1200x9x128 .f32 :=
  k0_pay1
    (k0_pay15 (k0_pay6 v0) (k0_pay7 v0) (k0_pay8 v0) (k0_pay9 v0) (k0_pay10 v0) (k0_pay11 (F := F)) (k0_pay12 v0) (k0_pay13 v0) (k0_pay14 v0))
    (k0_pay16 v51 v52 v54 v58)
    (k0_pay17 v62)
    (k0_pay18 (k0_pay6 v0) (k0_pay7 v0) (k0_pay8 v0) (k0_pay9 v0) (k0_pay10 v0) (k0_pay11 (F := F)) (k0_pay12 v0) (k0_pay13 v0) (k0_pay14 v0) v51 v52 v54 v58 v62 v65)
    (k0_pay19 (k0_pay6 v0) (k0_pay7 v0) (k0_pay8 v0) (k0_pay9 v0) (k0_pay10 v0) (k0_pay11 (F := F)) (k0_pay12 v0) (k0_pay13 v0) (k0_pay14 v0) v62 v76)
    (k0_pay20 v51 v52 v54 v58)
    v87

/-! ## The host operations leave the argument arrays alone -/

/-- The operations of a list all leave the buffer of reference b unwritten. -/
abbrev Spares (ops : List (HloOp τ sig (Elt F))) (b : Ref sig .tc) : Prop :=
  ∀ op ∈ ops, Proc.devRef (τ := τ) .tc b ∉ op.writes

/-- Spares of a literal list at a literal reference: each operation writes the singleton of its result, and the
    reference is another one. -/
local macro "spared_by " ops:ident : tactic => `(tactic| (
  refine List.forall_iff_forall_mem.mp ?_
  simp only [$ops:ident, List.flatten_cons, List.flatten_nil, List.append_nil, List.cons_append, List.nil_append,
    List.Forall, StableHlo.nullary_writes, StableHlo.unary_writes, StableHlo.binary_writes, StableHlo.ternary_writes,
    StableHlo.nary_writes, StableHlo.reshape_writes, Finset.mem_singleton]
  repeat' apply And.intro
  all_goals exact StableHlo.devRef_ne_of_ne (by decide)))

theorem pre0 : Spares (F := F) (List.flatten [hostOps0]) main_arg0 := by spared_by hostOps0
theorem pre1 : Spares (F := F) (List.flatten [hostOps0]) main_arg1 := by spared_by hostOps0
theorem pre2 : Spares (F := F) (List.flatten [hostOps0]) main_arg2 := by spared_by hostOps0
theorem pre3 : Spares (F := F) (List.flatten [hostOps0]) main_arg3 := by spared_by hostOps0
theorem pre4 : Spares (F := F) (List.flatten [hostOps0]) main_arg4 := by spared_by hostOps0
theorem pre5 : Spares (F := F) (List.flatten [hostOps0]) main_arg5 := by spared_by hostOps0
theorem pre6 : Spares (F := F) (List.flatten [hostOps0]) main_arg6 := by spared_by hostOps0
theorem pre7 : Spares (F := F) (List.flatten [hostOps0]) main_arg7 := by spared_by hostOps0
theorem pre8 : Spares (F := F) (List.flatten [hostOps0]) main_arg8 := by spared_by hostOps0
theorem pre9 : Spares (F := F) (List.flatten [hostOps0]) main_arg9 := by spared_by hostOps0
theorem pre10 : Spares (F := F) (List.flatten [hostOps0]) main_arg10 := by spared_by hostOps0
theorem pre11 : Spares (F := F) (List.flatten [hostOps0]) main_arg11 := by spared_by hostOps0
theorem pre12 : Spares (F := F) (List.flatten [hostOps0]) main_arg12 := by spared_by hostOps0

theorem post0 : Spares (F := F) (List.flatten [hostOps1]) main_arg0 := by spared_by hostOps1
theorem post6 : Spares (F := F) (List.flatten [hostOps1]) main_arg6 := by spared_by hostOps1
theorem post7 : Spares (F := F) (List.flatten [hostOps1]) main_arg7 := by spared_by hostOps1
theorem post8 : Spares (F := F) (List.flatten [hostOps1]) main_arg8 := by spared_by hostOps1
theorem post9 : Spares (F := F) (List.flatten [hostOps1]) main_arg9 := by spared_by hostOps1
theorem post10 : Spares (F := F) (List.flatten [hostOps1]) main_arg10 := by spared_by hostOps1
theorem post11 : Spares (F := F) (List.flatten [hostOps1]) main_arg11 := by spared_by hostOps1
theorem post12 : Spares (F := F) (List.flatten [hostOps1]) main_arg12 := by spared_by hostOps1

/-- A buffer the operations before the region spare is found by the region as launched. -/
theorem entry_as_launched (c : Dev nD) (b : Ref sig .tc) (h : Spares (F := F) (List.flatten [hostOps0]) b) :
    V m c b = m ((c : Thread nD τ).loc b) :=
  StableHlo.after_of_forall_not_mem (b := Proc.devRef .tc b) _ _ h

/-- A buffer that the operations on both sides of the region spare and that is no window's array ends as launched: the
    tail's valuation there is the entry valuation's, which is the launched memory's. -/
theorem exit_as_launched (dats : (p : Fin 1) → (c : Dev nD) → Dat τ (Elt F) Unit ℕ (UR sig nD τ) ℕ (cfgs p) c) (c : Dev nD)
    (b : Ref sig .tc) (h0 : Spares (F := F) (List.flatten [hostOps0]) b) (h1 : Spares (F := F) (List.flatten [hostOps1]) b)
    (hw : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ h1,
    Pipeline.withArrays_of_ne _ c (V0 m c) _ b (by exact hw)]
  exact entry_as_launched m c b h0

/-! ## The program as "host operations, the region, host operations" -/

/-- No host operation allocates. -/
theorem pre_fresh : (hostOps0 : List (HloOp τ sig (Elt F))).Forall fun op => op.fresh = ∅ := by
  simp only [List.Forall]; repeat' constructor
theorem post_fresh : (hostOps1 : List (HloOp τ sig (Elt F))).Forall fun op => op.fresh = ∅ := by
  simp only [List.Forall]; repeat' constructor

/-- The program reduces to its region, entered at V and continued by the four operations of the tail. -/
theorem main_around : Pipeline.HMainK (Ix := Unit) (Name := ℕ) (U := UR sig nD τ) (Lvl := ℕ) cfgs 0 defs₀ Variants.none m
      (main (F := F)) (V m) (fun _ => Pipeline.chain [StableHlo.seq hostOps1]) :=
  Pipeline.hmain_around cfgs 0 defs₀ Variants.none m main [hostOps0] [hostOps1] (by simp only [List.Forall]; exact hostOps0_sub)
    (by simp only [List.Forall]; exact pre_fresh) main_chain

/-- The tail's operations touch unscoped TensorCore buffers only: each is an array of the pipeline or bypasses it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)

/-- They allocate nothing. -/
theorem tail_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp post_fresh) op hop

/-- And they write no array of the pipeline: two constants, an index column and the segment sum, each into a buffer of
    its own. -/
theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  simp only [hostOps1, List.mem_cons, List.mem_nil_iff, or_false] at hop
  rcases hop with rfl | rfl | rfl | rfl
  all_goals intro w; fin_cases w <;> simp only [StableHlo.nullary_writes, StableHlo.unary_writes, StableHlo.ternary_writes, Finset.mem_singleton] <;> exact StableHlo.devRef_ne_of_ne (by decide)

/-! ## What the body reads and what it leaves -/

/-- The rectangles of the body's accesses: every staged block whole, and the dense table one degree slab at a time. -/
abbrev rXj : Rect S1200x9x128 := Rect.unit (s := S1200x9x128) ![0, 0, 0] S1200x9x128.size inb_S1200x9x128_S1200x9x128_0_0_0
abbrev rDir : Rect S1200x3 := Rect.unit (s := S1200x3) ![0, 0] S1200x3.size inb_S1200x3_S1200x3_0_0
abbrev rRad : Rect S1200x20 := Rect.unit (s := S1200x20) ![0, 0] S1200x20.size inb_S1200x20_S1200x20_0_0
abbrev rCut : Rect S1200x1 := Rect.unit (s := S1200x1) ![0, 0] S1200x1.size inb_S1200x1_S1200x1_0_0
abbrev rWf : Rect S20x384 := Rect.unit (s := S20x384) ![0, 0] S20x384.size inb_S20x384_S20x384_0_0
abbrev rBf : Rect S384 := Rect.unit (s := S384) ![0] S384.size inb_S384_S384_0
abbrev rGw0 : Rect S3x9x81 := Rect.unit (s := S3x9x81) ![0, 0, 0] S1x9x81.size inb_S3x9x81_S1x9x81_0_0_0
abbrev rGw1 : Rect S3x9x81 := Rect.unit (s := S3x9x81) ![1, 0, 0] S1x9x81.size inb_S3x9x81_S1x9x81_1_0_0
abbrev rGw2 : Rect S3x9x81 := Rect.unit (s := S3x9x81) ![2, 0, 0] S1x9x81.size inb_S3x9x81_S1x9x81_2_0_0
abbrev rOut : Rect S1200x9x128 := Rect.unit (s := S1200x9x128) ![0, 0, 0] S1200x9x128.size inb_S1200x9x128_S1200x9x128_0_0_0

/-- The output block after the body, from the seven input blocks: its one store, whose payload is storeVal of the nine
    vectors read (x0 neighbour features, x1 directions, x2 radial rows, x3 cutoffs, x4 filter matrix, x5 bias, x6 the
    dense table). -/
def out7 (x0 : Vec F S1200x9x128 .f32) (x1 : Vec F S1200x3 .f32) (x2 : Vec F S1200x20 .f32) (x3 : Vec F S1200x1 .f32)
    (x4 : Vec F S20x384 .f32) (x5 : Vec F S384 .f32) (x6 : Vec F S3x9x81 .f32) : Vec F S1200x9x128 .f32 :=
  View.canon [⟨rOut, storeVal (View.ld x1 rDir) (View.ld x2 rRad) (View.ld x4 rWf) (View.ld x5 rBf) (View.ld x3 rCut)
    (View.ld x0 rXj) (View.ld x6 rGw0) (View.ld x6 rGw1) (View.ld x6 rGw2)⟩]

/-- The one store is the whole block: a tiling by a single tile. -/
theorem out_covered (p : Vec F S1200x9x128 .f32) (y : S1200x9x128.Idx) :
    ∃ pc ∈ ([⟨rOut, p⟩] : List (View.Piece (Elt F) S1200x9x128 .f32)), y ∈ pc.1.set :=
  View.cover_of_tiled [⟨rOut, p⟩] S1200x9x128.size (by rfl) y

set_option maxHeartbeats 1000000 in
/-- The body on eight whole memrefs: the seven inputs at read contents x0 … x6, the output at anything. It runs, hands the
    inputs back as they were, and leaves the output at out7 of the inputs. -/
theorem body_triple (c : Dev nD) (E : Set ℕ) (i : grid0.Coords)
    (a0 : Memref sig .tc .vmem S1200x9x128 .f32) (w0 : a0.IsWhole) (a1 : Memref sig .tc .vmem S1200x3 .f32) (w1 : a1.IsWhole)
    (a2 : Memref sig .tc .vmem S1200x20 .f32) (w2 : a2.IsWhole) (a3 : Memref sig .tc .vmem S1200x1 .f32) (w3 : a3.IsWhole)
    (a4 : Memref sig .tc .vmem S20x384 .f32) (w4 : a4.IsWhole) (a5 : Memref sig .tc .vmem S384 .f32) (w5 : a5.IsWhole)
    (a6 : Memref sig .tc .vmem S3x9x81 .f32) (w6 : a6.IsWhole) (a7 : Memref sig .tc .vmem S1200x9x128 .f32) (w7 : a7.IsWhole)
    (x0 : Vec F S1200x9x128 .f32) (x1 : Vec F S1200x3 .f32) (x2 : Vec F S1200x20 .f32) (x3 : Vec F S1200x1 .f32)
    (x4 : Vec F S20x384 .f32) (x5 : Vec F S384 .f32) (x6 : Vec F S3x9x81 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare (out7 x0 x1 x2 x3 x4 x5 x6)) -∗ K ⟨⟩))
      ⊢ wp frame (wpE (defs₀ (F := F)) Variants.none c none) E (cc0__so3_conv_kernel i a0 w0 a1 w1 a2 w2 a3 w3 a4 w4 a5 w5 a6 w6 a7 w7) K := by
  simp only [cc0__so3_conv_kernel_eq_skeleton]; unfold cc0__so3_conv_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e0 e1 e2 e3 e4 e5 e6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (out_covered _)

/-! ## The proof data of the pipeline -/

/-- On core c: the arrays as the region finds them; after the body at point t each input buffer still at its block and
    the output buffer at out7 of the seven blocks; the invariant the scoped rest and the generator register, untouched;
    full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The arrays of the proof data are the entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = out7 (iblk m c 0 t) (iblk m c 1 t) (iblk m c 2 t) (iblk m c 3 t) (iblk m c 4 t) (iblk m c 5 t) (iblk m c 6 t) := by
  dsimp only [dats]

/-- An input window the body leaves at its block holds that block at every point, transferred there or not: where it
    is not, the block index has not moved since the point before. The seven input windows are uncut and never idle. -/
local macro "holds_block " w:num " via " h:ident : tactic => `(tactic| (
  intro c t d
  exact ((dats m 0 c).before_in_eq_fetched $w rfl (fun _ => rfl) (fun _ _ _ => rfl)
      (fun t => by rw [$h:ident]; unfold Dat.blockOf iblk; rw [A_eq]; try rfl) t d).trans
    (by unfold Dat.fetched Dat.blockOf iblk; rw [A_eq]; try rfl)))

theorem before0 : ∀ (c : Dev nD) (t : Fin cfg0.N) (d), (dats m 0 c).before 0 t d = iblk m c 0 t := by holds_block 0 via after0
theorem before1 : ∀ (c : Dev nD) (t : Fin cfg0.N) (d), (dats m 0 c).before 1 t d = iblk m c 1 t := by holds_block 1 via after1
theorem before2 : ∀ (c : Dev nD) (t : Fin cfg0.N) (d), (dats m 0 c).before 2 t d = iblk m c 2 t := by holds_block 2 via after2
theorem before3 : ∀ (c : Dev nD) (t : Fin cfg0.N) (d), (dats m 0 c).before 3 t d = iblk m c 3 t := by holds_block 3 via after3
theorem before4 : ∀ (c : Dev nD) (t : Fin cfg0.N) (d), (dats m 0 c).before 4 t d = iblk m c 4 t := by holds_block 4 via after4
theorem before5 : ∀ (c : Dev nD) (t : Fin cfg0.N) (d), (dats m 0 c).before 5 t d = iblk m c 5 t := by holds_block 5 via after5
theorem before6 : ∀ (c : Dev nD) (t : Fin cfg0.N) (d), (dats m 0 c).before 6 t d = iblk m c 6 t := by holds_block 6 via after6

/-! ## The body obligation -/

/-- At any point: called with the invariant, the core's debt and the eight current staging buffers as the pipeline hands
    them over, the body returns all of it with each buffer at what the proof data says. The inputs hold their blocks, so
    body_triple applies; the invariant and the debt pass through unread, and do not change from a point to the next. -/
theorem at_point (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ owns (c : Thread nD τ) (st0_6 t) fullShare ((dats m 0 c).after 6 t)
        ∗ owns (c : Thread nD τ) (st0_7 t) fullShare ((dats m 0 c).after 7 t))) := by
  unfold bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation: its conjunction over the eight windows is the one at_point spells out. -/
theorem body_obligation (c : Dev nD) : BodyObligation (dats (F := F) m 0 c) (defs₀ (F := F)) Variants.none () Set.univ := fun t => by
  rw [bigSep_W0, bigSep_W0]
  exact at_point m c t

/-! ## The run and the frame -/

set_option backward.isDefEq.respectTransparency.types false in
/-- From any memory with zero counters, every weakly fair execution of the program on the TensorCores terminates, and in
    every final state each array of the pipeline holds what the proof data computes and every other unscoped buffer what
    the tail leaves of the entry contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := main_around m) (hA := A_eq m) (hΦ := fun _ _ => rfl)

/-- info: 'Cert.Kernel.Fr.run_main' depends on axioms: [propext, Classical.choice, Quot.sound] -/
#guard_msgs in #print axioms run_main

/-- In a state the frame run ends in, on any core, the thirteen argument arrays are as launched. Five of them are arrays
    of input windows (the radial rows, the directions, the cutoffs, the filter matrix and its bias): an input window's
    array ends at its entry contents, which are the launched ones. The other eight (the node features, the sparse
    table's values, and the six index vectors) are staged by no window and written by no host operation. -/
theorem kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).2 main_arg0 (Pipeline.mem_restRefs_of main_arg0 (by decide) (by decide))).trans (exit_as_launched m (dats m) c main_arg0 pre0 post0 (by decide)),
   ((h c).1 2).trans (((dats m 0 c).arrAt_in 2 rfl _).trans ((A_eq m c 2).trans (entry_as_launched m c main_arg1 pre1))),
   ((h c).1 1).trans (((dats m 0 c).arrAt_in 1 rfl _).trans ((A_eq m c 1).trans (entry_as_launched m c main_arg2 pre2))),
   ((h c).1 3).trans (((dats m 0 c).arrAt_in 3 rfl _).trans ((A_eq m c 3).trans (entry_as_launched m c main_arg3 pre3))),
   ((h c).1 4).trans (((dats m 0 c).arrAt_in 4 rfl _).trans ((A_eq m c 4).trans (entry_as_launched m c main_arg4 pre4))),
   ((h c).1 5).trans (((dats m 0 c).arrAt_in 5 rfl _).trans ((A_eq m c 5).trans (entry_as_launched m c main_arg5 pre5))),
   ((h c).2 main_arg6 (Pipeline.mem_restRefs_of main_arg6 (by decide) (by decide))).trans (exit_as_launched m (dats m) c main_arg6 pre6 post6 (by decide)),
   ((h c).2 main_arg7 (Pipeline.mem_restRefs_of main_arg7 (by decide) (by decide))).trans (exit_as_launched m (dats m) c main_arg7 pre7 post7 (by decide)),
   ((h c).2 main_arg8 (Pipeline.mem_restRefs_of main_arg8 (by decide) (by decide))).trans (exit_as_launched m (dats m) c main_arg8 pre8 post8 (by decide)),
   ((h c).2 main_arg9 (Pipeline.mem_restRefs_of main_arg9 (by decide) (by decide))).trans (exit_as_launched m (dats m) c main_arg9 pre9 post9 (by decide)),
   ((h c).2 main_arg10 (Pipeline.mem_restRefs_of main_arg10 (by decide) (by decide))).trans (exit_as_launched m (dats m) c main_arg10 pre10 post10 (by decide)),
   ((h c).2 main_arg11 (Pipeline.mem_restRefs_of main_arg11 (by decide) (by decide))).trans (exit_as_launched m (dats m) c main_arg11 pre11 post11 (by decide)),
   ((h c).2 main_arg12 (Pipeline.mem_restRefs_of main_arg12 (by decide) (by decide))).trans (exit_as_launched m (dats m) c main_arg12 pre12 post12 (by decide))⟩

/-- THE FRAME: the program runs to completion, and its thirteen argument arrays end as launched (kept, at every final
    state of the frame run). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => kept m r h c) (run_main m ρ)

end Cert.Kernel.Fr

end
-- ==== Proof.KBase.lean ====
/-
  The kernel program's side of the bridge, before any proof: what the region finds in each TensorCore buffer when it
  is entered (`V0`, `V`: the host operations that precede it, applied to the launched memory), each window's block of
  its array at a grid point (`iblk`), and the value the body stores into the output block as ONE pure function of the
  nine vectors it loads (`storeVal`): the direction block, the radial block, the filter matrix and bias, the cutoff
  column, the neighbour-feature block and the three degree slabs of the dense Clebsch–Gordan table.
-/
import proofs.«408281_j76957224010212_1_alg».proof.Proof.Gen.KernelIdeal.Launch
import proofs.«408281_j76957224010212_1_alg».proof.Proof.Gen.KernelIdeal.Skeleton
import proofs.«408281_j76957224010212_1_alg».proof.Proof.Gen.KernelIdeal.Points
import Idealize.ShloMosaic.Lib.Pipeline.FrameBody
import Idealize.ShloMosaic.Lib.Pipeline.FrameSuffix

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ)

/-- Core `c`'s TensorCore buffers when the region is entered: the 47 host operations before it, applied to the
    launched memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- Window `w`'s block at grid point `t`, cut from its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the body stores into the output block, from the nine vectors it loads: `v0` the 1200 directions, `v51` the
    radial rows, `v52` the filter matrix, `v54` its bias, `v58` the cutoffs, `v62` the neighbour features, and `v65`,
    `v76`, `v87` the degree-0, 1, 2 slabs of the dense table. -/
def storeVal (v0 : Vec F S1200x3 .f32) (v51 : Vec F S1200x20 .f32) (v52 : Vec F S20x384 .f32) (v54 : Vec F S384 .f32)
    (v58 : Vec F S1200x1 .f32) (v62 : Vec F S1200x9x128 .f32) (v65 v76 v87 : Vec F S1x9x81 .f32) : FVec F S1200x9x128 .f32 :=
  k0_pay1
    (k0_pay15 (k0_pay6 v0) (k0_pay7 v0) (k0_pay8 v0) (k0_pay9 v0) (k0_pay10 v0) (k0_pay11 (F := F)) (k0_pay12 v0) (k0_pay13 v0) (k0_pay14 v0))
    (k0_pay16 v51 v52 v54 v58)
    (k0_pay17 v62)
    (k0_pay18 (k0_pay6 v0) (k0_pay7 v0) (k0_pay8 v0) (k0_pay9 v0) (k0_pay10 v0) (k0_pay11 (F := F)) (k0_pay12 v0) (k0_pay13 v0) (k0_pay14 v0) v51 v52 v54 v58 v62 v65)
    (k0_pay19 (k0_pay6 v0) (k0_pay7 v0) (k0_pay8 v0) (k0_pay9 v0) (k0_pay10 v0) (k0_pay11 (F := F)) (k0_pay12 v0) (k0_pay13 v0) (k0_pay14 v0) v62 v76)
    (k0_pay20 v51 v52 v54 v58)
    v87

end Cert.KernelIdeal.Fr

end
-- ==== Proof.KFrame.lean ====
/-
  The frame run of the SO(3) tensor-product convolution's program: forty-seven host operations (the dense
  Clebsch–Gordan table by a four-index scatter-add, the gather of neighbour features), ONE pipelined region over ten
  blocks of 1200 edges, and four host operations after it (the segment sum).

  Three facts carry it.

  * Every host operation writes exactly one buffer, its own result, and no result is an argument array. So the region
    finds each of the thirteen argument arrays as launched, and an argument array that no window stages is still as
    launched when the program ends.
  * Inside the region each of the seven input windows' buffers holds its window's block of the array at every grid
    point. For the four windows whose block index follows the grid that is what the transfer at the point brings; for
    the three whose block index never moves (the filter matrix, its bias, the dense table) the one transfer at the
    first point brings the block, and an unmoved index means the previous point's block IS this point's.
  * The body reads nine vectors through fixed rectangles and then overwrites the WHOLE output block with one value,
    storeVal of the nine. The one store covers the block, so neither what the buffer held before nor the body's one
    (unused) read of it enters the result.
-/
import proofs.«408281_j76957224010212_1_alg».proof.Proof.KBase
import Idealize.ShloMosaic.Lib.Ring
import Idealize.ShloMosaic.Lib.Tactic

-- the staged blocks are 1200 rows long
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations leave the argument arrays alone -/

/-- The operations of a list all leave the buffer of reference b unwritten. -/
abbrev Spares (ops : List (HloOp τ sig (Elt F))) (b : Ref sig .tc) : Prop :=
  ∀ op ∈ ops, Proc.devRef (τ := τ) .tc b ∉ op.writes

/-- Spares of a literal list at a literal reference: each operation writes the singleton of its result, and the
    reference is another one. -/
local macro "spared_by " ops:ident : tactic => `(tactic| (
  refine List.forall_iff_forall_mem.mp ?_
  simp only [$ops:ident, List.flatten_cons, List.flatten_nil, List.append_nil, List.cons_append, List.nil_append,
    List.Forall, StableHlo.nullary_writes, StableHlo.unary_writes, StableHlo.binary_writes, StableHlo.ternary_writes,
    StableHlo.nary_writes, StableHlo.reshape_writes, Finset.mem_singleton]
  repeat' apply And.intro
  all_goals exact StableHlo.devRef_ne_of_ne (by decide)))

theorem pre0 : Spares (F := F) (List.flatten [hostOps0]) main_arg0 := by spared_by hostOps0
theorem pre1 : Spares (F := F) (List.flatten [hostOps0]) main_arg1 := by spared_by hostOps0
theorem pre2 : Spares (F := F) (List.flatten [hostOps0]) main_arg2 := by spared_by hostOps0
theorem pre3 : Spares (F := F) (List.flatten [hostOps0]) main_arg3 := by spared_by hostOps0
theorem pre4 : Spares (F := F) (List.flatten [hostOps0]) main_arg4 := by spared_by hostOps0
theorem pre5 : Spares (F := F) (List.flatten [hostOps0]) main_arg5 := by spared_by hostOps0
theorem pre6 : Spares (F := F) (List.flatten [hostOps0]) main_arg6 := by spared_by hostOps0
theorem pre7 : Spares (F := F) (List.flatten [hostOps0]) main_arg7 := by spared_by hostOps0
theorem pre8 : Spares (F := F) (List.flatten [hostOps0]) main_arg8 := by spared_by hostOps0
theorem pre9 : Spares (F := F) (List.flatten [hostOps0]) main_arg9 := by spared_by hostOps0
theorem pre10 : Spares (F := F) (List.flatten [hostOps0]) main_arg10 := by spared_by hostOps0
theorem pre11 : Spares (F := F) (List.flatten [hostOps0]) main_arg11 := by spared_by hostOps0
theorem pre12 : Spares (F := F) (List.flatten [hostOps0]) main_arg12 := by spared_by hostOps0

theorem post0 : Spares (F := F) (List.flatten [hostOps1]) main_arg0 := by spared_by hostOps1
theorem post6 : Spares (F := F) (List.flatten [hostOps1]) main_arg6 := by spared_by hostOps1
theorem post7 : Spares (F := F) (List.flatten [hostOps1]) main_arg7 := by spared_by hostOps1
theorem post8 : Spares (F := F) (List.flatten [hostOps1]) main_arg8 := by spared_by hostOps1
theorem post9 : Spares (F := F) (List.flatten [hostOps1]) main_arg9 := by spared_by hostOps1
theorem post10 : Spares (F := F) (List.flatten [hostOps1]) main_arg10 := by spared_by hostOps1
theorem post11 : Spares (F := F) (List.flatten [hostOps1]) main_arg11 := by spared_by hostOps1
theorem post12 : Spares (F := F) (List.flatten [hostOps1]) main_arg12 := by spared_by hostOps1

/-- A buffer the operations before the region spare is found by the region as launched. -/
theorem entry_as_launched (c : Dev nD) (b : Ref sig .tc) (h : Spares (F := F) (List.flatten [hostOps0]) b) :
    V m c b = m ((c : Thread nD τ).loc b) :=
  StableHlo.after_of_forall_not_mem (b := Proc.devRef .tc b) _ _ h

/-- A buffer that the operations on both sides of the region spare and that is no window's array ends as launched: the
    tail's valuation there is the entry valuation's, which is the launched memory's. -/
theorem exit_as_launched (dats : (p : Fin 1) → (c : Dev nD) → Dat τ (Elt F) Unit ℕ (UR sig nD τ) ℕ (cfgs p) c) (c : Dev nD)
    (b : Ref sig .tc) (h0 : Spares (F := F) (List.flatten [hostOps0]) b) (h1 : Spares (F := F) (List.flatten [hostOps1]) b)
    (hw : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ h1,
    Pipeline.withArrays_of_ne _ c (V0 m c) _ b (by exact hw)]
  exact entry_as_launched m c b h0

/-! ## The program as "host operations, the region, host operations" -/

/-- No host operation allocates. -/
theorem pre_fresh : (hostOps0 : List (HloOp τ sig (Elt F))).Forall fun op => op.fresh = ∅ := by
  simp only [List.Forall]; repeat' constructor
theorem post_fresh : (hostOps1 : List (HloOp τ sig (Elt F))).Forall fun op => op.fresh = ∅ := by
  simp only [List.Forall]; repeat' constructor

/-- The program reduces to its region, entered at V and continued by the four operations of the tail. -/
theorem main_around : Pipeline.HMainK (Ix := Unit) (Name := ℕ) (U := UR sig nD τ) (Lvl := ℕ) cfgs 0 defs₀ Variants.none m
      (main (F := F)) (V m) (fun _ => Pipeline.chain [StableHlo.seq hostOps1]) :=
  Pipeline.hmain_around cfgs 0 defs₀ Variants.none m main [hostOps0] [hostOps1] (by simp only [List.Forall]; exact hostOps0_sub)
    (by simp only [List.Forall]; exact pre_fresh) main_chain

/-- The tail's operations touch unscoped TensorCore buffers only: each is an array of the pipeline or bypasses it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)

/-- They allocate nothing. -/
theorem tail_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp post_fresh) op hop

/-- And they write no array of the pipeline: two constants, an index column and the segment sum, each into a buffer of
    its own. -/
theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  simp only [hostOps1, List.mem_cons, List.mem_nil_iff, or_false] at hop
  rcases hop with rfl | rfl | rfl | rfl
  all_goals intro w; fin_cases w <;> simp only [StableHlo.nullary_writes, StableHlo.unary_writes, StableHlo.ternary_writes, Finset.mem_singleton] <;> exact StableHlo.devRef_ne_of_ne (by decide)

/-! ## What the body reads and what it leaves -/

/-- The rectangles of the body's accesses: every staged block whole, and the dense table one degree slab at a time. -/
abbrev rXj : Rect S1200x9x128 := Rect.unit (s := S1200x9x128) ![0, 0, 0] S1200x9x128.size inb_S1200x9x128_S1200x9x128_0_0_0
abbrev rDir : Rect S1200x3 := Rect.unit (s := S1200x3) ![0, 0] S1200x3.size inb_S1200x3_S1200x3_0_0
abbrev rRad : Rect S1200x20 := Rect.unit (s := S1200x20) ![0, 0] S1200x20.size inb_S1200x20_S1200x20_0_0
abbrev rCut : Rect S1200x1 := Rect.unit (s := S1200x1) ![0, 0] S1200x1.size inb_S1200x1_S1200x1_0_0
abbrev rWf : Rect S20x384 := Rect.unit (s := S20x384) ![0, 0] S20x384.size inb_S20x384_S20x384_0_0
abbrev rBf : Rect S384 := Rect.unit (s := S384) ![0] S384.size inb_S384_S384_0
abbrev rGw0 : Rect S3x9x81 := Rect.unit (s := S3x9x81) ![0, 0, 0] S1x9x81.size inb_S3x9x81_S1x9x81_0_0_0
abbrev rGw1 : Rect S3x9x81 := Rect.unit (s := S3x9x81) ![1, 0, 0] S1x9x81.size inb_S3x9x81_S1x9x81_1_0_0
abbrev rGw2 : Rect S3x9x81 := Rect.unit (s := S3x9x81) ![2, 0, 0] S1x9x81.size inb_S3x9x81_S1x9x81_2_0_0
abbrev rOut : Rect S1200x9x128 := Rect.unit (s := S1200x9x128) ![0, 0, 0] S1200x9x128.size inb_S1200x9x128_S1200x9x128_0_0_0

/-- The output block after the body, from the seven input blocks: its one store, whose payload is storeVal of the nine
    vectors read (x0 neighbour features, x1 directions, x2 radial rows, x3 cutoffs, x4 filter matrix, x5 bias, x6 the
    dense table). -/
def out7 (x0 : Vec F S1200x9x128 .f32) (x1 : Vec F S1200x3 .f32) (x2 : Vec F S1200x20 .f32) (x3 : Vec F S1200x1 .f32)
    (x4 : Vec F S20x384 .f32) (x5 : Vec F S384 .f32) (x6 : Vec F S3x9x81 .f32) : Vec F S1200x9x128 .f32 :=
  View.canon [⟨rOut, storeVal (View.ld x1 rDir) (View.ld x2 rRad) (View.ld x4 rWf) (View.ld x5 rBf) (View.ld x3 rCut)
    (View.ld x0 rXj) (View.ld x6 rGw0) (View.ld x6 rGw1) (View.ld x6 rGw2)⟩]

/-- The one store is the whole block: a tiling by a single tile. -/
theorem out_covered (p : Vec F S1200x9x128 .f32) (y : S1200x9x128.Idx) :
    ∃ pc ∈ ([⟨rOut, p⟩] : List (View.Piece (Elt F) S1200x9x128 .f32)), y ∈ pc.1.set :=
  View.cover_of_tiled [⟨rOut, p⟩] S1200x9x128.size (by rfl) y

set_option maxHeartbeats 1000000 in
/-- The body on eight whole memrefs: the seven inputs at read contents x0 … x6, the output at anything. It runs, hands the
    inputs back as they were, and leaves the output at out7 of the inputs. -/
theorem body_triple (c : Dev nD) (E : Set ℕ) (i : grid0.Coords)
    (a0 : Memref sig .tc .vmem S1200x9x128 .f32) (w0 : a0.IsWhole) (a1 : Memref sig .tc .vmem S1200x3 .f32) (w1 : a1.IsWhole)
    (a2 : Memref sig .tc .vmem S1200x20 .f32) (w2 : a2.IsWhole) (a3 : Memref sig .tc .vmem S1200x1 .f32) (w3 : a3.IsWhole)
    (a4 : Memref sig .tc .vmem S20x384 .f32) (w4 : a4.IsWhole) (a5 : Memref sig .tc .vmem S384 .f32) (w5 : a5.IsWhole)
    (a6 : Memref sig .tc .vmem S3x9x81 .f32) (w6 : a6.IsWhole) (a7 : Memref sig .tc .vmem S1200x9x128 .f32) (w7 : a7.IsWhole)
    (x0 : Vec F S1200x9x128 .f32) (x1 : Vec F S1200x3 .f32) (x2 : Vec F S1200x20 .f32) (x3 : Vec F S1200x1 .f32)
    (x4 : Vec F S20x384 .f32) (x5 : Vec F S384 .f32) (x6 : Vec F S3x9x81 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare (out7 x0 x1 x2 x3 x4 x5 x6)) -∗ K ⟨⟩))
      ⊢ wp frame (wpE (defs₀ (F := F)) Variants.none c none) E (cc0__so3_conv_kernel i a0 w0 a1 w1 a2 w2 a3 w3 a4 w4 a5 w5 a6 w6 a7 w7) K := by
  simp only [cc0__so3_conv_kernel_eq_skeleton]; unfold cc0__so3_conv_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e0 e1 e2 e3 e4 e5 e6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (out_covered _)

/-! ## The proof data of the pipeline -/

/-- On core c: the arrays as the region finds them; after the body at point t each input buffer still at its block and
    the output buffer at out7 of the seven blocks; the invariant the scoped rest and the generator register, untouched;
    full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The arrays of the proof data are the entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = out7 (iblk m c 0 t) (iblk m c 1 t) (iblk m c 2 t) (iblk m c 3 t) (iblk m c 4 t) (iblk m c 5 t) (iblk m c 6 t) := by
  dsimp only [dats]

/-- An input window the body leaves at its block holds that block at every point, transferred there or not: where it
    is not, the block index has not moved since the point before. The seven input windows are uncut and never idle. -/
local macro "holds_block " w:num " via " h:ident : tactic => `(tactic| (
  intro c t d
  exact ((dats m 0 c).before_in_eq_fetched $w rfl (fun _ => rfl) (fun _ _ _ => rfl)
      (fun t => by rw [$h:ident]; unfold Dat.blockOf iblk; rw [A_eq]; try rfl) t d).trans
    (by unfold Dat.fetched Dat.blockOf iblk; rw [A_eq]; try rfl)))

theorem before0 : ∀ (c : Dev nD) (t : Fin cfg0.N) (d), (dats m 0 c).before 0 t d = iblk m c 0 t := by holds_block 0 via after0
theorem before1 : ∀ (c : Dev nD) (t : Fin cfg0.N) (d), (dats m 0 c).before 1 t d = iblk m c 1 t := by holds_block 1 via after1
theorem before2 : ∀ (c : Dev nD) (t : Fin cfg0.N) (d), (dats m 0 c).before 2 t d = iblk m c 2 t := by holds_block 2 via after2
theorem before3 : ∀ (c : Dev nD) (t : Fin cfg0.N) (d), (dats m 0 c).before 3 t d = iblk m c 3 t := by holds_block 3 via after3
theorem before4 : ∀ (c : Dev nD) (t : Fin cfg0.N) (d), (dats m 0 c).before 4 t d = iblk m c 4 t := by holds_block 4 via after4
theorem before5 : ∀ (c : Dev nD) (t : Fin cfg0.N) (d), (dats m 0 c).before 5 t d = iblk m c 5 t := by holds_block 5 via after5
theorem before6 : ∀ (c : Dev nD) (t : Fin cfg0.N) (d), (dats m 0 c).before 6 t d = iblk m c 6 t := by holds_block 6 via after6

/-! ## The body obligation -/

/-- At any point: called with the invariant, the core's debt and the eight current staging buffers as the pipeline hands
    them over, the body returns all of it with each buffer at what the proof data says. The inputs hold their blocks, so
    body_triple applies; the invariant and the debt pass through unread, and do not change from a point to the next. -/
theorem at_point (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ owns (c : Thread nD τ) (st0_6 t) fullShare ((dats m 0 c).after 6 t)
        ∗ owns (c : Thread nD τ) (st0_7 t) fullShare ((dats m 0 c).after 7 t))) := by
  unfold bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation: its conjunction over the eight windows is the one at_point spells out. -/
theorem body_obligation (c : Dev nD) : BodyObligation (dats (F := F) m 0 c) (defs₀ (F := F)) Variants.none () Set.univ := fun t => by
  rw [bigSep_W0, bigSep_W0]
  exact at_point m c t

/-! ## The run and the frame -/

set_option backward.isDefEq.respectTransparency.types false in
/-- From any memory with zero counters, every weakly fair execution of the program on the TensorCores terminates, and in
    every final state each array of the pipeline holds what the proof data computes and every other unscoped buffer what
    the tail leaves of the entry contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := main_around m) (hA := A_eq m) (hΦ := fun _ _ => rfl)

/-- info: 'Cert.KernelIdeal.Fr.run_main' depends on axioms: [propext, Classical.choice, Quot.sound] -/
#guard_msgs in #print axioms run_main

/-- In a state the frame run ends in, on any core, the thirteen argument arrays are as launched. Five of them are arrays
    of input windows (the radial rows, the directions, the cutoffs, the filter matrix and its bias): an input window's
    array ends at its entry contents, which are the launched ones. The other eight (the node features, the sparse
    table's values, and the six index vectors) are staged by no window and written by no host operation. -/
theorem kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).2 main_arg0 (Pipeline.mem_restRefs_of main_arg0 (by decide) (by decide))).trans (exit_as_launched m (dats m) c main_arg0 pre0 post0 (by decide)),
   ((h c).1 2).trans (((dats m 0 c).arrAt_in 2 rfl _).trans ((A_eq m c 2).trans (entry_as_launched m c main_arg1 pre1))),
   ((h c).1 1).trans (((dats m 0 c).arrAt_in 1 rfl _).trans ((A_eq m c 1).trans (entry_as_launched m c main_arg2 pre2))),
   ((h c).1 3).trans (((dats m 0 c).arrAt_in 3 rfl _).trans ((A_eq m c 3).trans (entry_as_launched m c main_arg3 pre3))),
   ((h c).1 4).trans (((dats m 0 c).arrAt_in 4 rfl _).trans ((A_eq m c 4).trans (entry_as_launched m c main_arg4 pre4))),
   ((h c).1 5).trans (((dats m 0 c).arrAt_in 5 rfl _).trans ((A_eq m c 5).trans (entry_as_launched m c main_arg5 pre5))),
   ((h c).2 main_arg6 (Pipeline.mem_restRefs_of main_arg6 (by decide) (by decide))).trans (exit_as_launched m (dats m) c main_arg6 pre6 post6 (by decide)),
   ((h c).2 main_arg7 (Pipeline.mem_restRefs_of main_arg7 (by decide) (by decide))).trans (exit_as_launched m (dats m) c main_arg7 pre7 post7 (by decide)),
   ((h c).2 main_arg8 (Pipeline.mem_restRefs_of main_arg8 (by decide) (by decide))).trans (exit_as_launched m (dats m) c main_arg8 pre8 post8 (by decide)),
   ((h c).2 main_arg9 (Pipeline.mem_restRefs_of main_arg9 (by decide) (by decide))).trans (exit_as_launched m (dats m) c main_arg9 pre9 post9 (by decide)),
   ((h c).2 main_arg10 (Pipeline.mem_restRefs_of main_arg10 (by decide) (by decide))).trans (exit_as_launched m (dats m) c main_arg10 pre10 post10 (by decide)),
   ((h c).2 main_arg11 (Pipeline.mem_restRefs_of main_arg11 (by decide) (by decide))).trans (exit_as_launched m (dats m) c main_arg11 pre11 post11 (by decide)),
   ((h c).2 main_arg12 (Pipeline.mem_restRefs_of main_arg12 (by decide) (by decide))).trans (exit_as_launched m (dats m) c main_arg12 pre12 post12 (by decide))⟩

/-- THE FRAME: the program runs to completion, and its thirteen argument arrays end as launched (kept, at every final
    state of the frame run). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => kept m r h c) (run_main m ρ)

end Cert.KernelIdeal.Fr

end
-- ==== Proof.KBlocks.lean ====
/-
  How the region's blocks sit in their arrays. The grid has ten points; at point `t` the four edge-indexed inputs and
  the output are at block `t` of the edge axis (1200 edges each), and the filter matrix, its bias and the dense table
  are whole at every point. So entry `(e, …)` of an edge-indexed block at point `t` is entry `(1200·t + e, …)` of its
  array, the output's ten blocks tile the 12000 edges, and every index of the output array lies in exactly the block
  of its edge's quotient by 1200.
-/
import proofs.«408281_j76957224010212_1_alg».proof.Proof.KBase
import Idealize.ShloMosaic.Lib.ValueIdx
import Idealize.ShloMosaic.Lib.Pipeline.Value

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-- The printed index maps, decided over the ten grid points. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 1) = 0
    ∧ win0_6.index t (0 : Fin 3) = 0 ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0
    ∧ t.val < 10 :=
  (by decide +kernel : ∀ t : Fin grid0.N, _)

/-- The edge a block-local edge `e` of point `t` is. -/
def edgeOf (t : Fin cfg0.N) (e : Fin 1200) : Fin 12000 :=
  ⟨t.val * 1200 + e.val, by have := (idx_facts t).2.2.2.2.2.2.2.2.2.2.2.2.2.2.2.2.2.2; have := e.isLt; omega⟩

/-- The neighbour-feature block at point `t`. -/
theorem blk_xj (c : Dev nD) (t : Fin cfg0.N) (e : Fin 1200) (a : Fin 9) (f : Fin 128) :
    (iblk m c 0 t : S1200x9x128.Idx → Elt F .f32) (ix3 e a f) = (V m c main_v35 : S12000x9x128.Idx → Elt F .f32) (ix3 (edgeOf t e) a f) := by
  obtain ⟨h0, h1, h2, -⟩ := idx_facts t
  show V m c main_v35 (((cfg0.win 0).blk t).view.emb (ix3 e a f)) = V m c main_v35 (ix3 (edgeOf t e) a f)
  congr 1
  funext d; apply Fin.ext
  match d with
  | ⟨0, _⟩ => show win0_0.index t (0 : Fin 3) * 1200 + 1 * e.val = t.val * 1200 + e.val; omega
  | ⟨1, _⟩ => show win0_0.index t (1 : Fin 3) * 9 + 1 * a.val = a.val; omega
  | ⟨2, _⟩ => show win0_0.index t (2 : Fin 3) * 128 + 1 * f.val = f.val; omega

/-- The direction block at point `t`. -/
theorem blk_dir (c : Dev nD) (t : Fin cfg0.N) (e : Fin 1200) (j : Fin 3) :
    (iblk m c 1 t : S1200x3.Idx → Elt F .f32) (ix2 e j) = (V m c main_arg2 : S12000x3.Idx → Elt F .f32) (ix2 (edgeOf t e) j) := by
  obtain ⟨-, -, -, h0, h1, -⟩ := idx_facts t
  show V m c main_arg2 (((cfg0.win 1).blk t).view.emb (ix2 e j)) = V m c main_arg2 (ix2 (edgeOf t e) j)
  congr 1
  funext d; apply Fin.ext
  match d with
  | ⟨0, _⟩ => show win0_1.index t (0 : Fin 2) * 1200 + 1 * e.val = t.val * 1200 + e.val; omega
  | ⟨1, _⟩ => show win0_1.index t (1 : Fin 2) * 3 + 1 * j.val = j.val; omega

/-- The radial block at point `t`. -/
theorem blk_rad (c : Dev nD) (t : Fin cfg0.N) (e : Fin 1200) (r : Fin 20) :
    (iblk m c 2 t : S1200x20.Idx → Elt F .f32) (ix2 e r) = (V m c main_arg1 : S12000x20.Idx → Elt F .f32) (ix2 (edgeOf t e) r) := by
  obtain ⟨-, -, -, -, -, h0, h1, -⟩ := idx_facts t
  show V m c main_arg1 (((cfg0.win 2).blk t).view.emb (ix2 e r)) = V m c main_arg1 (ix2 (edgeOf t e) r)
  congr 1
  funext d; apply Fin.ext
  match d with
  | ⟨0, _⟩ => show win0_2.index t (0 : Fin 2) * 1200 + 1 * e.val = t.val * 1200 + e.val; omega
  | ⟨1, _⟩ => show win0_2.index t (1 : Fin 2) * 20 + 1 * r.val = r.val; omega

/-- The cutoff block at point `t`. -/
theorem blk_cut (c : Dev nD) (t : Fin cfg0.N) (e : Fin 1200) :
    (iblk m c 3 t : S1200x1.Idx → Elt F .f32) (ix2 e 0) = (V m c main_arg3 : S12000x1.Idx → Elt F .f32) (ix2 (edgeOf t e) 0) := by
  obtain ⟨-, -, -, -, -, -, -, h0, h1, -⟩ := idx_facts t
  show V m c main_arg3 (((cfg0.win 3).blk t).view.emb (ix2 e 0)) = V m c main_arg3 (ix2 (edgeOf t e) 0)
  congr 1
  funext d; apply Fin.ext
  match d with
  | ⟨0, _⟩ => show win0_3.index t (0 : Fin 2) * 1200 + 1 * e.val = t.val * 1200 + e.val; omega
  | ⟨1, _⟩ => show win0_3.index t (1 : Fin 2) * 1 + 1 * 0 = 0; omega

/-- The filter matrix is whole at every point. -/
theorem blk_wf (c : Dev nD) (t : Fin cfg0.N) (r : Fin 20) (q : Fin 384) :
    (iblk m c 4 t : S20x384.Idx → Elt F .f32) (ix2 r q) = (V m c main_arg4 : S20x384.Idx → Elt F .f32) (ix2 r q) := by
  obtain ⟨-, -, -, -, -, -, -, -, -, h0, h1, -⟩ := idx_facts t
  show V m c main_arg4 (((cfg0.win 4).blk t).view.emb (ix2 r q)) = V m c main_arg4 (ix2 r q)
  congr 1
  funext d; apply Fin.ext
  match d with
  | ⟨0, _⟩ => show win0_4.index t (0 : Fin 2) * 20 + 1 * r.val = r.val; omega
  | ⟨1, _⟩ => show win0_4.index t (1 : Fin 2) * 384 + 1 * q.val = q.val; omega

/-- The bias is whole at every point. -/
theorem blk_bf (c : Dev nD) (t : Fin cfg0.N) (q : Fin 384) :
    (iblk m c 5 t : S384.Idx → Elt F .f32) (ix1 q) = (V m c main_arg5 : S384.Idx → Elt F .f32) (ix1 q) := by
  obtain ⟨-, -, -, -, -, -, -, -, -, -, -, h0, -⟩ := idx_facts t
  show V m c main_arg5 (((cfg0.win 5).blk t).view.emb (ix1 q)) = V m c main_arg5 (ix1 q)
  congr 1
  funext d; apply Fin.ext
  match d with
  | ⟨0, _⟩ => show win0_5.index t (0 : Fin 1) * 384 + 1 * q.val = q.val; omega

/-- The dense table is whole at every point. -/
theorem blk_gw (c : Dev nD) (t : Fin cfg0.N) (l : Fin 3) (k : Fin 9) (p : Fin 81) :
    (iblk m c 6 t : S3x9x81.Idx → Elt F .f32) (ix3 l k p) = (V m c main_v28 : S3x9x81.Idx → Elt F .f32) (ix3 l k p) := by
  obtain ⟨-, -, -, -, -, -, -, -, -, -, -, -, h0, h1, h2, -⟩ := idx_facts t
  show V m c main_v28 (((cfg0.win 6).blk t).view.emb (ix3 l k p)) = V m c main_v28 (ix3 l k p)
  congr 1
  funext d; apply Fin.ext
  match d with
  | ⟨0, _⟩ => show win0_6.index t (0 : Fin 3) * 3 + 1 * l.val = l.val; omega
  | ⟨1, _⟩ => show win0_6.index t (1 : Fin 3) * 9 + 1 * k.val = k.val; omega
  | ⟨2, _⟩ => show win0_6.index t (2 : Fin 3) * 81 + 1 * p.val = p.val; omega

/-- The output block at point `t` sits at the edges `1200·t … 1200·t + 1199`. -/
theorem emb_out (t : Fin cfg0.N) (e : Fin 1200) (s : Fin 9) (f : Fin 128) :
    ((cfg0.win 7).blk t).view.emb (ix3 e s f) = (ix3 (edgeOf t e) s f : S12000x9x128.Idx) := by
  obtain ⟨-, -, -, -, -, -, -, -, -, -, -, -, -, -, -, h0, h1, h2, -⟩ := idx_facts t
  funext d; apply Fin.ext
  match d with
  | ⟨0, _⟩ => show win0_7.index t (0 : Fin 3) * 1200 + 1 * e.val = t.val * 1200 + e.val; omega
  | ⟨1, _⟩ => show win0_7.index t (1 : Fin 3) * 9 + 1 * s.val = s.val; omega
  | ⟨2, _⟩ => show win0_7.index t (2 : Fin 3) * 128 + 1 * f.val = f.val; omega

/-- An index of the output array is in point `t`'s block iff each coordinate is in the block's range on its axis. -/
theorem mem_blk_out (t : Fin cfg0.N) (i : S12000x9x128.Idx) :
    i ∈ ((cfg0.win 7).blk t).view.set ↔ ∀ a : Fin 3, win0_7.index t a * S1200x9x128.size a ≤ (i a).val ∧ (i a).val < win0_7.index t a * S1200x9x128.size a + S1200x9x128.size a := by
  show i ∈ ((View.whole main_v36).slice (win0_7.rect t)).set ↔ _
  rw [View.set_slice_whole, Rect.mem_set_unit]
  exact Iff.rfl

/-- Every block of the edge axis is some point's. -/
theorem idx_onto : ∀ q : Fin 10, ∃ t : Fin cfg0.N, win0_7.index t = ![q.val, 0, 0] :=
  (by decide +kernel : ∀ q : Fin 10, ∃ t : Fin grid0.N, win0_7.index t = ![q.val, 0, 0])

/-- The output's ten blocks cover its array. -/
theorem cover_out (i : S12000x9x128.Idx) :
    ∃ t : Fin cfg0.N, (cfg0.win 7).flush t = true ∧ i ∈ ((cfg0.win 7).blk t).view.set := by
  have hi0 : (i 0).val < 12000 := (i 0).isLt
  have hi1 : (i 1).val < 9 := (i 1).isLt
  have hi2 : (i 2).val < 128 := (i 2).isLt
  obtain ⟨t, ht⟩ := idx_onto ⟨(i 0).val / 1200, by omega⟩
  have q0 : win0_7.index t (0 : Fin 3) = (i 0).val / 1200 := congrFun ht 0
  have q1 : win0_7.index t (1 : Fin 3) = 0 := congrFun ht 1
  have q2 : win0_7.index t (2 : Fin 3) = 0 := congrFun ht 2
  refine ⟨t, flush0_7 t, ?_⟩
  rw [mem_blk_out]
  intro a
  match a with
  | ⟨0, _⟩ => show win0_7.index t (0 : Fin 3) * 1200 ≤ (i 0).val ∧ (i 0).val < win0_7.index t (0 : Fin 3) * 1200 + 1200; omega
  | ⟨1, _⟩ => show win0_7.index t (1 : Fin 3) * 9 ≤ (i 1).val ∧ (i 1).val < win0_7.index t (1 : Fin 3) * 9 + 9; omega
  | ⟨2, _⟩ => show win0_7.index t (2 : Fin 3) * 128 ≤ (i 2).val ∧ (i 2).val < win0_7.index t (2 : Fin 3) * 128 + 128; omega

end Cert.KernelIdeal.Fr

end
-- ==== Proof.Spec.lean ====
/-
  The mathematics of the SO(3) tensor-product convolution, stated once for both programs, on the extended reals.

  An edge `E` carries a direction `d ∈ ℝ³`, a radial feature row, a cutoff, and the gathered neighbour features
  `xj a f` (nine spherical components `a`, 128 channels `f`). From the direction both programs form the unit vector
  `u = d / √(d·d)` and the nine real spherical harmonics `Y k` of degree ≤ 2 (`sh`); from the radial row the
  per-degree filter `W l f = (radial · Wf[:, l·128+f] + bf[l·128+f]) · cutoff`.

  The Clebsch–Gordan table is given sparsely: 137 entries `n`, each with a value `cg n`, two input components
  `i1 n`, `i2 n`, a degree `iw n` and an output component (here only the predicate `hit n`: "entry `n` lands on the
  output component under consideration").

  * the reference sums the entries that land on `s`:  `∑_{n, hit n} Y (i2 n) · cg n · W (iw n) · xj (i1 n)`  (`rval`);
  * the kernel first densifies the table, `gw l k a = ∑_{n, i1 n = a ∧ i2 n = k ∧ hit n ∧ iw n = l} cg n`, and then
    contracts it: `∑_l W l · ∑_a (∑_k Y k · gw l k a) · xj a`  (`kval` over `dense`).

  Over the reals the two are one number: expand the dense table, exchange the finite sums, and collapse the sum over
  `(l, a, k)` of the indicator of `(iw n, i1 n, i2 n)` (`kval_dense_eq_rval`). On the extended reals this needs every
  factor finite, because the distributive law fails at `⊤ + ⊥`.
-/
import Idealize.ShloMosaic.PureOps.Ideal
import Mathlib.Algebra.BigOperators.Fin
import Mathlib.Algebra.BigOperators.Ring.Finset
import Mathlib.Data.EReal.Basic

noncomputable section

namespace Cert.SO3

open Idealize.ShloMosaic

/-- The f32 words both programs carry, read at the extended reals. -/
abbrev zero32 : EReal := Ideal.ofBits .f32 0x00000000#32
abbrev one32 : EReal := Ideal.ofBits .f32 0x3F800000#32
abbrev three32 : EReal := Ideal.ofBits .f32 0x40400000#32
/-- the f32 nearest √3 -/
abbrev r3 : EReal := Ideal.ofBits .f32 0x3FDDB3D7#32
/-- the f32 nearest √15 -/
abbrev r15 : EReal := Ideal.ofBits .f32 0x4077DEF6#32
/-- the f32 nearest √5 / 2 -/
abbrev h5 : EReal := Ideal.ofBits .f32 0x3F8F1BBD#32
/-- the f32 nearest √15 / 2 -/
abbrev h15 : EReal := Ideal.ofBits .f32 0x3FF7DEF6#32

/-- The squared length of a direction. -/
def ssq (d : Fin 3 → EReal) : EReal := ∑ j : Fin 3, d j * d j

/-- The direction divided by its length, component `j`. -/
def unitv (d : Fin 3 → EReal) (j : Fin 3) : EReal := Ideal.div (d j) (Ideal.sqrt (ssq d))

/-- The nine real spherical harmonics of degree ≤ 2 of a unit vector `u = (x, y, z)`, in the order and with the
    association both programs use: `1, √3·y, √3·z, √3·x, (√15·x)·y, (√15·y)·z, (√5/2)·((3·z)·z − 1), (√15·x)·z,
    (√15/2)·(x·x − y·y)`. -/
def sh (u : Fin 3 → EReal) : Fin 9 → EReal :=
  ![one32, r3 * u 1, r3 * u 2, r3 * u 0, r15 * u 0 * u 1, r15 * u 1 * u 2,
    h5 * (three32 * u 2 * u 2 - one32), r15 * u 0 * u 2, h15 * (u 0 * u 0 - u 1 * u 1)]

/-- The harmonics of a raw direction. -/
def Yrow (d : Fin 3 → EReal) : Fin 9 → EReal := sh (unitv d)

/-- One entry of the cutoff-gated radial filter: `(radial · Wf[:, q] + bf q) · cutoff`. -/
def Wval (rad : Fin 20 → EReal) (Wf : Fin 20 → Fin 384 → EReal) (bf : Fin 384 → EReal) (cut : EReal) (q : Fin 384) : EReal :=
  ((∑ r : Fin 20, rad r * Wf r q) + bf q) * cut

/-- Column `l·128 + f` of the 384 filter columns. -/
def col (l : Fin 3) (f : Fin 128) : Fin 384 := ⟨l.val * 128 + f.val, by have := l.isLt; have := f.isLt; omega⟩

/-- Position `a·9 + s` of the 81 flattened (input, output) component pairs. -/
def pair (a s : Fin 9) : Fin 81 := ⟨a.val * 9 + s.val, by have := a.isLt; have := s.isLt; omega⟩

/-- The kernel's entry: degree by degree, the filter times the dense table contracted against the harmonics and the
    neighbour features, accumulated from zero in the order `((0 + t₀) + t₁) + t₂`. -/
def kval (Y : Fin 9 → EReal) (W : Fin 3 → EReal) (xj : Fin 9 → EReal) (gw : Fin 3 → Fin 9 → Fin 9 → EReal) : EReal :=
  ((zero32 + W 0 * ∑ a : Fin 9, (∑ k : Fin 9, Y k * gw 0 k a) * xj a)
      + W 1 * ∑ a : Fin 9, (∑ k : Fin 9, Y k * gw 1 k a) * xj a)
    + W 2 * ∑ a : Fin 9, (∑ k : Fin 9, Y k * gw 2 k a) * xj a

/-- The dense table's entry for degree `l`, harmonic `k`, input component `a`: zero plus the values of the sparse
    entries that name exactly that place (and land on the output component under consideration). -/
def dense (cg : Fin 137 → EReal) (i1 i2 : Fin 137 → Fin 9) (iw : Fin 137 → Fin 3) (hit : Fin 137 → Prop) [DecidablePred hit]
    (l : Fin 3) (k a : Fin 9) : EReal :=
  zero32 + ∑ n ∈ Finset.univ.filter (fun n => i1 n = a ∧ i2 n = k ∧ hit n ∧ iw n = l), cg n

/-- The reference's entry: zero plus, over the sparse entries that land on the output component, harmonic × value ×
    filter × neighbour feature, associated `((Y · cg) · W) · xj`. -/
def rval (Y : Fin 9 → EReal) (W : Fin 3 → EReal) (xj : Fin 9 → EReal) (cg : Fin 137 → EReal)
    (i1 i2 : Fin 137 → Fin 9) (iw : Fin 137 → Fin 3) (hit : Fin 137 → Prop) [DecidablePred hit] : EReal :=
  zero32 + ∑ n ∈ Finset.univ.filter hit, ((Y (i2 n) * cg n) * W (iw n)) * xj (i1 n)

/-! ## Index words

Both programs wrap a possibly negative index word as jnp does (`w + n` when `w < 0`, else `w`) before they use it.
A wrapped word in `[0, n)` names a component; a word outside names none (a scatter drops it). -/

/-- jnp's wrap of an index word into `[0, n)`: `w + n` when `w` is negative (signed), else `w`. -/
def wrapW (n w : BitVec 32) : BitVec 32 := Scalar.select (IntOp.cmpi .slt w 0#32) (IntOp.addi w n) w

/-- The word is a valid position on an axis of extent `n`. -/
def InRange (n : Nat) (w : BitVec 32) : Prop := 0 ≤ w.toInt ∧ w.toInt < (n : Int)

/-- The component a word names on an axis of extent 9 (meaningful when the word is in range). -/
def fin9 (w : BitVec 32) : Fin 9 := ⟨w.toNat % 9, Nat.mod_lt _ (by decide)⟩
/-- The degree a word names on an axis of extent 3 (meaningful when the word is in range). -/
def fin3 (w : BitVec 32) : Fin 3 := ⟨w.toNat % 3, Nat.mod_lt _ (by decide)⟩

/-- "The (wrapped) output-component word names `s`": no range is assumed of it. -/
def Lands (w : BitVec 32) (s : Fin 9) : Prop := w.toInt = (s.val : Int)
instance (w : BitVec 32) (s : Fin 9) : Decidable (Lands w s) := by unfold Lands; infer_instance

end Cert.SO3

end
-- ==== Proof.KEntry.lean ====
/-
  The per-edge result of the kernel program as ONE function of the arrays the region finds: for edge `E`, output
  component `s` and channel `f`, the dense contraction `Cert.SO3.kval` of the edge's harmonics, its gated filter, its
  neighbour features at channel `f`, and the dense Clebsch–Gordan table's column for `s`.
-/
import proofs.«408281_j76957224010212_1_alg».proof.Proof.KBase
import proofs.«408281_j76957224010212_1_alg».proof.Proof.Spec
import Idealize.ShloMosaic.Lib.ValueIdx

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The kernel's value at edge `E`, output component `s`, channel `f`, from the arrays as the region finds them. -/
def yijE (c : Dev nD) (E : Fin 12000) (s : Fin 9) (f : Fin 128) : EReal :=
  Cert.SO3.kval
    (Cert.SO3.Yrow fun j => (V m c main_arg2 : S12000x3.Idx → EReal) (ix2 E j))
    (fun l => Cert.SO3.Wval (fun r => (V m c main_arg1 : S12000x20.Idx → EReal) (ix2 E r))
      (fun r q => (V m c main_arg4 : S20x384.Idx → EReal) (ix2 r q)) (fun q => (V m c main_arg5 : S384.Idx → EReal) (ix1 q))
      ((V m c main_arg3 : S12000x1.Idx → EReal) (ix2 E 0)) (Cert.SO3.col l f))
    (fun a => (V m c main_v35 : S12000x9x128.Idx → EReal) (ix3 E a f))
    (fun l k a => (V m c main_v28 : S3x9x81.Idx → EReal) (ix3 l k (Cert.SO3.pair a s)))

/-- The same as a whole array over the edges. -/
def yijArr (c : Dev nD) : S12000x9x128.Idx → EReal := fun i => yijE m c (i 0) (i 1) (i 2)

theorem yijArr_apply (c : Dev nD) (E : Fin 12000) (s : Fin 9) (f : Fin 128) :
    yijArr m c (ix3 E s f) = yijE m c E s f := rfl

end Cert.KernelIdeal.Fr

end
-- ==== Proof.KPieces.lean ====
/-
  The kernel body's two derived blocks, read at an index, on the extended reals.

  From the direction block `d : [1200, 3]` the body forms the unit vectors `u = d / √(d·d)` (a lane sum, a square root
  broadcast back over the three lanes, a division), cuts out the three components as vectors over the rows, forms the
  nine real spherical harmonics of degree ≤ 2 column by column and lays the nine columns side by side: the block
  `Y : [1200, 9]`, whose entry `(e, k)` is `Yrow (d e) k` (`Y_apply`).

  From the radial block `[1200, 20]`, the filter matrix `[20, 384]`, its bias `[384]` and the cutoff column `[1200, 1]`
  it forms `(radial · Wf + bias) · cutoff : [1200, 384]` and views the 384 columns as three degrees of 128 channels:
  the block `W : [1200, 3, 128]`, whose entry `(e, l, f)` is `Wval … (col l f)` (`W_apply`); its degree-1 slab
  `[1200, 128]` reads `W` at `(e, 1, f)` (`W1_apply`).

  Each layout operation (a vector viewed as a column and back, a column broadcast over lanes, a lane cut out, a
  reshape of the column axis, a concatenation of unit-width columns) is read at coordinates by one small lemma over a
  variable operand; the arithmetic in between is pointwise and reads through by definition.
-/
import proofs.«408281_j76957224010212_1_alg».proof.Proof.Gen.KernelIdeal.Skeleton
import proofs.«408281_j76957224010212_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## Layout operations of the direction side, read at coordinates -/

section Layout
variable {α : Type}

/-- A vector of 1200 entries viewed as a column reads, at row `e`, entry `e`. -/
theorem col_of_vec (x : S1200.Idx → α) (h : S1200.ShapeCasts S1200x1) (e : Fin 1200) (u : Fin 1) :
    shapeCast S1200x1 x h (ix2 e u) = x (ix1 e) :=
  shapeCast_apply x h _ _ (by
    have hu : u.val = 0 := by omega
    rw [Shape.rowMajor_val_two, Shape.rowMajor_val_one]
    show e.val = e.val * 1 + u.val
    omega)

/-- A column of 1200 entries viewed as a vector reads, at `e`, row `e` of the column. -/
theorem vec_of_col (x : S1200x1.Idx → α) (h : S1200x1.ShapeCasts S1200) (e : Fin 1200) :
    shapeCast S1200 x h (ix1 e) = x (ix2 e (0 : Fin 1)) :=
  shapeCast_apply x h _ _ (by
    rw [Shape.rowMajor_val_two, Shape.rowMajor_val_one]
    show e.val * 1 + 0 = e.val
    omega)

/-- A column broadcast over three lanes reads, at `(e, j)`, row `e` of the column. -/
theorem bcast_col3 (x : S1200x1.Idx → α) (h : S1200x1.Broadcasts S1200x3) (e : Fin 1200) (j : Fin 3) :
    broadcastTo S1200x3 x h (ix2 e j) = x (ix2 e (0 : Fin 1)) := by
  refine broadcastTo_apply x h (ix2 e j) (ix2 e (0 : Fin 1)) fun ax => ?_
  match ax with
  | ⟨0, _⟩ =>
    show e.val = if (1200 : Nat) = 1 then 0 else e.val
    rw [if_neg (by decide)]
  | ⟨1, _⟩ =>
    show 0 = if (1 : Nat) = 1 then 0 else j.val
    rw [if_pos rfl]

/-- Lane `c` of a three-lane block, cut out as a column from offset `o = c`, reads row `e` at `(e, c)`. -/
theorem lane_col (o : Nat) (x : S1200x3.Idx → α) (h : S1200x3.Slices ![0, o] S1200x1) (e : Fin 1200) (c : Fin 3) (hc : c.val = o) :
    extractStridedSlice S1200x1 ![0, o] x h (ix2 e (0 : Fin 1)) = x (ix2 e c) :=
  slice2_axis1_apply o x h e (0 : Fin 1) c hc

end Layout

/-! ## The unit vector -/

/-- The lane sum of a three-lane block, at row `e`: the sum over the three lanes. -/
theorem lane_sum (x : FVec Ideal S1200x3 .f32) (h : S1200x3.Reduces [1] S1200) (hφ : FKind.Formats .f32)
    (hacc : (0x00000000#32 : BitVec 32) = 0x00000000#32) (e : Fin 1200) :
    multiReduction (F := Ideal) .add [1] S1200 x 0x00000000#32 h hφ hacc (ix1 e) = ∑ j : Fin 3, x (ix2 e j) := by
  refine (Ideal.multiReduction_add_single x 0x00000000#32 h hφ hacc (ix1 e)).trans ?_
  refine Finset.sum_congr rfl fun j _ => congrArg x ?_
  funext a
  apply Fin.ext
  match a with
  | ⟨0, _⟩ => rfl
  | ⟨1, _⟩ => rfl

/-- The normalised direction block at `(e, j)`: component `j` of row `e` over the row's length. -/
theorem unit_apply (v0 : Vec Ideal S1200x3 .f32) (e : Fin 1200) (j : Fin 3) :
    k0_pay2 v0 (ix2 e j) = Cert.SO3.unitv (fun j => v0 (ix2 e j)) j := by
  unfold k0_pay2
  show Ideal.div (v0 (ix2 e j)) (broadcastTo S1200x3 _ broadcasts_S1200x1_S1200x3 (ix2 e j)) = _
  rw [bcast_col3]
  show Ideal.div (v0 (ix2 e j)) (Ideal.sqrt (shapeCast S1200x1 _ shapeCasts_S1200_S1200x1 (ix2 e (0 : Fin 1)))) = _
  rw [col_of_vec, lane_sum]
  rfl

/-- The direction of edge `e` of the block: its three lanes. -/
abbrev dir (v0 : Vec Ideal S1200x3 .f32) (e : Fin 1200) : Fin 3 → EReal := fun j => v0 (ix2 e j)

/-- The first component of the unit vector, cut out of the normalised block as a vector over the rows. -/
theorem u0_apply (v0 : Vec Ideal S1200x3 .f32) (e : Fin 1200) :
    k0_pay3 v0 (ix1 e) = Cert.SO3.unitv (dir v0 e) 0 := by
  unfold k0_pay3
  exact ((vec_of_col _ _ e).trans (lane_col 0 _ _ e 0 rfl)).trans (unit_apply v0 e 0)

/-- The second component. -/
theorem u1_apply (v0 : Vec Ideal S1200x3 .f32) (e : Fin 1200) :
    k0_pay4 v0 (ix1 e) = Cert.SO3.unitv (dir v0 e) 1 := by
  unfold k0_pay4
  exact ((vec_of_col _ _ e).trans (lane_col 1 _ _ e 1 rfl)).trans (unit_apply v0 e 1)

/-- The third component. -/
theorem u2_apply (v0 : Vec Ideal S1200x3 .f32) (e : Fin 1200) :
    k0_pay5 v0 (ix1 e) = Cert.SO3.unitv (dir v0 e) 2 := by
  unfold k0_pay5
  exact ((vec_of_col _ _ e).trans (lane_col 2 _ _ e 2 rfl)).trans (unit_apply v0 e 2)

/-! ## The nine harmonics, column by column -/

open Cert.SO3 in
/-- Column 4: `(√15 · x) · y`. -/
theorem y4_apply (v0 : Vec Ideal S1200x3 .f32) (e : Fin 1200) :
    k0_pay6 v0 (ix1 e) = r15 * unitv (dir v0 e) 0 * unitv (dir v0 e) 1 := by
  unfold k0_pay6
  show (r15 * k0_pay3 v0 (ix1 e)) * k0_pay4 v0 (ix1 e) = _
  rw [u0_apply, u1_apply]

open Cert.SO3 in
/-- Column 5: `(√15 · y) · z`. -/
theorem y5_apply (v0 : Vec Ideal S1200x3 .f32) (e : Fin 1200) :
    k0_pay7 v0 (ix1 e) = r15 * unitv (dir v0 e) 1 * unitv (dir v0 e) 2 := by
  unfold k0_pay7
  show (r15 * k0_pay4 v0 (ix1 e)) * k0_pay5 v0 (ix1 e) = _
  rw [u1_apply, u2_apply]

open Cert.SO3 in
/-- Column 6: `(√5/2) · ((3 · z) · z − 1)`. -/
theorem y6_apply (v0 : Vec Ideal S1200x3 .f32) (e : Fin 1200) :
    k0_pay8 v0 (ix1 e) = h5 * (three32 * unitv (dir v0 e) 2 * unitv (dir v0 e) 2 - one32) := by
  unfold k0_pay8
  show h5 * ((three32 * k0_pay5 v0 (ix1 e)) * k0_pay5 v0 (ix1 e) - one32) = _
  rw [u2_apply]

open Cert.SO3 in
/-- Column 7: `(√15 · x) · z`. -/
theorem y7_apply (v0 : Vec Ideal S1200x3 .f32) (e : Fin 1200) :
    k0_pay9 v0 (ix1 e) = r15 * unitv (dir v0 e) 0 * unitv (dir v0 e) 2 := by
  unfold k0_pay9
  show (r15 * k0_pay3 v0 (ix1 e)) * k0_pay5 v0 (ix1 e) = _
  rw [u0_apply, u2_apply]

open Cert.SO3 in
/-- Column 8: `(√15/2) · (x · x − y · y)`. -/
theorem y8_apply (v0 : Vec Ideal S1200x3 .f32) (e : Fin 1200) :
    k0_pay10 v0 (ix1 e) = h15 * (unitv (dir v0 e) 0 * unitv (dir v0 e) 0 - unitv (dir v0 e) 1 * unitv (dir v0 e) 1) := by
  unfold k0_pay10
  show h15 * (k0_pay3 v0 (ix1 e) * k0_pay3 v0 (ix1 e) - k0_pay4 v0 (ix1 e) * k0_pay4 v0 (ix1 e)) = _
  rw [u0_apply, u1_apply]

open Cert.SO3 in
/-- Column 0: the constant one. -/
theorem y0_apply (e : Fin 1200) : k0_pay11 (F := Ideal) (ix2 e (0 : Fin 1)) = one32 := by
  unfold k0_pay11
  exact col_of_vec _ _ e 0

open Cert.SO3 in
/-- Column 1: `√3 · y`. -/
theorem y1_apply (v0 : Vec Ideal S1200x3 .f32) (e : Fin 1200) :
    k0_pay12 v0 (ix2 e (0 : Fin 1)) = r3 * unitv (dir v0 e) 1 := by
  unfold k0_pay12
  refine (col_of_vec _ _ e 0).trans ?_
  show r3 * k0_pay4 v0 (ix1 e) = _
  rw [u1_apply]

open Cert.SO3 in
/-- Column 2: `√3 · z`. -/
theorem y2_apply (v0 : Vec Ideal S1200x3 .f32) (e : Fin 1200) :
    k0_pay13 v0 (ix2 e (0 : Fin 1)) = r3 * unitv (dir v0 e) 2 := by
  unfold k0_pay13
  refine (col_of_vec _ _ e 0).trans ?_
  show r3 * k0_pay5 v0 (ix1 e) = _
  rw [u2_apply]

open Cert.SO3 in
/-- Column 3: `√3 · x`. -/
theorem y3_apply (v0 : Vec Ideal S1200x3 .f32) (e : Fin 1200) :
    k0_pay14 v0 (ix2 e (0 : Fin 1)) = r3 * unitv (dir v0 e) 0 := by
  unfold k0_pay14
  refine (col_of_vec _ _ e 0).trans ?_
  show r3 * k0_pay3 v0 (ix1 e) = _
  rw [u0_apply]

/-! ## The nine columns side by side -/

/-- Nine columns laid side by side along the lane axis read, at `(e, k)`, column `k` at row `e`: piece `k` of the
    concatenation starts at lane `k` because every piece before it is one lane wide. -/
theorem cat9_at {α : Type} (xs : List ((s : Shape) × (s.Idx → α))) (h : Shape.Concatenates (xs.map (·.1)) S1200x9 1)
    (e : Fin 1200) (k : Fin 9) (hk : k.val < xs.length) (c : S1200x1.Idx → α) (hxk : xs[k.val] = ⟨S1200x1, c⟩)
    (hpre : (((xs.take k.val).map (·.1)).map fun s =>
        if h : s.rank = S1200x9.rank then s.size ((1 : Fin S1200x9.rank).cast h.symm) else 0).sum = k.val) :
    concatenate S1200x9 1 xs h (ix2 e k) = c (ix2 e (0 : Fin 1)) :=
  concatenate_apply_piece 1 xs h (ix2 e k) k.val hk S1200x1 c hxk rfl k.val hpre (ix2 e (0 : Fin 1))
    (fun b => match b with
      | ⟨0, _⟩ => fun _ => rfl
      | ⟨1, _⟩ => fun hb => absurd rfl hb)
    (Nat.add_zero _)

/-- The concatenated block at `(e, k)`: the `k`-th of the nine columns at row `e`. -/
theorem cat_apply (v22 v25 v32 v35 v40 : FVec Ideal S1200 .f32) (v41 v42 v43 v44 : FVec Ideal S1200x1 .f32) (e : Fin 1200) (k : Fin 9) :
    k0_pay15 v22 v25 v32 v35 v40 v41 v42 v43 v44 (ix2 e k)
      = (![v41 (ix2 e (0 : Fin 1)), v42 (ix2 e (0 : Fin 1)), v43 (ix2 e (0 : Fin 1)), v44 (ix2 e (0 : Fin 1)),
          v22 (ix1 e), v25 (ix1 e), v32 (ix1 e), v35 (ix1 e), v40 (ix1 e)] : Fin 9 → EReal) k := by
  unfold k0_pay15
  match k with
  | ⟨0, _⟩ => exact cat9_at _ _ e ⟨0, by decide⟩ (by show (0 : Nat) < 9; decide) _ rfl rfl
  | ⟨1, _⟩ => exact cat9_at _ _ e ⟨1, by decide⟩ (by show (1 : Nat) < 9; decide) _ rfl rfl
  | ⟨2, _⟩ => exact cat9_at _ _ e ⟨2, by decide⟩ (by show (2 : Nat) < 9; decide) _ rfl rfl
  | ⟨3, _⟩ => exact cat9_at _ _ e ⟨3, by decide⟩ (by show (3 : Nat) < 9; decide) _ rfl rfl
  | ⟨4, _⟩ => exact (cat9_at _ _ e ⟨4, by decide⟩ (by show (4 : Nat) < 9; decide) _ rfl rfl).trans (col_of_vec _ _ e 0)
  | ⟨5, _⟩ => exact (cat9_at _ _ e ⟨5, by decide⟩ (by show (5 : Nat) < 9; decide) _ rfl rfl).trans (col_of_vec _ _ e 0)
  | ⟨6, _⟩ => exact (cat9_at _ _ e ⟨6, by decide⟩ (by show (6 : Nat) < 9; decide) _ rfl rfl).trans (col_of_vec _ _ e 0)
  | ⟨7, _⟩ => exact (cat9_at _ _ e ⟨7, by decide⟩ (by show (7 : Nat) < 9; decide) _ rfl rfl).trans (col_of_vec _ _ e 0)
  | ⟨8, _⟩ => exact (cat9_at _ _ e ⟨8, by decide⟩ (by show (8 : Nat) < 9; decide) _ rfl rfl).trans (col_of_vec _ _ e 0)

/-- **The harmonics block at an index**: row `e`, column `k` is the `k`-th real spherical harmonic of the direction of
    edge `e`. -/
theorem Y_apply (v0 : Vec Ideal S1200x3 .f32) (e : Fin 1200) (k : Fin 9) :
    k0_pay15 (k0_pay6 v0) (k0_pay7 v0) (k0_pay8 v0) (k0_pay9 v0) (k0_pay10 v0) (k0_pay11 (F := Ideal)) (k0_pay12 v0)
        (k0_pay13 v0) (k0_pay14 v0) (ix2 e k)
      = Cert.SO3.Yrow (fun j => v0 (ix2 e j)) k := by
  refine (cat_apply _ _ _ _ _ _ _ _ _ e k).trans ?_
  rw [y0_apply, y1_apply, y2_apply, y3_apply, y4_apply, y5_apply, y6_apply, y7_apply, y8_apply]
  rfl

/-! ## The gated radial filter -/

section Filter
variable {α : Type}

/-- A column broadcast over 384 lanes reads, at `(e, q)`, row `e` of the column. -/
theorem bcast_col384 (x : S1200x1.Idx → α) (h : S1200x1.Broadcasts S1200x384) (e : Fin 1200) (q : Fin 384) :
    broadcastTo S1200x384 x h (ix2 e q) = x (ix2 e (0 : Fin 1)) := by
  refine broadcastTo_apply x h (ix2 e q) (ix2 e (0 : Fin 1)) fun ax => ?_
  match ax with
  | ⟨0, _⟩ =>
    show e.val = if (1200 : Nat) = 1 then 0 else e.val
    rw [if_neg (by decide)]
  | ⟨1, _⟩ =>
    show 0 = if (1 : Nat) = 1 then 0 else q.val
    rw [if_pos rfl]

/-- The 384 filter columns viewed as three degrees of 128 channels: `(e, l, f)` reads column `l · 128 + f` of row `e`. -/
theorem split_cols (x : S1200x384.Idx → α) (h : S1200x384.ShapeCasts S1200x3x128) (e : Fin 1200) (l : Fin 3) (f : Fin 128) :
    shapeCast S1200x3x128 x h (ix3 e l f) = x (ix2 e (Cert.SO3.col l f)) :=
  shapeCast_apply x h _ _ (by
    rw [Shape.rowMajor_val_two, Shape.rowMajor_val_three]
    show e.val * 384 + (l.val * 128 + f.val) = (e.val * 3 + l.val) * 128 + f.val
    omega)

end Filter

/-- The matrix product's left operand index, row coordinate: the output row. -/
theorem mm_lhs_0 (i : S1200x384.Idx) (q : dot_S1200x20_S20x384_S1200x384_1_0_0_1_n_n.contr.Idx) :
    (dot_S1200x20_S20x384_S1200x384_1_0_0_1_n_n.lhsIdx i q 0).val = (i 0).val := by
  unfold DotDims.lhsIdx
  rw [dif_neg (show ¬(0 : Fin S1200x20.rank) ∈ dot_S1200x20_S20x384_S1200x384_1_0_0_1_n_n.lhsBatch by decide),
    dif_pos (show (0 : Fin S1200x20.rank) ∈ dot_S1200x20_S20x384_S1200x384_1_0_0_1_n_n.lhsNonContracting by decide)]
  rfl
/-- … column coordinate: the contraction coordinate. -/
theorem mm_lhs_1 (i : S1200x384.Idx) (q : dot_S1200x20_S20x384_S1200x384_1_0_0_1_n_n.contr.Idx) :
    (dot_S1200x20_S20x384_S1200x384_1_0_0_1_n_n.lhsIdx i q 1).val = (q ⟨0, by decide⟩).val :=
  dot_S1200x20_S20x384_S1200x384_1_0_0_1_n_n.lhsIdx_val_of_single rfl i q
/-- The right operand index, row coordinate: the contraction coordinate. -/
theorem mm_rhs_0 (i : S1200x384.Idx) (q : dot_S1200x20_S20x384_S1200x384_1_0_0_1_n_n.contr.Idx) :
    (dot_S1200x20_S20x384_S1200x384_1_0_0_1_n_n.rhsIdx i q 0).val = (q ⟨0, by decide⟩).val :=
  dot_S1200x20_S20x384_S1200x384_1_0_0_1_n_n.rhsIdx_val_of_single rfl i q
/-- … column coordinate: the output column. -/
theorem mm_rhs_1 (i : S1200x384.Idx) (q : dot_S1200x20_S20x384_S1200x384_1_0_0_1_n_n.contr.Idx) :
    (dot_S1200x20_S20x384_S1200x384_1_0_0_1_n_n.rhsIdx i q 1).val = (i 1).val := by
  unfold DotDims.rhsIdx
  rw [dif_neg (show ¬(1 : Fin S20x384.rank) ∈ dot_S1200x20_S20x384_S1200x384_1_0_0_1_n_n.rhsBatch by decide),
    dif_pos (show (1 : Fin S20x384.rank) ∈ dot_S1200x20_S20x384_S1200x384_1_0_0_1_n_n.rhsNonContracting by decide)]
  rfl

/-- The radial rows times the filter matrix, accumulated from zero, at `(e, q)`: the sum over the 20 radial features. -/
theorem mm_apply (v51 : Vec Ideal S1200x20 .f32) (v52 : Vec Ideal S20x384 .f32) (e : Fin 1200) (q : Fin 384) :
    matmul (φ₁ := .f32) (φ₂ := .f32) dot_S1200x20_S20x384_S1200x384_1_0_0_1_n_n none v51 v52 (constant (F := Ideal) S1200x384 .f32 0x00000000#32) (ix2 e q)
      = ∑ r : Fin 20, v51 (ix2 e r) * v52 (ix2 r q) := by
  simp only [matmul]
  rw [Ideal.matmul_constant_zero_apply, ← Equiv.sum_comp (contrEquiv1 dot_S1200x20_S20x384_S1200x384_1_0_0_1_n_n 20 rfl rfl).symm]
  refine Finset.sum_congr rfl fun k _ => ?_
  have hk := contrEquiv1_symm_val dot_S1200x20_S20x384_S1200x384_1_0_0_1_n_n 20 rfl rfl k
  have el : dot_S1200x20_S20x384_S1200x384_1_0_0_1_n_n.lhsIdx (ix2 e q)
      ((contrEquiv1 dot_S1200x20_S20x384_S1200x384_1_0_0_1_n_n 20 rfl rfl).symm k) = ix2 e k := funext fun a => Fin.ext (by
    match a with
    | ⟨0, _⟩ => exact mm_lhs_0 _ _
    | ⟨1, _⟩ => exact (mm_lhs_1 _ _).trans hk)
  have er : dot_S1200x20_S20x384_S1200x384_1_0_0_1_n_n.rhsIdx (ix2 e q)
      ((contrEquiv1 dot_S1200x20_S20x384_S1200x384_1_0_0_1_n_n 20 rfl rfl).symm k) = ix2 k q := funext fun a => Fin.ext (by
    match a with
    | ⟨0, _⟩ => exact (mm_rhs_0 _ _).trans hk
    | ⟨1, _⟩ => exact mm_rhs_1 _ _)
  rw [el, er]

/-- **The gated filter at an index**: edge `e`, degree `l`, channel `f` is the radial row against filter column
    `l · 128 + f`, plus that column's bias, times the edge's cutoff. -/
theorem W_apply (v51 : Vec Ideal S1200x20 .f32) (v52 : Vec Ideal S20x384 .f32) (v54 : Vec Ideal S384 .f32)
    (v58 : Vec Ideal S1200x1 .f32) (e : Fin 1200) (l : Fin 3) (f : Fin 128) :
    k0_pay16 v51 v52 v54 v58 (ix3 e l f)
      = Cert.SO3.Wval (fun r => v51 (ix2 e r)) (fun r q => v52 (ix2 r q)) (fun q => v54 (ix1 q)) (v58 (ix2 e 0)) (Cert.SO3.col l f) := by
  unfold k0_pay16
  refine (split_cols _ _ e l f).trans ?_
  show (matmul (φ₁ := .f32) (φ₂ := .f32) dot_S1200x20_S20x384_S1200x384_1_0_0_1_n_n none v51 v52 (constant (F := Ideal) S1200x384 .f32 0x00000000#32)
        (ix2 e (Cert.SO3.col l f))
      + broadcastTo S1200x384 (shapeCast S1x384 v54 shapeCasts_S384_S1x384) broadcasts_S1x384_S1200x384 (ix2 e (Cert.SO3.col l f)))
      * broadcastTo S1200x384 v58 broadcasts_S1200x1_S1200x384 (ix2 e (Cert.SO3.col l f)) = _
  rw [mm_apply, bcast_col384, broadcastTo_1b_ab_apply, shapeCast_a_1a_apply]
  rfl

/-- **The degree-1 slab of the gated filter**: `(e, f)` reads the filter at `(e, 1, f)`. -/
theorem W1_apply (v51 : Vec Ideal S1200x20 .f32) (v52 : Vec Ideal S20x384 .f32) (v54 : Vec Ideal S384 .f32)
    (v58 : Vec Ideal S1200x1 .f32) (e : Fin 1200) (f : Fin 128) :
    k0_pay20 v51 v52 v54 v58 (ix2 e f) = k0_pay16 v51 v52 v54 v58 (ix3 e 1 f) := by
  unfold k0_pay20
  generalize k0_pay16 v51 v52 v54 v58 = w
  refine (shapeCast_apply _ _ (ix2 e f) (ix3 e (0 : Fin 1) f) ?_).trans ?_
  · rw [Shape.rowMajor_val_two, Shape.rowMajor_val_three]
    show (e.val * 1 + 0) * 128 + f.val = e.val * 128 + f.val
    omega
  · exact slice3_axis1_apply 1 w _ e (0 : Fin 1) f 1 rfl

end Cert.KernelIdeal.Pay

end
-- ==== Proof.KContract.lean ====
/-
  The kernel's stored value as the specification's entry.

  For each degree l = 0, 1, 2 the body contracts the nine harmonics Y(e, ·) of an edge against that degree's slab of the
  dense Clebsch–Gordan table, flattened to 81 columns, M(e, a·9 + s) = ∑_k Y(e, k) · G_l(k, a·9 + s); regroups the 81
  columns as (input component a, output component s); contracts over a against the neighbour features, edge by edge,
  N(e, s, f) = ∑_a M(e, a, s) · x(e, a, f); and multiplies by the filter value W(e, l, f), repeated over the nine output
  components. The three products are accumulated from zero in the order ((0 + t₀) + t₁) + t₂.

  Each operation is read at one index: the two contractions as finite sums over the nine contraction positions (the
  operand indices of a contraction computed axis by axis: a batch axis reads the output's batch coordinate, a free axis
  the output's coordinate in its place, the contracted axis the contraction position); the regroupings by their
  row-major positions (column a·9 + s of 81 is place (a, s) of 9 × 9); the slices and repetitions by their coordinates.
  Put together, the stored value at (e, s, f) is `Cert.SO3.kval` of the edge's harmonics, its three filter values at
  channel f, its nine neighbour features at channel f, and the three slabs read at the pair a·9 + s.
-/
import proofs.«408281_j76957224010212_1_alg».proof.Proof.KBase
import proofs.«408281_j76957224010212_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay2

open Cert.KernelIdeal Cert.KernelIdeal.Gen Cert.KernelIdeal.Fr
open Idealize.ShloMosaic Idealize.ShloMosaic.ValueIdx
open scoped BigOperators

/-! ## The two contractions read at an index -/

/-- Harmonics times slab, left operand: the row coordinate is the output's row. -/
theorem lhsA_0 (i : S1200x81.Idx) (q : dot_S1200x9_S9x81_S1200x81_1_0_0_1_n_n.contr.Idx) :
    (dot_S1200x9_S9x81_S1200x81_1_0_0_1_n_n.lhsIdx i q 0).val = (i 0).val := by
  unfold DotDims.lhsIdx
  rw [dif_neg (show ¬(0 : Fin S1200x9.rank) ∈ dot_S1200x9_S9x81_S1200x81_1_0_0_1_n_n.lhsBatch by decide),
    dif_pos (show (0 : Fin S1200x9.rank) ∈ dot_S1200x9_S9x81_S1200x81_1_0_0_1_n_n.lhsNonContracting by decide)]
  rfl
/-- … and the column coordinate is the contraction position. -/
theorem lhsA_1 (i : S1200x81.Idx) (q : dot_S1200x9_S9x81_S1200x81_1_0_0_1_n_n.contr.Idx) :
    (dot_S1200x9_S9x81_S1200x81_1_0_0_1_n_n.lhsIdx i q 1).val = (q ⟨0, by decide⟩).val :=
  dot_S1200x9_S9x81_S1200x81_1_0_0_1_n_n.lhsIdx_val_of_single rfl i q
/-- Right operand: the row coordinate is the contraction position … -/
theorem rhsA_0 (i : S1200x81.Idx) (q : dot_S1200x9_S9x81_S1200x81_1_0_0_1_n_n.contr.Idx) :
    (dot_S1200x9_S9x81_S1200x81_1_0_0_1_n_n.rhsIdx i q 0).val = (q ⟨0, by decide⟩).val :=
  dot_S1200x9_S9x81_S1200x81_1_0_0_1_n_n.rhsIdx_val_of_single rfl i q
/-- … and the column coordinate is the output's column. -/
theorem rhsA_1 (i : S1200x81.Idx) (q : dot_S1200x9_S9x81_S1200x81_1_0_0_1_n_n.contr.Idx) :
    (dot_S1200x9_S9x81_S1200x81_1_0_0_1_n_n.rhsIdx i q 1).val = (i 1).val := by
  unfold DotDims.rhsIdx
  rw [dif_neg (show ¬(1 : Fin S9x81.rank) ∈ dot_S1200x9_S9x81_S1200x81_1_0_0_1_n_n.rhsBatch by decide),
    dif_pos (show (1 : Fin S9x81.rank) ∈ dot_S1200x9_S9x81_S1200x81_1_0_0_1_n_n.rhsNonContracting by decide)]
  rfl

/-- The harmonics times one flattened slab: entry `(e, c)` is `∑_k Y(e,k) · G(k,c)`. -/
theorem mmA_apply (Y : FVec Ideal S1200x9 .f32) (G : FVec Ideal S9x81 .f32) (e : Fin 1200) (c : Fin 81) :
    matmul dot_S1200x9_S9x81_S1200x81_1_0_0_1_n_n none Y G (constant (F := Ideal) S1200x81 .f32 0x00000000#32) (ix2 e c)
      = ∑ k : Fin 9, Y (ix2 e k) * G (ix2 k c) := by
  simp only [matmul]
  rw [Ideal.matmul_constant_zero_apply, ← Equiv.sum_comp (contrEquiv1 dot_S1200x9_S9x81_S1200x81_1_0_0_1_n_n 9 rfl rfl).symm]
  refine Finset.sum_congr rfl fun k _ => ?_
  have hk := contrEquiv1_symm_val dot_S1200x9_S9x81_S1200x81_1_0_0_1_n_n 9 rfl rfl k
  have el : dot_S1200x9_S9x81_S1200x81_1_0_0_1_n_n.lhsIdx (ix2 e c) ((contrEquiv1 dot_S1200x9_S9x81_S1200x81_1_0_0_1_n_n 9 rfl rfl).symm k) = ix2 e k :=
    funext fun a => Fin.ext (by
      match a with
      | ⟨0, _⟩ => exact lhsA_0 _ _
      | ⟨1, _⟩ => exact (lhsA_1 _ _).trans hk)
  have er : dot_S1200x9_S9x81_S1200x81_1_0_0_1_n_n.rhsIdx (ix2 e c) ((contrEquiv1 dot_S1200x9_S9x81_S1200x81_1_0_0_1_n_n 9 rfl rfl).symm k) = ix2 k c :=
    funext fun a => Fin.ext (by
      match a with
      | ⟨0, _⟩ => exact (rhsA_0 _ _).trans hk
      | ⟨1, _⟩ => exact rhsA_1 _ _)
  rw [el, er]

/-- The batched contraction, left operand `M(e, a, s)`: the edge coordinate is the output's batch coordinate … -/
theorem lhsB_0 (i : S1200x9x128.Idx) (q : dot_S1200x9x9_S1200x9x128_S1200x9x128_1_1_2_2_0_0.contr.Idx) :
    (dot_S1200x9x9_S1200x9x128_S1200x9x128_1_1_2_2_0_0.lhsIdx i q 0).val = (i 0).val := by
  unfold DotDims.lhsIdx
  rw [dif_pos (show (0 : Fin S1200x9x9.rank) ∈ dot_S1200x9x9_S1200x9x128_S1200x9x128_1_1_2_2_0_0.lhsBatch by decide)]
  rfl
/-- … the input component is the contraction position … -/
theorem lhsB_1 (i : S1200x9x128.Idx) (q : dot_S1200x9x9_S1200x9x128_S1200x9x128_1_1_2_2_0_0.contr.Idx) :
    (dot_S1200x9x9_S1200x9x128_S1200x9x128_1_1_2_2_0_0.lhsIdx i q 1).val = (q ⟨0, by decide⟩).val :=
  dot_S1200x9x9_S1200x9x128_S1200x9x128_1_1_2_2_0_0.lhsIdx_val_of_single rfl i q
/-- … and the output component is the output's middle coordinate. -/
theorem lhsB_2 (i : S1200x9x128.Idx) (q : dot_S1200x9x9_S1200x9x128_S1200x9x128_1_1_2_2_0_0.contr.Idx) :
    (dot_S1200x9x9_S1200x9x128_S1200x9x128_1_1_2_2_0_0.lhsIdx i q 2).val = (i 1).val := by
  unfold DotDims.lhsIdx
  rw [dif_neg (show ¬(2 : Fin S1200x9x9.rank) ∈ dot_S1200x9x9_S1200x9x128_S1200x9x128_1_1_2_2_0_0.lhsBatch by decide),
    dif_pos (show (2 : Fin S1200x9x9.rank) ∈ dot_S1200x9x9_S1200x9x128_S1200x9x128_1_1_2_2_0_0.lhsNonContracting by decide)]
  rfl
/-- Right operand `x(e, a, f)`: the edge coordinate is the output's batch coordinate … -/
theorem rhsB_0 (i : S1200x9x128.Idx) (q : dot_S1200x9x9_S1200x9x128_S1200x9x128_1_1_2_2_0_0.contr.Idx) :
    (dot_S1200x9x9_S1200x9x128_S1200x9x128_1_1_2_2_0_0.rhsIdx i q 0).val = (i 0).val := by
  unfold DotDims.rhsIdx
  rw [dif_pos (show (0 : Fin S1200x9x128.rank) ∈ dot_S1200x9x9_S1200x9x128_S1200x9x128_1_1_2_2_0_0.rhsBatch by decide)]
  rfl
/-- … the input component is the contraction position … -/
theorem rhsB_1 (i : S1200x9x128.Idx) (q : dot_S1200x9x9_S1200x9x128_S1200x9x128_1_1_2_2_0_0.contr.Idx) :
    (dot_S1200x9x9_S1200x9x128_S1200x9x128_1_1_2_2_0_0.rhsIdx i q 1).val = (q ⟨0, by decide⟩).val :=
  dot_S1200x9x9_S1200x9x128_S1200x9x128_1_1_2_2_0_0.rhsIdx_val_of_single rfl i q
/-- … and the channel is the output's last coordinate. -/
theorem rhsB_2 (i : S1200x9x128.Idx) (q : dot_S1200x9x9_S1200x9x128_S1200x9x128_1_1_2_2_0_0.contr.Idx) :
    (dot_S1200x9x9_S1200x9x128_S1200x9x128_1_1_2_2_0_0.rhsIdx i q 2).val = (i 2).val := by
  unfold DotDims.rhsIdx
  rw [dif_neg (show ¬(2 : Fin S1200x9x128.rank) ∈ dot_S1200x9x9_S1200x9x128_S1200x9x128_1_1_2_2_0_0.rhsBatch by decide),
    dif_pos (show (2 : Fin S1200x9x128.rank) ∈ dot_S1200x9x9_S1200x9x128_S1200x9x128_1_1_2_2_0_0.rhsNonContracting by decide)]
  rfl

/-- The batched contraction: entry `(e, s, f)` is `∑_a M(e,a,s) · x(e,a,f)`. -/
theorem mmB_apply (M : FVec Ideal S1200x9x9 .f32) (X : FVec Ideal S1200x9x128 .f32) (e : Fin 1200) (s : Fin 9) (f : Fin 128) :
    matmul dot_S1200x9x9_S1200x9x128_S1200x9x128_1_1_2_2_0_0 none M X (constant (F := Ideal) S1200x9x128 .f32 0x00000000#32) (ix3 e s f)
      = ∑ a : Fin 9, M (ix3 e a s) * X (ix3 e a f) := by
  simp only [matmul]
  rw [Ideal.matmul_constant_zero_apply, ← Equiv.sum_comp (contrEquiv1 dot_S1200x9x9_S1200x9x128_S1200x9x128_1_1_2_2_0_0 9 rfl rfl).symm]
  refine Finset.sum_congr rfl fun a _ => ?_
  have hk := contrEquiv1_symm_val dot_S1200x9x9_S1200x9x128_S1200x9x128_1_1_2_2_0_0 9 rfl rfl a
  have el : dot_S1200x9x9_S1200x9x128_S1200x9x128_1_1_2_2_0_0.lhsIdx (ix3 e s f) ((contrEquiv1 dot_S1200x9x9_S1200x9x128_S1200x9x128_1_1_2_2_0_0 9 rfl rfl).symm a) = ix3 e a s :=
    funext fun b => Fin.ext (by
      match b with
      | ⟨0, _⟩ => exact lhsB_0 _ _
      | ⟨1, _⟩ => exact (lhsB_1 _ _).trans hk
      | ⟨2, _⟩ => exact lhsB_2 _ _)
  have er : dot_S1200x9x9_S1200x9x128_S1200x9x128_1_1_2_2_0_0.rhsIdx (ix3 e s f) ((contrEquiv1 dot_S1200x9x9_S1200x9x128_S1200x9x128_1_1_2_2_0_0 9 rfl rfl).symm a) = ix3 e a f :=
    funext fun b => Fin.ext (by
      match b with
      | ⟨0, _⟩ => exact rhsB_0 _ _
      | ⟨1, _⟩ => exact (rhsB_1 _ _).trans hk
      | ⟨2, _⟩ => exact rhsB_2 _ _)
  rw [el, er]

/-! ## The layout operations read at an index -/

/-- The flat product `[1200, 81]` viewed as `[1200, 9, 9]`: entry `(e, a, s)` is column `a·9 + s`. -/
theorem unflatten_apply {α : Type} (x : S1200x81.Idx → α) (e : Fin 1200) (a s : Fin 9) :
    shapeCast S1200x9x9 x shapeCasts_S1200x81_S1200x9x9 (ix3 e a s) = x (ix2 e (Cert.SO3.pair a s)) :=
  shapeCast_apply x shapeCasts_S1200x81_S1200x9x9 _ _ (by
    rw [Shape.rowMajor_val_two, Shape.rowMajor_val_three]
    show e.val * 81 + (a.val * 9 + s.val) = (e.val * 9 + a.val) * 9 + s.val
    omega)

/-- One degree's slab `[1, 9, 81]` viewed as `[9, 81]`. -/
theorem slab_apply {α : Type} (g : S1x9x81.Idx → α) (k : Fin 9) (c : Fin 81) :
    shapeCast S9x81 g shapeCasts_S1x9x81_S9x81 (ix2 k c) = g (ix3 (0 : Fin 1) k c) :=
  shapeCast_1ab_ab_apply g shapeCasts_S1x9x81_S9x81 k c

/-- A per-(edge, channel) factor given a unit middle axis and repeated over the nine output components. -/
theorem spread_apply {α : Type} (w : S1200x128.Idx → α) (e : Fin 1200) (s : Fin 9) (f : Fin 128) :
    broadcastTo S1200x9x128 (shapeCast S1200x1x128 w shapeCasts_S1200x128_S1200x1x128) broadcasts_S1200x1x128_S1200x9x128 (ix3 e s f)
      = w (ix2 e f) := by
  refine (broadcastTo_apply _ broadcasts_S1200x1x128_S1200x9x128 (ix3 e s f) (ix3 e (0 : Fin 1) f) (fun a => ?_)).trans ?_
  · match a with
    | ⟨0, _⟩ => show e.val = if (1200 : Nat) = 1 then 0 else e.val; rw [if_neg (by decide)]
    | ⟨1, _⟩ => show (0 : Nat) = if (1 : Nat) = 1 then 0 else s.val; rw [if_pos rfl]
    | ⟨2, _⟩ => show f.val = if (128 : Nat) = 1 then 0 else f.val; rw [if_neg (by decide)]
  · exact shapeCast_apply w shapeCasts_S1200x128_S1200x1x128 _ _ (by
      rw [Shape.rowMajor_val_two, Shape.rowMajor_val_three]
      show e.val * 128 + f.val = (e.val * 1 + 0) * 128 + f.val
      omega)

/-- The degree-`l` slice of the filter `[1200, 3, 128]`, its unit axis dropped: entry `(e, f)` is `W(e, l, f)`. -/
theorem degree_apply {α : Type} (o : Nat) (W : S1200x3x128.Idx → α) (h : S1200x3x128.Slices ![0, o, 0] S1200x1x128)
    (l : Fin 3) (hl : l.val = o) (e : Fin 1200) (f : Fin 128) :
    shapeCast S1200x128 (extractStridedSlice S1200x1x128 ![0, o, 0] W h) shapeCasts_S1200x1x128_S1200x128 (ix2 e f)
      = W (ix3 e l f) := by
  refine (shapeCast_apply _ shapeCasts_S1200x1x128_S1200x128 (ix2 e f) (ix3 e (0 : Fin 1) f) (by
      rw [Shape.rowMajor_val_two, Shape.rowMajor_val_three]
      show (e.val * 1 + 0) * 128 + f.val = e.val * 128 + f.val
      omega)).trans ?_
  exact slice3_axis1_apply o W h e (0 : Fin 1) f l (by show l.val = o + 0; omega)

/-! ## One degree's term, and the stored value -/

/-- One degree's contraction: the harmonics against the slab, regrouped by (input, output) component, then against the
    neighbour features: `∑_a (∑_k Y(e,k) · G(0,k,a·9+s)) · x(e,a,f)`. -/
theorem term_apply (Y : FVec Ideal S1200x9 .f32) (X : FVec Ideal S1200x9x128 .f32) (G : FVec Ideal S1x9x81 .f32)
    (e : Fin 1200) (s : Fin 9) (f : Fin 128) :
    matmul dot_S1200x9x9_S1200x9x128_S1200x9x128_1_1_2_2_0_0 none
        (shapeCast S1200x9x9
          (matmul dot_S1200x9_S9x81_S1200x81_1_0_0_1_n_n none Y (shapeCast S9x81 G shapeCasts_S1x9x81_S9x81)
            (constant (F := Ideal) S1200x81 .f32 0x00000000#32))
          shapeCasts_S1200x81_S1200x9x9)
        X (constant (F := Ideal) S1200x9x128 .f32 0x00000000#32) (ix3 e s f)
      = ∑ a : Fin 9, (∑ k : Fin 9, Y (ix2 e k) * G (ix3 (0 : Fin 1) k (Cert.SO3.pair a s))) * X (ix3 e a f) := by
  refine (mmB_apply _ X e s f).trans (Finset.sum_congr rfl fun a _ => congrArg (· * X (ix3 e a f)) ?_)
  refine (unflatten_apply _ e a s).trans ((mmA_apply Y _ e _).trans (Finset.sum_congr rfl fun k _ => congrArg (Y (ix2 e k) * ·) ?_))
  exact slab_apply G k _

/-- The neighbour features pass through a cast to their own shape unchanged. -/
theorem pay17_eq (v62 : Vec Ideal S1200x9x128 .f32) : k0_pay17 v62 = v62 := by
  unfold k0_pay17
  exact shapeCast_self v62 _

/-- The degree-1 filter slice is the filter at degree 1. -/
theorem pay20_apply (v51 : Vec Ideal S1200x20 .f32) (v52 : Vec Ideal S20x384 .f32) (v54 : Vec Ideal S384 .f32)
    (v58 : Vec Ideal S1200x1 .f32) (e : Fin 1200) (f : Fin 128) :
    k0_pay20 v51 v52 v54 v58 (ix2 e f) = k0_pay16 v51 v52 v54 v58 (ix3 e 1 f) := by
  unfold k0_pay20
  generalize k0_pay16 v51 v52 v54 v58 = W
  exact degree_apply 1 W _ 1 rfl e f

/-- The degree-0 partial sum: zero plus the degree-0 filter times the degree-0 term. -/
theorem pay18_apply (v22 v25 v32 v35 v40 : FVec Ideal S1200 .f32) (v41 v42 v43 v44 : FVec Ideal S1200x1 .f32)
    (v51 : Vec Ideal S1200x20 .f32) (v52 : Vec Ideal S20x384 .f32) (v54 : Vec Ideal S384 .f32) (v58 : Vec Ideal S1200x1 .f32)
    (v62 : Vec Ideal S1200x9x128 .f32) (v65 : Vec Ideal S1x9x81 .f32) (e : Fin 1200) (s : Fin 9) (f : Fin 128) :
    k0_pay18 v22 v25 v32 v35 v40 v41 v42 v43 v44 v51 v52 v54 v58 v62 v65 (ix3 e s f)
      = Cert.SO3.zero32 + k0_pay16 v51 v52 v54 v58 (ix3 e 0 f)
          * ∑ a : Fin 9, (∑ k : Fin 9, k0_pay15 v22 v25 v32 v35 v40 v41 v42 v43 v44 (ix2 e k)
              * v65 (ix3 (0 : Fin 1) k (Cert.SO3.pair a s))) * v62 (ix3 e a f) := by
  unfold k0_pay18
  rw [pay17_eq]
  generalize k0_pay15 v22 v25 v32 v35 v40 v41 v42 v43 v44 = Y
  generalize k0_pay16 v51 v52 v54 v58 = W
  rw [addf_apply, mulf_apply, broadcast_apply]
  refine congrArg₂ (· + ·) rfl (congrArg₂ (· * ·) ?_ ?_)
  · exact (spread_apply _ e s f).trans (degree_apply 0 W _ 0 rfl e f)
  · exact term_apply Y v62 v65 e s f

/-- The degree-1 term. -/
theorem pay19_apply (v22 v25 v32 v35 v40 : FVec Ideal S1200 .f32) (v41 v42 v43 v44 : FVec Ideal S1200x1 .f32)
    (v62 : Vec Ideal S1200x9x128 .f32) (v76 : Vec Ideal S1x9x81 .f32) (e : Fin 1200) (s : Fin 9) (f : Fin 128) :
    k0_pay19 v22 v25 v32 v35 v40 v41 v42 v43 v44 v62 v76 (ix3 e s f)
      = ∑ a : Fin 9, (∑ k : Fin 9, k0_pay15 v22 v25 v32 v35 v40 v41 v42 v43 v44 (ix2 e k)
              * v76 (ix3 (0 : Fin 1) k (Cert.SO3.pair a s))) * v62 (ix3 e a f) := by
  unfold k0_pay19
  rw [pay17_eq]
  generalize k0_pay15 v22 v25 v32 v35 v40 v41 v42 v43 v44 = Y
  exact term_apply Y v62 v76 e s f

/-- The stored entry from the partial sums: `(p₀ + w₁ · t₁) + W(e,2,f) · t₂`, the degree-2 term contracted here. -/
theorem pay1_apply (v50 : FVec Ideal S1200x9 .f32) (v61 : FVec Ideal S1200x3x128 .f32) (v63 v75 v80 : FVec Ideal S1200x9x128 .f32)
    (v82 : FVec Ideal S1200x128 .f32) (v87 : Vec Ideal S1x9x81 .f32) (e : Fin 1200) (s : Fin 9) (f : Fin 128) :
    k0_pay1 v50 v61 v63 v75 v80 v82 v87 (ix3 e s f)
      = (v75 (ix3 e s f) + v82 (ix2 e f) * v80 (ix3 e s f))
          + v61 (ix3 e 2 f) * ∑ a : Fin 9, (∑ k : Fin 9, v50 (ix2 e k) * v87 (ix3 (0 : Fin 1) k (Cert.SO3.pair a s))) * v63 (ix3 e a f) := by
  unfold k0_pay1
  rw [addf_apply, addf_apply, mulf_apply, mulf_apply]
  refine congrArg₂ (· + ·) (congrArg₂ (· + ·) rfl (congrArg₂ (· * ·) ?_ rfl)) (congrArg₂ (· * ·) ?_ ?_)
  · exact spread_apply v82 e s f
  · exact (spread_apply _ e s f).trans (degree_apply 2 v61 _ 2 rfl e f)
  · exact term_apply v50 v63 v87 e s f

/-- The value the body stores at `(e, s, f)` is the kernel's entry of the specification: the harmonics of edge `e`, its
    three filter values at channel `f`, its nine neighbour features at channel `f`, and the three slabs read at the
    flattened pair `a·9 + s`. -/
theorem storeVal_apply (v0 : Vec Ideal S1200x3 .f32) (v51 : Vec Ideal S1200x20 .f32) (v52 : Vec Ideal S20x384 .f32)
    (v54 : Vec Ideal S384 .f32) (v58 : Vec Ideal S1200x1 .f32) (v62 : Vec Ideal S1200x9x128 .f32)
    (v65 v76 v87 : Vec Ideal S1x9x81 .f32) (e : Fin 1200) (s : Fin 9) (f : Fin 128) :
    storeVal v0 v51 v52 v54 v58 v62 v65 v76 v87 (ix3 e s f)
      = Cert.SO3.kval (fun k => k0_pay15 (k0_pay6 v0) (k0_pay7 v0) (k0_pay8 v0) (k0_pay9 v0) (k0_pay10 v0) (k0_pay11 (F := Ideal)) (k0_pay12 v0) (k0_pay13 v0) (k0_pay14 v0) (ix2 e k))
          (fun l => k0_pay16 v51 v52 v54 v58 (ix3 e l f)) (fun a => v62 (ix3 e a f))
          (fun l k a => (![v65, v76, v87] l) (ix3 0 k (Cert.SO3.pair a s))) := by
  unfold storeVal
  refine (pay1_apply _ _ _ _ _ _ _ e s f).trans ?_
  rw [pay18_apply, pay19_apply, pay20_apply, pay17_eq]
  rfl

end Cert.KernelIdeal.Pay2

end
-- ==== Proof.KArray.lean ====
/-
  From the region's blocks to its output array. At grid point `t` the body stores, at block entry `(e, s, f)`, the
  dense contraction of the block's rows; by the block positions that is the per-edge result `yijE` at edge
  `1200·t + e`. The ten blocks tile the edge axis, so after the run the output array holds `yijE` everywhere.
-/
import proofs.«408281_j76957224010212_1_alg».proof.Proof.KFrame
import proofs.«408281_j76957224010212_1_alg».proof.Proof.KBlocks
import proofs.«408281_j76957224010212_1_alg».proof.Proof.KEntry
import proofs.«408281_j76957224010212_1_alg».proof.Proof.KPieces
import proofs.«408281_j76957224010212_1_alg».proof.Proof.KContract

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The three degree slabs the body loads are rows 0, 1, 2 of the table's leading axis. -/
theorem slab0 (x6 : Vec Ideal S3x9x81 .f32) (k : Fin 9) (p : Fin 81) :
    (View.ld x6 rGw0 : S1x9x81.Idx → EReal) (ix3 0 k p) = (x6 : S3x9x81.Idx → EReal) (ix3 0 k p) := by
  show x6 (rGw0.idx (ix3 0 k p)) = x6 (ix3 0 k p)
  congr 1; funext d; apply Fin.ext
  match d with
  | ⟨0, _⟩ => rfl
  | ⟨1, _⟩ => show 0 + 1 * k.val = k.val; omega
  | ⟨2, _⟩ => show 0 + 1 * p.val = p.val; omega
theorem slab1 (x6 : Vec Ideal S3x9x81 .f32) (k : Fin 9) (p : Fin 81) :
    (View.ld x6 rGw1 : S1x9x81.Idx → EReal) (ix3 0 k p) = (x6 : S3x9x81.Idx → EReal) (ix3 1 k p) := by
  show x6 (rGw1.idx (ix3 0 k p)) = x6 (ix3 1 k p)
  congr 1; funext d; apply Fin.ext
  match d with
  | ⟨0, _⟩ => rfl
  | ⟨1, _⟩ => show 0 + 1 * k.val = k.val; omega
  | ⟨2, _⟩ => show 0 + 1 * p.val = p.val; omega
theorem slab2 (x6 : Vec Ideal S3x9x81 .f32) (k : Fin 9) (p : Fin 81) :
    (View.ld x6 rGw2 : S1x9x81.Idx → EReal) (ix3 0 k p) = (x6 : S3x9x81.Idx → EReal) (ix3 2 k p) := by
  show x6 (rGw2.idx (ix3 0 k p)) = x6 (ix3 2 k p)
  congr 1; funext d; apply Fin.ext
  match d with
  | ⟨0, _⟩ => rfl
  | ⟨1, _⟩ => show 0 + 1 * k.val = k.val; omega
  | ⟨2, _⟩ => show 0 + 1 * p.val = p.val; omega

/-- Slab `l` of the loaded table, read at harmonic `k` and pair position `p`. -/
theorem slabs (x6 : Vec Ideal S3x9x81 .f32) (l : Fin 3) (k : Fin 9) (p : Fin 81) :
    ((![View.ld x6 rGw0, View.ld x6 rGw1, View.ld x6 rGw2] : Fin 3 → Vec Ideal S1x9x81 .f32) l : S1x9x81.Idx → EReal) (ix3 0 k p)
      = (x6 : S3x9x81.Idx → EReal) (ix3 l k p) := by
  fin_cases l
  · exact slab0 x6 k p
  · exact slab1 x6 k p
  · exact slab2 x6 k p

/-- What the body stores, at a block entry, from the seven blocks' contents: the dense contraction of the block's row. -/
theorem out7_apply (x0 : Vec Ideal S1200x9x128 .f32) (x1 : Vec Ideal S1200x3 .f32) (x2 : Vec Ideal S1200x20 .f32)
    (x3 : Vec Ideal S1200x1 .f32) (x4 : Vec Ideal S20x384 .f32) (x5 : Vec Ideal S384 .f32) (x6 : Vec Ideal S3x9x81 .f32)
    (e : Fin 1200) (s : Fin 9) (f : Fin 128) :
    (out7 x0 x1 x2 x3 x4 x5 x6 : S1200x9x128.Idx → EReal) (ix3 e s f)
      = Cert.SO3.kval (Cert.SO3.Yrow fun j => (x1 : S1200x3.Idx → EReal) (ix2 e j))
          (fun l => Cert.SO3.Wval (fun r => (x2 : S1200x20.Idx → EReal) (ix2 e r)) (fun r q => (x4 : S20x384.Idx → EReal) (ix2 r q))
            (fun q => (x5 : S384.Idx → EReal) (ix1 q)) ((x3 : S1200x1.Idx → EReal) (ix2 e 0)) (Cert.SO3.col l f))
          (fun a => (x0 : S1200x9x128.Idx → EReal) (ix3 e a f))
          (fun l k a => (x6 : S3x9x81.Idx → EReal) (ix3 l k (Cert.SO3.pair a s))) := by
  unfold out7
  rw [View.canon_unit_zero zeros3]
  rw [View.ld_unit_zero (S := S1200x3) zeros2, View.ld_unit_zero (S := S1200x20) zeros2, View.ld_unit_zero (S := S20x384) zeros2,
    View.ld_unit_zero (S := S384) zeros1, View.ld_unit_zero (S := S1200x1) zeros2, View.ld_unit_zero (S := S1200x9x128) zeros3]
  rw [Cert.KernelIdeal.Pay2.storeVal_apply]
  simp only [Cert.KernelIdeal.Pay.Y_apply, Cert.KernelIdeal.Pay.W_apply, slabs]

/-- WHAT POINT `t` WRITES BACK is block `t` of the per-edge result array. -/
theorem flushed_out (c : Dev nD) (t : Fin cfg0.N) :
    (dats m 0 c).flushed 7 t = ((cfg0.win 7).blk t).view.read (Elt Ideal) (yijArr m c) := by
  show (cfg0.win 7).cut (grid0.coords t) ((dats m 0 c).after 7 t) = _
  rw [after7]
  funext j
  obtain ⟨e, s, f, rfl⟩ : ∃ (e : Fin 1200) (s : Fin 9) (f : Fin 128), j = ix3 e s f := ⟨j 0, j 1, j 2, eq_ix3 j⟩
  show (out7 (iblk m c 0 t) (iblk m c 1 t) (iblk m c 2 t) (iblk m c 3 t) (iblk m c 4 t) (iblk m c 5 t) (iblk m c 6 t) : S1200x9x128.Idx → EReal) (ix3 e s f)
    = yijArr m c (((cfg0.win 7).blk t).view.emb (ix3 e s f))
  rw [emb_out, yijArr_apply, out7_apply]
  unfold yijE
  simp only [blk_xj, blk_dir, blk_rad, blk_cut, blk_wf, blk_bf, blk_gw]

/-- THE OUTPUT ARRAY after the run holds the per-edge result everywhere: its ten blocks tile it. -/
theorem final_out (c : Dev nD) : (dats m 0 c).arrAt 7 cfg0.N = yijArr m c :=
  (dats m 0 c).arrAt_eq_of_cover 7 (yijArr m c) (fun t _ => flushed_out m c t) cover_out

end Cert.KernelIdeal.Fr

end
-- ==== Proof.KHost.lean ====
/-
  Two host-side values of the kernel program, read off its @main.

  * The neighbour features the region's first window stages are the gather of the feature array by the wrapped
    neighbour indices: the same term the reference forms.
  * After the region @main sums the per-edge results into their receiver atoms: a zero array, the receiver indices as
    a column, one accumulating row scatter of the region's output array.
-/
import proofs.«408281_j76957224010212_1_alg».proof.Proof.KBase
import Idealize.ShloMosaic.Lib.StableHlo.Run
import Idealize.ShloMosaic.PureOps.Ideal
import Idealize.ShloMosaic.Lib.ValueIdx

noncomputable section

namespace Cert.KernelIdeal.Fr

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ)

set_option maxHeartbeats 4000000 in
/-- The neighbour features as the region finds them: the feature array gathered along its atom axis by the neighbour
    indices, a negative index first wrapped by the number of atoms. -/
theorem V_xj (c : Dev nD) :
    (V m c main_v35 : S12000x9x128.Idx → EReal)
      = Host.gather gather_S1200x9x128_S12000x1_S12000x9x128_12_0_n_n_0_1_19128 (m ((c.tc : Thread nD τ).loc main_arg0))
          (broadcastInDim S12000x1 ![0] bcast_S12000_S12000x1_0
            (select (cmpi .slt (m ((c.tc : Thread nD τ).loc main_arg8)) (broadcastInDim S12000 ![] bcast_S_S12000 (constantI S_ 32 0#32)))
              (addi (m ((c.tc : Thread nD τ).loc main_arg8)) (broadcastInDim S12000 ![] bcast_S_S12000 (constantI S_ 32 1200#32)))
              (m ((c.tc : Thread nD τ).loc main_arg8)))) := by
  dsimp only [V, V0]
  simp only [hostOps0, List.flatten_cons, List.flatten_nil, List.append_nil, List.cons_append, List.nil_append]
  after_results_simp

/-- No host operation before the region writes the receiver indices: the region and the tail find them as launched. -/
theorem V0_recv (c : Dev nD) : V0 m c (Proc.devRef .tc main_arg7) = m ((c.tc : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))

/-- No host operation before the region writes argument 1: the region finds it as launched. -/
theorem V_arg1 (c : Dev nD) : V m c main_arg1 = m ((c.tc : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))

/-- No host operation before the region writes argument 2: the region finds it as launched. -/
theorem V_arg2 (c : Dev nD) : V m c main_arg2 = m ((c.tc : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))

/-- No host operation before the region writes argument 3: the region finds it as launched. -/
theorem V_arg3 (c : Dev nD) : V m c main_arg3 = m ((c.tc : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))

/-- No host operation before the region writes argument 4: the region finds it as launched. -/
theorem V_arg4 (c : Dev nD) : V m c main_arg4 = m ((c.tc : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))

/-- No host operation before the region writes argument 5: the region finds it as launched. -/
theorem V_arg5 (c : Dev nD) : V m c main_arg5 = m ((c.tc : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide)))

/-- The program's result: the segment sum of the region's output array — a zero array of atoms, the receiver indices
    as a column, and the accumulating row scatter of the per-edge results into it. -/
theorem tail_result (dats : (p : Fin 1) → (c : Dev nD) → Dat τ (Elt Ideal) Unit ℕ (UR sig nD τ) ℕ (cfgs p) c) (c : Dev nD) :
    (Pipeline.afterTail₀ cfgs dats 0 (V0 m) [hostOps1] c main_v39 : S1200x9x128.Idx → EReal)
      = Host.scatterAdd scatter_S1200x9x128_S12000x1_S12000x9x128_12_0_0_1
          (broadcastInDim S1200x9x128 ![] bcast_S_S1200x9x128 (constant (F := Ideal) S_ .f32 0x00000000#32))
          (broadcastInDim S12000x1 ![0] bcast_S12000_S12000x1_0 (m ((c.tc : Thread nD τ).loc main_arg7)))
          ((dats 0 c).arrAt 7 cfg0.N) := by
  unfold Pipeline.afterTail₀
  show StableHlo.after hostOps1 _ (Proc.devRef .tc main_v39) = _
  after_results
  have h7 : Pipeline.withArrays (cfgs 0).spec c (V0 m c) (fun w => (dats 0 c).arrAt w (cfgs 0).N) (Proc.devRef .tc main_v36)
      = (dats 0 c).arrAt 7 cfg0.N :=
    Pipeline.withArrays_arr spec0 launch0.win.arr_inj c _ _ 7
  have ha : Pipeline.withArrays (cfgs 0).spec c (V0 m c) (fun w => (dats 0 c).arrAt w (cfgs 0).N) (Proc.devRef .tc main_arg7)
      = m ((c.tc : Thread nD τ).loc main_arg7) :=
    (Pipeline.withArrays_of_ne _ c (V0 m c) _ main_arg7 (by exact (by decide : ∀ w, Pipeline.arrRef spec0 w ≠ main_arg7))).trans (V0_recv m c)
  rw [h7, ha]

end Cert.KernelIdeal.Fr

end
-- ==== Proof.KDense.lean ====
/-
  The dense Clebsch–Gordan table as the kernel program's region finds it.

  Before the region the host wraps the four index arrays of the sparse table — input component 1, input component 2,
  output component, degree, on axes of extent 9, 9, 9, 3 — (`w + n` where the word `w` is negative, else `w`), lays them
  as the four columns of a [137,4] index table, adds the 137 values into a zero [9,9,9,3] array, each at the position its
  row of the table names (an entry whose row leaves the array on some axis is dropped, never clamped), transposes the
  array by [3,1,0,2] and flattens its last two axes: a [3,9,81] table.

  `gw_apply`: with the two input-component words and the degree word in range, entry `(l, k, a·9 + s)` of that table is
  `Cert.SO3.dense` at `(l, k, a)` — zero plus the values of the entries `n` with `i1 n = a`, `i2 n = k`, `iw n = l` whose
  wrapped output word, read signed, is `s`. Nothing is assumed of the output word.

  The steps: the flattening reads the [3,9,9,9] array at `(l, k, a, s)` (equal row-major positions); the transpose reads
  the [9,9,9,3] array at `(a, k, s, l)`; the scatter-add there is zero plus the sum over the updates that land on
  `(a, k, s, l)`; every operand axis being an inserted one, update `n` lands on a position exactly when the four words of
  row `n`, read signed, are its four coordinates (`gw_lands_iff`); a word in range names the component `fin9` / `fin3`
  give it (`gw_fin9_eq_iff`, `gw_fin3_eq_iff`); and the sum over the updates' index set is the sum over `Fin 137`.
-/
import proofs.«408281_j76957224010212_1_alg».proof.Proof.KBase
import proofs.«408281_j76957224010212_1_alg».proof.Proof.Spec
import Idealize.ShloMosaic.Lib.ValueIdx
import Idealize.ShloMosaic.Lib.Pipeline.Value
import Idealize.ShloMosaic.Lib.StableHlo.Run
import Idealize.ShloMosaic.Lib.StableHlo.Predicate

noncomputable section

namespace Cert.KernelIdeal.Fr

open Cert.KernelIdeal Cert.KernelIdeal.Gen
open Idealize.ShloMosaic Idealize.ShloMosaic.ValueIdx

variable (m : (ℓ : Loc nD τ sig) → Buf (Elt Ideal) ℓ) (c : Dev nD)

/-- The scatter's dimension numbers: every operand axis is an inserted one, the index vector runs along axis 1 of the table. -/
abbrev gwDims := scatter_S9x9x9x3_S137x4_S137_n_0123_0123_1

/-- The host operations up to the four index columns. -/
abbrev gwHead : List (HloOp τ sig (Elt Ideal)) := (hostOps0 (F := Ideal)).take 34
/-- The rest of the host operations: the concatenation of the four columns first. -/
abbrev gwTail : List (HloOp τ sig (Elt Ideal)) := (hostOps0 (F := Ideal)).drop 34
/-- The buffers once the four index columns are laid out. -/
abbrev gwMid : Valuation τ sig (Elt Ideal) := StableHlo.after gwHead (fun b => m (c, b))

/-- The operations run as the head, then the rest. -/
theorem V0_gwCut (b : DevRef τ sig) : V0 m c b = StableHlo.after gwTail (gwMid m c) b := by
  have h : List.flatten [hostOps0 (F := Ideal)] = gwHead ++ gwTail := by
    simp only [List.flatten_cons, List.flatten_nil, List.append_nil, List.take_append_drop]
  show StableHlo.after (List.flatten [hostOps0]) (fun b => m (c, b)) b = _
  rw [h, StableHlo.after_append]

set_option maxHeartbeats 1000000 in
/-- The table after the rest of the operations, over any contents `Wv` of the buffers before them: the four columns concatenated,
    the values added into the zero array at the rows of that table, the transpose by [3,1,0,2], the last two axes flattened. -/
theorem gwTail_term (Wv : Valuation τ sig (Elt Ideal)) :
    (StableHlo.after gwTail Wv (Proc.devRef .tc main_v28) : S3x9x81.Idx → EReal)
      = shapeCast S3x9x81
          (transpose S3x9x9x9 [3, 1, 0, 2]
            (Host.scatterAdd (F := Ideal) (φ := .f32) (w := 32) gwDims (Wv (Proc.devRef .tc main_v0))
              (concatenate S137x4 1 [⟨S137x1, Wv (Proc.devRef .tc main_v21)⟩, ⟨S137x1, Wv (Proc.devRef .tc main_v22)⟩,
                ⟨S137x1, Wv (Proc.devRef .tc main_v23)⟩, ⟨S137x1, Wv (Proc.devRef .tc main_v24)⟩]
                concatenates_S137x1_S137x1_S137x1_S137x1_S137x4_d1)
              (Wv (Proc.devRef .tc main_arg6)))
            transposes_S9x9x9x3_S3x9x9x9_3_1_0_2)
          shapeCasts_S3x9x9x9_S3x9x81 := by
  dsimp only [gwTail]
  simp only [hostOps0, List.drop_succ_cons, List.drop_zero]
  after_results_simp
  dsimp only [Matrix.cons_val]
  rfl

/-! ## The head's buffers: the zero array, the four wrapped index columns, the values -/

/-- The head leaves the 137 values as launched. -/
theorem gwMid_arg6 : gwMid m c (Proc.devRef .tc main_arg6) = m (c, Proc.devRef .tc main_arg6) := by
  dsimp only [gwMid, gwHead]
  simp only [hostOps0, List.take_succ_cons, List.take_zero]
  after_results_simp

/-- The array the values are added into holds the f32 zero word everywhere. -/
theorem gwMid_v0 (i : S9x9x9x3.Idx) : (gwMid m c (Proc.devRef .tc main_v0) : S9x9x9x3.Idx → EReal) i = Cert.SO3.zero32 := by
  have e : (gwMid m c (Proc.devRef .tc main_v0) : S9x9x9x3.Idx → EReal)
      = broadcastInDim S9x9x9x3 ![] bcast_S_S9x9x9x3 (constant (F := Ideal) S_ .f32 0x00000000#32) := by
    dsimp only [gwMid, gwHead]
    simp only [hostOps0, List.take_succ_cons, List.take_zero]
    after_results_simp
  rw [e]
  rfl

/-- The index wrap, array-wise: the word plus `n` where it is negative (signed), else the word. -/
abbrev gwWrap (n : BitVec 32) (x : IVec S137 32) : IVec S137 32 :=
  select (cmpi .slt x (broadcastInDim S137 ![] bcast_S_S137 (constantI S_ 32 0#32)))
    (addi x (broadcastInDim S137 ![] bcast_S_S137 (constantI S_ 32 n))) x

/-- At entry `p` it is the word's wrap. -/
theorem gwWrap_apply (n : BitVec 32) (x : IVec S137 32) (p : Fin 137) : gwWrap n x (ix1 p) = Cert.SO3.wrapW n (x (ix1 p)) := rfl

/-- A vector laid as a column reads, at row `p`, the vector at `p`. -/
theorem gwCol_apply (x : IVec S137 32) (p : Fin 137) :
    broadcastInDim S137x1 ![0] bcast_S137_S137x1_0 x (ix2 p (0 : Fin 1)) = x (ix1 p) :=
  broadcastInDim_apply _ _ _ _ _ fun a => by
    match a with
    | ⟨0, _⟩ => rfl

/-- Column 0: the input-component-1 words wrapped on extent 9, laid as a column. -/
theorem gwMid_v21 : (gwMid m c (Proc.devRef .tc main_v21) : S137x1.Idx → BitVec 32)
    = broadcastInDim S137x1 ![0] bcast_S137_S137x1_0 (gwWrap 9#32 (m (c, Proc.devRef .tc main_arg9))) := by
  dsimp only [gwMid, gwHead]
  simp only [hostOps0, List.take_succ_cons, List.take_zero]
  after_results_simp

/-- Column 1: the input-component-2 words wrapped on extent 9. -/
theorem gwMid_v22 : (gwMid m c (Proc.devRef .tc main_v22) : S137x1.Idx → BitVec 32)
    = broadcastInDim S137x1 ![0] bcast_S137_S137x1_0 (gwWrap 9#32 (m (c, Proc.devRef .tc main_arg10))) := by
  dsimp only [gwMid, gwHead]
  simp only [hostOps0, List.take_succ_cons, List.take_zero]
  after_results_simp

/-- Column 2: the output-component words wrapped on extent 9. -/
theorem gwMid_v23 : (gwMid m c (Proc.devRef .tc main_v23) : S137x1.Idx → BitVec 32)
    = broadcastInDim S137x1 ![0] bcast_S137_S137x1_0 (gwWrap 9#32 (m (c, Proc.devRef .tc main_arg11))) := by
  dsimp only [gwMid, gwHead]
  simp only [hostOps0, List.take_succ_cons, List.take_zero]
  after_results_simp

/-- Column 3: the degree words wrapped on extent 3. -/
theorem gwMid_v24 : (gwMid m c (Proc.devRef .tc main_v24) : S137x1.Idx → BitVec 32)
    = broadcastInDim S137x1 ![0] bcast_S137_S137x1_0 (gwWrap 3#32 (m (c, Proc.devRef .tc main_arg12))) := by
  dsimp only [gwMid, gwHead]
  simp only [hostOps0, List.take_succ_cons, List.take_zero]
  after_results_simp

/-! ## The index table: row `p` holds the four wrapped words of entry `p` -/

/-- The [137,4] index table. -/
abbrev gwIdx : IVec S137x4 32 :=
  concatenate S137x4 1 [⟨S137x1, gwMid m c (Proc.devRef .tc main_v21)⟩, ⟨S137x1, gwMid m c (Proc.devRef .tc main_v22)⟩,
    ⟨S137x1, gwMid m c (Proc.devRef .tc main_v23)⟩, ⟨S137x1, gwMid m c (Proc.devRef .tc main_v24)⟩]
    concatenates_S137x1_S137x1_S137x1_S137x1_S137x4_d1

/-- Off the concatenated axis a column's index has the table's row. -/
theorem gwRow_same (p : Fin 137) (q : Fin 4) (b : Fin S137x1.rank) (hb : b.cast (rfl : S137x1.rank = S137x4.rank) ≠ (1 : Fin 2)) :
    ((ix2 p (0 : Fin 1) : S137x1.Idx) b).val = ((ix2 p q : S137x4.Idx) (b.cast rfl)).val := by
  match b with
  | ⟨0, _⟩ => rfl
  | ⟨1, _⟩ => exact absurd rfl hb

/-- Row `p`, column 0 of the table: entry `p`'s wrapped input-component-1 word. -/
theorem gwIdx_col0 (p : Fin 137) : gwIdx m c (ix2 p (0 : Fin 4)) = Cert.SO3.wrapW 9#32 (m ((c.tc : Thread nD τ).loc main_arg9) (ix1 p)) := by
  refine Eq.trans (concatenate_apply_piece (1 : Fin 2) _ _ (ix2 p (0 : Fin 4)) 0 ?_ S137x1 _ rfl rfl 0 rfl (ix2 p (0 : Fin 1))
    (gwRow_same p 0) rfl) ?_
  · exact (by decide : 0 < 4)
  rw [gwMid_v21]
  exact (gwCol_apply _ p).trans (gwWrap_apply _ _ p)

/-- Row `p`, column 1: the wrapped input-component-2 word. -/
theorem gwIdx_col1 (p : Fin 137) : gwIdx m c (ix2 p (1 : Fin 4)) = Cert.SO3.wrapW 9#32 (m ((c.tc : Thread nD τ).loc main_arg10) (ix1 p)) := by
  refine Eq.trans (concatenate_apply_piece (1 : Fin 2) _ _ (ix2 p (1 : Fin 4)) 1 ?_ S137x1 _ rfl rfl 1 rfl (ix2 p (0 : Fin 1))
    (gwRow_same p 1) rfl) ?_
  · exact (by decide : 1 < 4)
  rw [gwMid_v22]
  exact (gwCol_apply _ p).trans (gwWrap_apply _ _ p)

/-- Row `p`, column 2: the wrapped output-component word. -/
theorem gwIdx_col2 (p : Fin 137) : gwIdx m c (ix2 p (2 : Fin 4)) = Cert.SO3.wrapW 9#32 (m ((c.tc : Thread nD τ).loc main_arg11) (ix1 p)) := by
  refine Eq.trans (concatenate_apply_piece (1 : Fin 2) _ _ (ix2 p (2 : Fin 4)) 2 ?_ S137x1 _ rfl rfl 2 rfl (ix2 p (0 : Fin 1))
    (gwRow_same p 2) rfl) ?_
  · exact (by decide : 2 < 4)
  rw [gwMid_v23]
  exact (gwCol_apply _ p).trans (gwWrap_apply _ _ p)

/-- Row `p`, column 3: the wrapped degree word. -/
theorem gwIdx_col3 (p : Fin 137) : gwIdx m c (ix2 p (3 : Fin 4)) = Cert.SO3.wrapW 3#32 (m ((c.tc : Thread nD τ).loc main_arg12) (ix1 p)) := by
  refine Eq.trans (concatenate_apply_piece (1 : Fin 2) _ _ (ix2 p (3 : Fin 4)) 3 ?_ S137x1 _ rfl rfl 3 rfl (ix2 p (0 : Fin 1))
    (gwRow_same p 3) rfl) ?_
  · exact (by decide : 3 < 4)
  rw [gwMid_v24]
  exact (gwCol_apply _ p).trans (gwWrap_apply _ _ p)

/-! ## Where an update lands -/

/-- An update lands on `i` exactly when, on every axis, its start plus its window coordinate is `i`'s coordinate. -/
theorem gw_resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hin =>
      have e := Option.some.inj h
      have ea := congrArg (fun f => ((f a).val : Int)) e
      have := hin a
      simp only at ea
      omega
    · exact absurd h (by simp)
  · intro h
    have hin : ∀ a, 0 ≤ d.start j idx a + (d.window j a : Int) ∧ d.start j idx a + (d.window j a : Int) < s.size a := by
      intro a; have := h a; have := (i a).isLt; omega
    rw [dif_pos hin]
    congr 1
    funext a
    apply Fin.ext
    have := h a
    show (d.start j idx a + (d.window j a : Int)).toNat = (i a).val
    omega

/-- Every operand axis is an inserted one: the window coordinate is 0. -/
theorem gwDims_window (j : S137.Idx) (a : Fin 4) : gwDims.window j a = 0 := by
  match a with
  | ⟨0, _⟩ => rfl
  | ⟨1, _⟩ => rfl
  | ⟨2, _⟩ => rfl
  | ⟨3, _⟩ => rfl

/-- Component `q` of entry `p`'s start index is read at row `p`, column `q` of the table. -/
theorem gwDims_siIdx (p : Fin 137) (q : Fin gwDims.scatterDimsToOperandDims.length) :
    gwDims.siIdx (ix1 p) q = ix2 p (⟨q.val, q.isLt⟩ : Fin 4) := by
  funext b
  match b with
  | ⟨0, _⟩ => rfl
  | ⟨1, _⟩ => rfl

/-- Every operand axis is named by the start-index map. -/
theorem gwDims_mem : ∀ a : Fin 4, a ∈ gwDims.scatterDimsToOperandDims := by decide

/-- Operand axis `a` starts at the word in column `a`, read signed. -/
theorem gwDims_start (p : Fin 137) (idx : IVec S137x4 32) (a : Fin 4) : gwDims.start (ix1 p) idx a = (idx (ix2 p a)).toInt := by
  unfold ScatterDims.start
  rw [dif_pos (gwDims_mem a), gwDims_siIdx]
  match a with
  | ⟨0, _⟩ => rfl
  | ⟨1, _⟩ => rfl
  | ⟨2, _⟩ => rfl
  | ⟨3, _⟩ => rfl

/-- Entry `p` lands on `(a, k, s, l)` exactly when its four words, read signed, are `a`, `k`, `s`, `l`. -/
theorem gw_lands_iff (p : Fin 137) (idx : IVec S137x4 32) (a k s : Fin 9) (l : Fin 3) :
    gwDims.resultIdx? (ix1 p) idx = some (ix4 a k s l)
      ↔ (idx (ix2 p (0 : Fin 4))).toInt = (a.val : Int) ∧ (idx (ix2 p (1 : Fin 4))).toInt = (k.val : Int)
        ∧ (idx (ix2 p (2 : Fin 4))).toInt = (s.val : Int) ∧ (idx (ix2 p (3 : Fin 4))).toInt = (l.val : Int) := by
  rw [gw_resultIdx?_eq_some_iff]
  constructor
  · intro h
    have h0 := h (0 : Fin 4); have h1 := h (1 : Fin 4); have h2 := h (2 : Fin 4); have h3 := h (3 : Fin 4)
    rw [gwDims_start, gwDims_window] at h0 h1 h2 h3
    exact ⟨by simpa using h0, by simpa using h1, by simpa using h2, by simpa using h3⟩
  · rintro ⟨h0, h1, h2, h3⟩ b
    rw [gwDims_start, gwDims_window]
    match b with
    | ⟨0, _⟩ => simpa using h0
    | ⟨1, _⟩ => simpa using h1
    | ⟨2, _⟩ => simpa using h2
    | ⟨3, _⟩ => simpa using h3

/-! ## Words in range name components -/

/-- A word in `[0, 9)` names component `a` exactly when it reads `a` signed: a non-negative signed reading is the unsigned one,
    and below 9 the remainder by 9 changes nothing. -/
theorem gw_fin9_eq_iff {w : BitVec 32} (h : Cert.SO3.InRange 9 w) (a : Fin 9) : Cert.SO3.fin9 w = a ↔ w.toInt = (a.val : Int) := by
  obtain ⟨h0, h9⟩ := h
  have hc := BitVec.toInt_eq_toNat_cond w
  have hlt := w.isLt
  have ha := a.isLt
  rw [Fin.ext_iff]
  show w.toNat % 9 = a.val ↔ _
  split at hc <;> omega

/-- The same on an axis of extent 3. -/
theorem gw_fin3_eq_iff {w : BitVec 32} (h : Cert.SO3.InRange 3 w) (a : Fin 3) : Cert.SO3.fin3 w = a ↔ w.toInt = (a.val : Int) := by
  obtain ⟨h0, h9⟩ := h
  have hc := BitVec.toInt_eq_toNat_cond w
  have hlt := w.isLt
  have ha := a.isLt
  rw [Fin.ext_iff]
  show w.toNat % 3 = a.val ↔ _
  split at hc <;> omega

/-- The 137 updates, indexed by their position. -/
def gwUpdEquiv : Fin 137 ≃ S137.Idx where
  toFun p := ix1 p
  invFun j := j 0
  left_inv _ := rfl
  right_inv j := (eq_ix1 j).symm

/-! ## The dense table the region finds -/

/-- Slab `l`, row `k`, position `a·9 + s` of the [3,9,81] table is zero plus the values of the sparse entries whose four
    wrapped words name exactly `(a, k, s, l)`: the reshape reads the [3,9,9,9] array at `(l, k, a, s)`, the transpose by
    [3,1,0,2] reads the scattered [9,9,9,3] array at `(a, k, s, l)`, and the scatter-add into zeros sums the updates that land there. -/
theorem gw_apply (m : (ℓ : Loc nD τ sig) → Buf (Elt Ideal) ℓ) (c : Dev nD)
    (h1 : ∀ n : Fin 137, Cert.SO3.InRange 9 (Cert.SO3.wrapW 9#32 (m ((c.tc : Thread nD τ).loc main_arg9) (ix1 n))))
    (h2 : ∀ n : Fin 137, Cert.SO3.InRange 9 (Cert.SO3.wrapW 9#32 (m ((c.tc : Thread nD τ).loc main_arg10) (ix1 n))))
    (hw : ∀ n : Fin 137, Cert.SO3.InRange 3 (Cert.SO3.wrapW 3#32 (m ((c.tc : Thread nD τ).loc main_arg12) (ix1 n))))
    (l : Fin 3) (k a s : Fin 9) :
    (V m c main_v28 : S3x9x81.Idx → EReal) (ix3 l k (Cert.SO3.pair a s))
      = Cert.SO3.dense (fun n => m ((c.tc : Thread nD τ).loc main_arg6) (ix1 n))
          (fun n => Cert.SO3.fin9 (Cert.SO3.wrapW 9#32 (m ((c.tc : Thread nD τ).loc main_arg9) (ix1 n))))
          (fun n => Cert.SO3.fin9 (Cert.SO3.wrapW 9#32 (m ((c.tc : Thread nD τ).loc main_arg10) (ix1 n))))
          (fun n => Cert.SO3.fin3 (Cert.SO3.wrapW 3#32 (m ((c.tc : Thread nD τ).loc main_arg12) (ix1 n))))
          (fun n => Cert.SO3.Lands (Cert.SO3.wrapW 9#32 (m ((c.tc : Thread nD τ).loc main_arg11) (ix1 n))) s) l k a := by
  refine (congrFun ((V0_gwCut m c _).trans (gwTail_term (gwMid m c))) _).trans ?_
  refine (shapeCast_apply _ _ (ix3 l k (Cert.SO3.pair a s)) (ix4 l k a s) ?_).trans ?_
  · rw [Shape.rowMajor_val_four, Shape.rowMajor_val_three]
    show ((l.val * 9 + k.val) * 9 + a.val) * 9 + s.val = (l.val * 9 + k.val) * 81 + (a.val * 9 + s.val)
    omega
  refine (transpose_apply _ _ _ (ix4 l k a s) (ix4 a k s l) ?_).trans ?_
  · intro b
    match b with
    | ⟨0, _⟩ => rfl
    | ⟨1, _⟩ => rfl
    | ⟨2, _⟩ => rfl
    | ⟨3, _⟩ => rfl
  show Ideal.hostScatterAdd gwDims _ (gwIdx m c) _ (ix4 a k s l) = _
  unfold Ideal.hostScatterAdd Cert.SO3.dense
  rw [gwMid_v0, gwMid_arg6]
  refine congrArg (fun t => Cert.SO3.zero32 + t) ?_
  symm
  refine Finset.sum_equiv gwUpdEquiv ?_ ?_
  · intro p
    simp only [Finset.mem_filter, Finset.mem_univ, true_and]
    show _ ↔ gwDims.resultIdx? (ix1 p) (gwIdx m c) = some (ix4 a k s l)
    rw [gw_lands_iff, gwIdx_col0, gwIdx_col1, gwIdx_col2, gwIdx_col3, gw_fin9_eq_iff (h1 p), gw_fin9_eq_iff (h2 p), gw_fin3_eq_iff (hw p)]
    exact Iff.rfl
  · intro p _
    rfl

end Cert.KernelIdeal.Fr
end
-- ==== Proof.RPieces.lean ====
/-
  The reference's two host-side pieces, read at an index: the nine spherical harmonics of an edge's direction
  (the concatenated columns) and the cutoff-gated radial filter (the reshaped affine map of the radial row).
-/
import proofs.«408281_j76957224010212_1_alg».proof.Proof.Gen.ReferenceIdeal.Read
import proofs.«408281_j76957224010212_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Ref

open Cert.ReferenceIdeal Cert.ReferenceIdeal.Gen Cert.ReferenceIdeal.Read Idealize.ShloMosaic Idealize.ShloMosaic.ValueIdx

/-! ## The unit vector -/

/-- The squared length of edge `E`'s direction sums the three squares of row `E`: the reduction's operand index at
    summand `k` is `(E, k)`, whatever column the quotient is read at. -/
theorem idx_norm (E : Fin 12000) (j k : Fin 3) :
    idx_main_call0_v1 (idx_main_call0_v2 (idx_main_v1 (ix2 E j))) k = ix2 E k :=
  funext fun a => Fin.ext (by match a with | ⟨0, _⟩ => rfl | ⟨1, _⟩ => rfl)

/-- The quotient `d / √(0 + ∑ d·d)` at `(E, j)` is component `j` of the unit vector of row `E`. -/
theorem unit_apply (x2 : (⟨S12000x3, .f32⟩ : BufTy).Contents (Elt Ideal)) (E : Fin 12000) (j : Fin 3) :
    val_main_v2 (F := Ideal) x2 (ix2 E j) = Cert.SO3.unitv (fun j' => x2 (ix2 E j')) j := by
  rw [val_main_v2_apply, val_main_v1_apply, val_main_v0_apply, val_main_call0_v2_apply, val_main_call0_v1_apply,
    val_main_call0_cst_apply]
  simp only [val_main_call0_v0_apply, idx_norm, Ideal.hostDivf_def, Ideal.hostUnary_sqrt_def, Ideal.mulf_def,
    Ideal.ofBits_def, Ideal.ofBits_zero_f32, zero_add]
  rfl

/-! ## The three coordinates -/

/-- Slice column 0 then drop the unit axis: the element at `E` is the quotient at `(E, 0)`. -/
theorem idx_x (E : Fin 12000) : idx_main_v3 (idx_main_v4 (ix1 E)) = ix2 E 0 :=
  funext fun a => Fin.ext (by match a with | ⟨0, _⟩ => exact Nat.div_one _ | ⟨1, _⟩ => rfl)
/-- Slice column 1 then drop the unit axis: the element at `E` is the quotient at `(E, 1)`. -/
theorem idx_y (E : Fin 12000) : idx_main_v5 (idx_main_v6 (ix1 E)) = ix2 E 1 :=
  funext fun a => Fin.ext (by match a with | ⟨0, _⟩ => exact Nat.div_one _ | ⟨1, _⟩ => rfl)
/-- Slice column 2 then drop the unit axis: the element at `E` is the quotient at `(E, 2)`. -/
theorem idx_z (E : Fin 12000) : idx_main_v7 (idx_main_v8 (ix1 E)) = ix2 E 2 :=
  funext fun a => Fin.ext (by match a with | ⟨0, _⟩ => exact Nat.div_one _ | ⟨1, _⟩ => rfl)

/-- `x`: component 0 of the unit vector. -/
theorem x_apply (x2 : (⟨S12000x3, .f32⟩ : BufTy).Contents (Elt Ideal)) (E : Fin 12000) :
    val_main_v4 (F := Ideal) x2 (ix1 E) = Cert.SO3.unitv (fun j' => x2 (ix2 E j')) 0 := by
  rw [val_main_v4_apply, val_main_v3_apply, idx_x, unit_apply]
/-- `y`: component 1 of the unit vector. -/
theorem y_apply (x2 : (⟨S12000x3, .f32⟩ : BufTy).Contents (Elt Ideal)) (E : Fin 12000) :
    val_main_v6 (F := Ideal) x2 (ix1 E) = Cert.SO3.unitv (fun j' => x2 (ix2 E j')) 1 := by
  rw [val_main_v6_apply, val_main_v5_apply, idx_y, unit_apply]
/-- `z`: component 2 of the unit vector. -/
theorem z_apply (x2 : (⟨S12000x3, .f32⟩ : BufTy).Contents (Elt Ideal)) (E : Fin 12000) :
    val_main_v8 (F := Ideal) x2 (ix1 E) = Cert.SO3.unitv (fun j' => x2 (ix2 E j')) 2 := by
  rw [val_main_v8_apply, val_main_v7_apply, idx_z, unit_apply]

/-! ## The nine columns -/

/-- A column `[12000] → [12000, 1]` read at `(E, 0)` is the vector at `E` (one equation per column, the nine index
    functions being nine names of one function). -/
theorem idx_c0 (E : Fin 12000) : idx_main_v37 (ix2 E 0) = ix1 E :=
  funext fun a => Fin.ext (by match a with | ⟨0, _⟩ => rfl)
theorem idx_c1 (E : Fin 12000) : idx_main_v38 (ix2 E 0) = ix1 E := idx_c0 E
theorem idx_c2 (E : Fin 12000) : idx_main_v39 (ix2 E 0) = ix1 E := idx_c0 E
theorem idx_c3 (E : Fin 12000) : idx_main_v40 (ix2 E 0) = ix1 E := idx_c0 E
theorem idx_c4 (E : Fin 12000) : idx_main_v41 (ix2 E 0) = ix1 E := idx_c0 E
theorem idx_c5 (E : Fin 12000) : idx_main_v42 (ix2 E 0) = ix1 E := idx_c0 E
theorem idx_c6 (E : Fin 12000) : idx_main_v43 (ix2 E 0) = ix1 E := idx_c0 E
theorem idx_c7 (E : Fin 12000) : idx_main_v44 (ix2 E 0) = ix1 E := idx_c0 E
theorem idx_c8 (E : Fin 12000) : idx_main_v45 (ix2 E 0) = ix1 E := idx_c0 E

section
variable (x2 : (⟨S12000x3, .f32⟩ : BufTy).Contents (Elt Ideal)) (E : Fin 12000)
local notation "u" => Cert.SO3.unitv (fun j' => x2 (ix2 E j'))

/-- column 0: the constant one. -/
theorem col0 : val_main_v37 (F := Ideal) (ix2 E 0) = Cert.SO3.one32 := by
  rw [val_main_v37_apply, val_main_v9_apply, val_main_cst_apply]; rfl
/-- column 1: `√3 · y`. -/
theorem col1 : val_main_v38 (F := Ideal) x2 (ix2 E 0) = Cert.SO3.r3 * u 1 := by
  rw [val_main_v38_apply, idx_c1, val_main_v11_apply, val_main_v10_apply, val_main_cst_0_apply, y_apply]; rfl
/-- column 2: `√3 · z`. -/
theorem col2 : val_main_v39 (F := Ideal) x2 (ix2 E 0) = Cert.SO3.r3 * u 2 := by
  rw [val_main_v39_apply, idx_c2, val_main_v13_apply, val_main_v12_apply, val_main_cst_1_apply, z_apply]; rfl
/-- column 3: `√3 · x`. -/
theorem col3 : val_main_v40 (F := Ideal) x2 (ix2 E 0) = Cert.SO3.r3 * u 0 := by
  rw [val_main_v40_apply, idx_c3, val_main_v15_apply, val_main_v14_apply, val_main_cst_2_apply, x_apply]; rfl
/-- column 4: `(√15 · x) · y`. -/
theorem col4 : val_main_v41 (F := Ideal) x2 (ix2 E 0) = Cert.SO3.r15 * u 0 * u 1 := by
  rw [val_main_v41_apply, idx_c4, val_main_v18_apply, val_main_v17_apply, val_main_v16_apply, val_main_cst_3_apply,
    x_apply, y_apply]; rfl
/-- column 5: `(√15 · y) · z`. -/
theorem col5 : val_main_v42 (F := Ideal) x2 (ix2 E 0) = Cert.SO3.r15 * u 1 * u 2 := by
  rw [val_main_v42_apply, idx_c5, val_main_v21_apply, val_main_v20_apply, val_main_v19_apply, val_main_cst_4_apply,
    y_apply, z_apply]; rfl
/-- column 6: `(√5/2) · ((3 · z) · z − 1)`. -/
theorem col6 : val_main_v43 (F := Ideal) x2 (ix2 E 0)
    = Cert.SO3.h5 * (Cert.SO3.three32 * u 2 * u 2 - Cert.SO3.one32) := by
  rw [val_main_v43_apply, idx_c6, val_main_v28_apply, val_main_v27_apply, val_main_cst_7_apply, val_main_v26_apply,
    val_main_v24_apply, val_main_v23_apply, val_main_v22_apply, val_main_cst_5_apply, val_main_v25_apply,
    val_main_cst_6_apply, z_apply]; rfl
/-- column 7: `(√15 · x) · z`. -/
theorem col7 : val_main_v44 (F := Ideal) x2 (ix2 E 0) = Cert.SO3.r15 * u 0 * u 2 := by
  rw [val_main_v44_apply, idx_c7, val_main_v31_apply, val_main_v30_apply, val_main_v29_apply, val_main_cst_8_apply,
    x_apply, z_apply]; rfl
/-- column 8: `(√15/2) · (x · x − y · y)`. -/
theorem col8 : val_main_v45 (F := Ideal) x2 (ix2 E 0) = Cert.SO3.h15 * (u 0 * u 0 - u 1 * u 1) := by
  rw [val_main_v45_apply, idx_c8, val_main_v36_apply, val_main_v35_apply, val_main_cst_9_apply, val_main_v34_apply,
    val_main_v32_apply, val_main_v33_apply, x_apply, y_apply]; rfl
end

/-! ## The concatenation -/

/-- Nine unit-width columns joined along axis 1, read at `(E, k)`: column `k` at `(E, 0)`. -/
theorem cat9 {α : Type} (p : Fin 9 → (S12000x1.Idx → α))
    (h : Shape.Concatenates ((List.ofFn fun n : Fin 9 => (⟨S12000x1, p n⟩ : (s : Shape) × (s.Idx → α))).map (·.1)) S12000x9 1)
    (E : Fin 12000) (k : Fin 9) :
    concatenate S12000x9 1 (List.ofFn fun n : Fin 9 => (⟨S12000x1, p n⟩ : (s : Shape) × (s.Idx → α))) h (ix2 E k)
      = p k (ix2 E 0) :=
  concatenate_ofFn_unit_apply (1 : Fin S12000x9.rank) p h rfl rfl (ix2 E k) k rfl (ix2 E 0)
    (fun b => match b with | ⟨0, _⟩ => fun _ => rfl | ⟨1, _⟩ => fun hb => absurd rfl hb)

/-- **The harmonics.** Row `E`, column `k` of the concatenated table is harmonic `k` of the direction of edge `E`. -/
theorem Y_apply (x2 : (⟨S12000x3, .f32⟩ : BufTy).Contents (Elt Ideal)) (E : Fin 12000) (k : Fin 9) :
    val_main_v46 (F := Ideal) x2 (ix2 E k) = Cert.SO3.Yrow (fun j => x2 (ix2 E j)) k := by
  unfold val_main_v46
  refine (cat9 ![val_main_v37 (F := Ideal), val_main_v38 (F := Ideal) x2, val_main_v39 (F := Ideal) x2,
    val_main_v40 (F := Ideal) x2, val_main_v41 (F := Ideal) x2, val_main_v42 (F := Ideal) x2,
    val_main_v43 (F := Ideal) x2, val_main_v44 (F := Ideal) x2, val_main_v45 (F := Ideal) x2] _ E k).trans ?_
  match k with
  | ⟨0, _⟩ => exact col0 E
  | ⟨1, _⟩ => exact col1 x2 E
  | ⟨2, _⟩ => exact col2 x2 E
  | ⟨3, _⟩ => exact col3 x2 E
  | ⟨4, _⟩ => exact col4 x2 E
  | ⟨5, _⟩ => exact col5 x2 E
  | ⟨6, _⟩ => exact col6 x2 E
  | ⟨7, _⟩ => exact col7 x2 E
  | ⟨8, _⟩ => exact col8 x2 E

/-! ## The radial filter -/

/-- Splitting the 384 columns into 3 × 128: entry `(E, l, f)` of the reshaped array is entry `(E, l·128 + f)`. -/
theorem idx_w (E : Fin 12000) (l : Fin 3) (f : Fin 128) : idx_main_v53 (ix3 E l f) = ix2 E (Cert.SO3.col l f) :=
  funext fun a => Fin.ext (by
    have hl := l.isLt; have hf := f.isLt
    match a with
    | ⟨0, _⟩ => show ((E.val * 3 + l.val) * 128 + f.val) / 384 = E.val; omega
    | ⟨1, _⟩ => show ((E.val * 3 + l.val) * 128 + f.val) % 384 = l.val * 128 + f.val; omega)
/-- The contraction's left operand at summand `r`: the radial row of edge `E`. -/
theorem idx_wl (E : Fin 12000) (q : Fin 384) (r : Fin 20) : lidx_main_v47 (ix2 E q) r = ix2 E r :=
  funext fun a => Fin.ext (by match a with | ⟨0, _⟩ => rfl | ⟨1, _⟩ => rfl)
/-- The contraction's right operand at summand `r`: column `q` of the weight matrix. -/
theorem idx_wr (E : Fin 12000) (q : Fin 384) (r : Fin 20) : ridx_main_v47 (ix2 E q) r = ix2 r q :=
  funext fun a => Fin.ext (by match a with | ⟨0, _⟩ => rfl | ⟨1, _⟩ => rfl)
/-- The bias row, broadcast over edges: entry `q`. -/
theorem idx_wb (E : Fin 12000) (q : Fin 384) : idx_main_v48 (idx_main_v49 (ix2 E q)) = ix1 q :=
  funext fun a => Fin.ext (by match a with | ⟨0, _⟩ => rfl)
/-- The cutoff column, broadcast over filter columns: the cutoff of edge `E`. -/
theorem idx_wc (E : Fin 12000) (q : Fin 384) : idx_main_v51 (ix2 E q) = ix2 E 0 :=
  funext fun a => Fin.ext (by match a with | ⟨0, _⟩ => rfl | ⟨1, _⟩ => rfl)

/-- **The filter.** Entry `(E, l, f)` is `(radial · Wf[:, q] + bf q) · cutoff` at column `q = l·128 + f`. -/
theorem W_apply (x1 : (⟨S12000x20, .f32⟩ : BufTy).Contents (Elt Ideal)) (x3 : (⟨S12000x1, .f32⟩ : BufTy).Contents (Elt Ideal))
    (x4 : (⟨S20x384, .f32⟩ : BufTy).Contents (Elt Ideal)) (x5 : (⟨S384, .f32⟩ : BufTy).Contents (Elt Ideal))
    (E : Fin 12000) (l : Fin 3) (f : Fin 128) :
    val_main_v53 (F := Ideal) x1 x3 x4 x5 (ix3 E l f)
      = Cert.SO3.Wval (fun r => x1 (ix2 E r)) (fun r q => x4 (ix2 r q)) (fun q => x5 (ix1 q)) (x3 (ix2 E 0))
          (Cert.SO3.col l f) := by
  rw [val_main_v53_apply, idx_w, val_main_v52_apply, val_main_v50_apply, val_main_v47_apply, val_main_v49_apply,
    val_main_v48_apply, val_main_v51_apply, idx_wb, idx_wc]
  simp only [idx_wl, idx_wr, Ideal.addf_def, Ideal.mulf_def]
  rfl

end Cert.ReferenceIdeal.Ref

end
-- ==== Proof.RGather.lean ====
/-
  The reference's sparse Clebsch–Gordan contraction, read at one element.

  After the harmonics `Y : [12000, 9]`, the gated filter `W : [12000, 3, 128]` and the neighbour features
  `xj : [12000, 9, 128]`, the reference gathers, for each of the 137 table entries `n`, the column `Y[:, i2 n]`, the
  slab `W[:, iw n, :]` and the slab `xj[:, i1 n, :]` (each index word first wrapped the way a negative array index is: `w + n` where `w < 0`),
  multiplies them with the table value `cg n` as `((Y · cg) · W) · xj`, and scatter-adds the 137 products into a zero
  `[12000, 9, 128]` array along axis 1 at the wrapped output-component words.

  A gather clamps its start index into range, so under the hypothesis that the wrapped words for `Y`, `W` and `xj`
  are in range it reads exactly the named column. A scatter drops an update whose index is out of range, so no range is
  needed of the output-component words: entry `n` contributes to component `s` exactly when its wrapped word, read
  signed, equals `s`. Hence element `(E, s, f)` of the result is
  `0 + ∑_{n lands on s} ((Y (i2 n) · cg n) · W (iw n)) · xj (i1 n)` (`Cert.SO3.rval`), the statement `yij_apply`.
-/
import proofs.«408281_j76957224010212_1_alg».proof.Proof.Gen.ReferenceIdeal.Read
import proofs.«408281_j76957224010212_1_alg».proof.Proof.Spec
import Idealize.ShloMosaic.Lib.ValueIdx
import Idealize.ShloMosaic.Lib.Pipeline.Value
import Idealize.ShloMosaic.Lib.ValueLayout
import Idealize.ShloMosaic.Lib.StableHlo.Predicate

noncomputable section

namespace Cert.ReferenceIdeal.Ref2

open Cert.ReferenceIdeal Cert.ReferenceIdeal.Gen Cert.ReferenceIdeal.Read Idealize.ShloMosaic Idealize.ShloMosaic.ValueIdx

/-! ## A gather along axis 1 reads one column

The three gathers have the same dimension numbers: the operand's axis 1 is collapsed and is the one axis the start index
names; the other operand axes are offset axes, copied whole. So result element `(E, n[, f])` reads the operand at
`(E, c[, f])`, where `c` is the `n`-th start index read signed and clamped into the axis. Each proof goes axis by
axis: on an offset axis the start is `0` and the offset coordinate is the result's own coordinate; on axis 1 the
offset coordinate is `0` and the start is the clamped index. No axis is a batching axis. -/

/-- The harmonics' gather: `[12000, 9]` along axis 1, nine columns, clamp bound 8. -/
theorem gatherY (x : S12000x9.Idx → EReal) (idx : IVec S137x1 32) (E : Fin 12000) (n : Fin 137) :
    Host.gather gather_S12000x9_S137x1_S12000x137_0_1_n_n_1_1_120001 x idx (ix2 E n)
      = x (ix2 E ⟨min (idx (ix2 n 0)).toInt.toNat 8, by omega⟩) := by
  unfold Host.gather
  congr 1
  funext a
  refine Fin.ext ?_
  match a with
  | ⟨0, _⟩ =>
    show GatherDims.start _ _ _ _ + GatherDims.batchCoord _ _ _ + GatherDims.offCoord _ _ _ = _
    rw [GatherDims.batchCoord_eq_zero _ _ _ List.not_mem_nil]
    have hs : (⟨0, by decide⟩ : Fin S12000x9.rank) ∉ gather_S12000x9_S137x1_S12000x137_0_1_n_n_1_1_120001.startIndexMap := by decide
    have hk : (⟨0, by decide⟩ : Fin S12000x9.rank) ∈ gather_S12000x9_S137x1_S12000x137_0_1_n_n_1_1_120001.sKept := by decide
    unfold GatherDims.start GatherDims.offCoord
    rw [dif_neg hs, dif_pos hk]
    simp only [Nat.zero_add]
    rfl
  | ⟨1, _⟩ =>
    show GatherDims.start _ _ _ _ + GatherDims.batchCoord _ _ _ + GatherDims.offCoord _ _ _ = _
    rw [GatherDims.batchCoord_eq_zero _ _ _ List.not_mem_nil]
    have hs : (⟨1, by decide⟩ : Fin S12000x9.rank) ∈ gather_S12000x9_S137x1_S12000x137_0_1_n_n_1_1_120001.startIndexMap := by decide
    have hk : (⟨1, by decide⟩ : Fin S12000x9.rank) ∉ gather_S12000x9_S137x1_S12000x137_0_1_n_n_1_1_120001.sKept := by decide
    unfold GatherDims.start GatherDims.offCoord
    rw [dif_pos hs, dif_neg hk]
    simp only [Nat.add_zero]
    have hsi : gather_S12000x9_S137x1_S12000x137_0_1_n_n_1_1_120001.siIdx (ix2 E n)
        ⟨List.idxOf (⟨1, by decide⟩ : Fin S12000x9.rank) gather_S12000x9_S137x1_S12000x137_0_1_n_n_1_1_120001.startIndexMap,
          List.idxOf_lt_length_iff.2 hs⟩ = ix2 n 0 := by
      funext b; refine Fin.ext ?_
      match b with
      | ⟨0, _⟩ => rfl
      | ⟨1, _⟩ => rfl
    rw [hsi]
    rfl

/-- The filter's gather: `[12000, 3, 128]` along axis 1, three degrees, clamp bound 2. -/
theorem gatherW (x : S12000x3x128.Idx → EReal) (idx : IVec S137x1 32) (E : Fin 12000) (n : Fin 137) (f : Fin 128) :
    Host.gather gather_S12000x3x128_S137x1_S12000x137x128_02_1_n_n_1_1_120001128 x idx (ix3 E n f)
      = x (ix3 E ⟨min (idx (ix2 n 0)).toInt.toNat 2, by omega⟩ f) := by
  unfold Host.gather
  congr 1
  funext a
  refine Fin.ext ?_
  match a with
  | ⟨0, _⟩ =>
    show GatherDims.start _ _ _ _ + GatherDims.batchCoord _ _ _ + GatherDims.offCoord _ _ _ = _
    rw [GatherDims.batchCoord_eq_zero _ _ _ List.not_mem_nil]
    have hs : (⟨0, by decide⟩ : Fin S12000x3x128.rank) ∉ gather_S12000x3x128_S137x1_S12000x137x128_02_1_n_n_1_1_120001128.startIndexMap := by decide
    have hk : (⟨0, by decide⟩ : Fin S12000x3x128.rank) ∈ gather_S12000x3x128_S137x1_S12000x137x128_02_1_n_n_1_1_120001128.sKept := by decide
    unfold GatherDims.start GatherDims.offCoord
    rw [dif_neg hs, dif_pos hk]
    simp only [Nat.zero_add]
    rfl
  | ⟨1, _⟩ =>
    show GatherDims.start _ _ _ _ + GatherDims.batchCoord _ _ _ + GatherDims.offCoord _ _ _ = _
    rw [GatherDims.batchCoord_eq_zero _ _ _ List.not_mem_nil]
    have hs : (⟨1, by decide⟩ : Fin S12000x3x128.rank) ∈ gather_S12000x3x128_S137x1_S12000x137x128_02_1_n_n_1_1_120001128.startIndexMap := by decide
    have hk : (⟨1, by decide⟩ : Fin S12000x3x128.rank) ∉ gather_S12000x3x128_S137x1_S12000x137x128_02_1_n_n_1_1_120001128.sKept := by decide
    unfold GatherDims.start GatherDims.offCoord
    rw [dif_pos hs, dif_neg hk]
    simp only [Nat.add_zero]
    have hsi : gather_S12000x3x128_S137x1_S12000x137x128_02_1_n_n_1_1_120001128.siIdx (ix3 E n f)
        ⟨List.idxOf (⟨1, by decide⟩ : Fin S12000x3x128.rank) gather_S12000x3x128_S137x1_S12000x137x128_02_1_n_n_1_1_120001128.startIndexMap,
          List.idxOf_lt_length_iff.2 hs⟩ = ix2 n 0 := by
      funext b; refine Fin.ext ?_
      match b with
      | ⟨0, _⟩ => rfl
      | ⟨1, _⟩ => rfl
    rw [hsi]
    rfl
  | ⟨2, _⟩ =>
    show GatherDims.start _ _ _ _ + GatherDims.batchCoord _ _ _ + GatherDims.offCoord _ _ _ = _
    rw [GatherDims.batchCoord_eq_zero _ _ _ List.not_mem_nil]
    have hs : (⟨2, by decide⟩ : Fin S12000x3x128.rank) ∉ gather_S12000x3x128_S137x1_S12000x137x128_02_1_n_n_1_1_120001128.startIndexMap := by decide
    have hk : (⟨2, by decide⟩ : Fin S12000x3x128.rank) ∈ gather_S12000x3x128_S137x1_S12000x137x128_02_1_n_n_1_1_120001128.sKept := by decide
    unfold GatherDims.start GatherDims.offCoord
    rw [dif_neg hs, dif_pos hk]
    simp only [Nat.zero_add]
    rfl

/-- The neighbour features' gather: `[12000, 9, 128]` along axis 1, nine components, clamp bound 8. -/
theorem gatherX (x : S12000x9x128.Idx → EReal) (idx : IVec S137x1 32) (E : Fin 12000) (n : Fin 137) (f : Fin 128) :
    Host.gather gather_S12000x9x128_S137x1_S12000x137x128_02_1_n_n_1_1_120001128 x idx (ix3 E n f)
      = x (ix3 E ⟨min (idx (ix2 n 0)).toInt.toNat 8, by omega⟩ f) := by
  unfold Host.gather
  congr 1
  funext a
  refine Fin.ext ?_
  match a with
  | ⟨0, _⟩ =>
    show GatherDims.start _ _ _ _ + GatherDims.batchCoord _ _ _ + GatherDims.offCoord _ _ _ = _
    rw [GatherDims.batchCoord_eq_zero _ _ _ List.not_mem_nil]
    have hs : (⟨0, by decide⟩ : Fin S12000x9x128.rank) ∉ gather_S12000x9x128_S137x1_S12000x137x128_02_1_n_n_1_1_120001128.startIndexMap := by decide
    have hk : (⟨0, by decide⟩ : Fin S12000x9x128.rank) ∈ gather_S12000x9x128_S137x1_S12000x137x128_02_1_n_n_1_1_120001128.sKept := by decide
    unfold GatherDims.start GatherDims.offCoord
    rw [dif_neg hs, dif_pos hk]
    simp only [Nat.zero_add]
    rfl
  | ⟨1, _⟩ =>
    show GatherDims.start _ _ _ _ + GatherDims.batchCoord _ _ _ + GatherDims.offCoord _ _ _ = _
    rw [GatherDims.batchCoord_eq_zero _ _ _ List.not_mem_nil]
    have hs : (⟨1, by decide⟩ : Fin S12000x9x128.rank) ∈ gather_S12000x9x128_S137x1_S12000x137x128_02_1_n_n_1_1_120001128.startIndexMap := by decide
    have hk : (⟨1, by decide⟩ : Fin S12000x9x128.rank) ∉ gather_S12000x9x128_S137x1_S12000x137x128_02_1_n_n_1_1_120001128.sKept := by decide
    unfold GatherDims.start GatherDims.offCoord
    rw [dif_pos hs, dif_neg hk]
    simp only [Nat.add_zero]
    have hsi : gather_S12000x9x128_S137x1_S12000x137x128_02_1_n_n_1_1_120001128.siIdx (ix3 E n f)
        ⟨List.idxOf (⟨1, by decide⟩ : Fin S12000x9x128.rank) gather_S12000x9x128_S137x1_S12000x137x128_02_1_n_n_1_1_120001128.startIndexMap,
          List.idxOf_lt_length_iff.2 hs⟩ = ix2 n 0 := by
      funext b; refine Fin.ext ?_
      match b with
      | ⟨0, _⟩ => rfl
      | ⟨1, _⟩ => rfl
    rw [hsi]
    rfl
  | ⟨2, _⟩ =>
    show GatherDims.start _ _ _ _ + GatherDims.batchCoord _ _ _ + GatherDims.offCoord _ _ _ = _
    rw [GatherDims.batchCoord_eq_zero _ _ _ List.not_mem_nil]
    have hs : (⟨2, by decide⟩ : Fin S12000x9x128.rank) ∉ gather_S12000x9x128_S137x1_S12000x137x128_02_1_n_n_1_1_120001128.startIndexMap := by decide
    have hk : (⟨2, by decide⟩ : Fin S12000x9x128.rank) ∈ gather_S12000x9x128_S137x1_S12000x137x128_02_1_n_n_1_1_120001128.sKept := by decide
    unfold GatherDims.start GatherDims.offCoord
    rw [dif_neg hs, dif_pos hk]
    simp only [Nat.zero_add]
    rfl

/-! ## The wrapped index words

Each index input is wrapped — `w + n` where `w < 0` (signed), else `w` — and laid out as a
`[137, 1]` column; entry `(n, 0)` of the column is the wrap of the `n`-th word. -/

theorem wrap10 (x10 : S137.Idx → BitVec 32) (n : Fin 137) :
    val_main_v66 (F := Ideal) x10 (ix2 n 0) = Cert.SO3.wrapW 9#32 (x10 (ix1 n)) := by
  have hi : idx_main_v66 (ix2 n (0 : Fin 1)) = ix1 n := by
    funext a; match a with | ⟨0, _⟩ => rfl
  rw [val_main_v66_apply, hi, val_main_v65_apply, val_main_v62_apply, val_main_v64_apply, val_main_v61_apply,
    val_main_v63_apply, val_main_c_11_apply, val_main_c_12_apply]
  rfl

theorem wrap12 (x12 : S137.Idx → BitVec 32) (n : Fin 137) :
    val_main_v77 (F := Ideal) x12 (ix2 n 0) = Cert.SO3.wrapW 3#32 (x12 (ix1 n)) := by
  have hi : idx_main_v77 (ix2 n (0 : Fin 1)) = ix1 n := by
    funext a; match a with | ⟨0, _⟩ => rfl
  rw [val_main_v77_apply, hi, val_main_v76_apply, val_main_v73_apply, val_main_v75_apply, val_main_v72_apply,
    val_main_v74_apply, val_main_c_13_apply, val_main_c_14_apply]
  rfl

theorem wrap9 (x9 : S137.Idx → BitVec 32) (n : Fin 137) :
    val_main_v86 (F := Ideal) x9 (ix2 n 0) = Cert.SO3.wrapW 9#32 (x9 (ix1 n)) := by
  have hi : idx_main_v86 (ix2 n (0 : Fin 1)) = ix1 n := by
    funext a; match a with | ⟨0, _⟩ => rfl
  rw [val_main_v86_apply, hi, val_main_v85_apply, val_main_v82_apply, val_main_v84_apply, val_main_v81_apply,
    val_main_v83_apply, val_main_c_15_apply, val_main_c_16_apply]
  rfl

theorem wrap11 (x11 : S137.Idx → BitVec 32) (n : Fin 137) :
    val_main_v95 (F := Ideal) x11 (ix2 n 0) = Cert.SO3.wrapW 9#32 (x11 (ix1 n)) := by
  have hi : idx_main_v95 (ix2 n (0 : Fin 1)) = ix1 n := by
    funext a; match a with | ⟨0, _⟩ => rfl
  rw [val_main_v95_apply, hi, val_main_v94_apply, val_main_v91_apply, val_main_v93_apply, val_main_v90_apply,
    val_main_v92_apply, val_main_c_18_apply, val_main_c_19_apply]
  rfl

/-! ## The clamp is the identity on a word in range

A word `w` with `0 ≤ w < n` read signed is its unsigned value, which is below `n`: clamping it into `[0, n − 1]`
changes nothing, and it is its own residue mod `n`. -/

theorem clamp9 (w : BitVec 32) (h : Cert.SO3.InRange 9 w) : min w.toInt.toNat 8 = w.toNat % 9 := by
  obtain ⟨h0, h1⟩ := h
  have hc := BitVec.toInt_eq_toNat_cond w
  have hlt := w.isLt
  split at hc <;> omega
theorem clamp3 (w : BitVec 32) (h : Cert.SO3.InRange 3 w) : min w.toInt.toNat 2 = w.toNat % 3 := by
  obtain ⟨h0, h1⟩ := h
  have hc := BitVec.toInt_eq_toNat_cond w
  have hlt := w.isLt
  split at hc <;> omega

/-! ## One update element

Update element `(E, n, f)` is the product, associated `((Y · cg) · W) · xj`, of the harmonic at the column the
`n`-th second-component word names, the `n`-th table value, the filter at the degree the `n`-th degree word names
and the neighbour feature at the component the `n`-th first-component word names. The broadcasts between the
products only re-index: `(E, n, f) ↦ (E, n, 0) ↦ (E, n)` for the harmonics and `↦ (0, n, 0) ↦ n` for the values. -/

theorem v88_at (x0 : (⟨S1200x9x128, .f32⟩ : BufTy).Contents (Elt Ideal)) (x1 : (⟨S12000x20, .f32⟩ : BufTy).Contents (Elt Ideal)) (x2 : (⟨S12000x3, .f32⟩ : BufTy).Contents (Elt Ideal)) (x3 : (⟨S12000x1, .f32⟩ : BufTy).Contents (Elt Ideal)) (x4 : (⟨S20x384, .f32⟩ : BufTy).Contents (Elt Ideal)) (x5 : (⟨S384, .f32⟩ : BufTy).Contents (Elt Ideal)) (x6 : (⟨S137, .f32⟩ : BufTy).Contents (Elt Ideal)) (x8 : (⟨S12000, .i32⟩ : BufTy).Contents (Elt Ideal)) (x9 x10 x12 : (⟨S137, .i32⟩ : BufTy).Contents (Elt Ideal))
    (h1 : ∀ n : Fin 137, Cert.SO3.InRange 9 (Cert.SO3.wrapW 9#32 (x9 (ix1 n))))
    (h2 : ∀ n : Fin 137, Cert.SO3.InRange 9 (Cert.SO3.wrapW 9#32 (x10 (ix1 n))))
    (hw : ∀ n : Fin 137, Cert.SO3.InRange 3 (Cert.SO3.wrapW 3#32 (x12 (ix1 n))))
    (E : Fin 12000) (n : Fin 137) (f : Fin 128) :
    val_main_v88 (F := Ideal) x0 x1 x2 x3 x4 x5 x6 x8 x9 x10 x12 (ix3 E n f)
      = ((val_main_v46 (F := Ideal) x2 (ix2 E (Cert.SO3.fin9 (Cert.SO3.wrapW 9#32 (x10 (ix1 n))))) * x6 (ix1 n))
          * val_main_v53 (F := Ideal) x1 x3 x4 x5 (ix3 E (Cert.SO3.fin3 (Cert.SO3.wrapW 3#32 (x12 (ix1 n)))) f))
        * val_main_v60 (F := Ideal) x0 x8 (ix3 E (Cert.SO3.fin9 (Cert.SO3.wrapW 9#32 (x9 (ix1 n)))) f) := by
  have i79 : idx_main_v79 (ix3 E n f) = ix3 E n (0 : Fin 1) := by
    funext a; match a with | ⟨0, _⟩ => rfl | ⟨1, _⟩ => rfl | ⟨2, _⟩ => rfl
  have i68 : idx_main_v68 (ix3 E n (0 : Fin 1)) = ix2 E n := by
    funext a; match a with | ⟨0, _⟩ => rfl | ⟨1, _⟩ => rfl
  have i70 : idx_main_v69 (idx_main_v70 (ix3 E n (0 : Fin 1))) = ix1 n := by
    funext a; match a with | ⟨0, _⟩ => rfl
  rw [val_main_v88_apply, val_main_v80_apply, val_main_v79_apply, i79, val_main_v71_apply, val_main_v68_apply,
    val_main_v70_apply, val_main_v69_apply, i68, i70]
  unfold val_main_v67 val_main_v78 val_main_v87
  rw [gatherY, gatherW, gatherX]
  have k10 : (⟨min (val_main_v66 (F := Ideal) x10 (ix2 n 0)).toInt.toNat 8, by omega⟩ : Fin 9)
      = Cert.SO3.fin9 (Cert.SO3.wrapW 9#32 (x10 (ix1 n))) :=
    Fin.ext (by show min _ 8 = _; rw [wrap10]; exact clamp9 _ (h2 n))
  have k12 : (⟨min (val_main_v77 (F := Ideal) x12 (ix2 n 0)).toInt.toNat 2, by omega⟩ : Fin 3)
      = Cert.SO3.fin3 (Cert.SO3.wrapW 3#32 (x12 (ix1 n))) :=
    Fin.ext (by show min _ 2 = _; rw [wrap12]; exact clamp3 _ (hw n))
  have k9 : (⟨min (val_main_v86 (F := Ideal) x9 (ix2 n 0)).toInt.toNat 8, by omega⟩ : Fin 9)
      = Cert.SO3.fin9 (Cert.SO3.wrapW 9#32 (x9 (ix1 n))) :=
    Fin.ext (by show min _ 8 = _; rw [wrap9]; exact clamp9 _ (h1 n))
  rw [k10, k12, k9]
  rfl

/-! ## Where an update lands

The scatter's update window axes are 0 and 2, axis 1 of the operand is inserted and is the one axis the scatter index
names. So update `(E', n, f')` goes to `(E', w, f')`, `w` the `n`-th index word read signed and NOT clamped; it
is dropped when `w` is outside `[0, 9)`. Start and window coordinate, axis by axis: -/

theorem sc_start0 (idx : IVec S137x1 32) (E' : Fin 12000) (n : Fin 137) (f' : Fin 128) :
    scatter_S12000x9x128_S137x1_S12000x137x128_02_1_1_1.start (ix3 E' n f') idx ⟨0, by decide⟩ = 0 := by
  unfold ScatterDims.start
  rw [dif_neg (by decide)]
theorem sc_start2 (idx : IVec S137x1 32) (E' : Fin 12000) (n : Fin 137) (f' : Fin 128) :
    scatter_S12000x9x128_S137x1_S12000x137x128_02_1_1_1.start (ix3 E' n f') idx ⟨2, by decide⟩ = 0 := by
  unfold ScatterDims.start
  rw [dif_neg (by decide)]
theorem sc_start1 (idx : IVec S137x1 32) (E' : Fin 12000) (n : Fin 137) (f' : Fin 128) :
    scatter_S12000x9x128_S137x1_S12000x137x128_02_1_1_1.start (ix3 E' n f') idx ⟨1, by decide⟩ = (idx (ix2 n 0)).toInt := by
  have hs : (⟨1, by decide⟩ : Fin S12000x9x128.rank) ∈ scatter_S12000x9x128_S137x1_S12000x137x128_02_1_1_1.scatterDimsToOperandDims := by decide
  unfold ScatterDims.start
  rw [dif_pos hs]
  have hsi : scatter_S12000x9x128_S137x1_S12000x137x128_02_1_1_1.siIdx (ix3 E' n f')
      ⟨List.idxOf (⟨1, by decide⟩ : Fin S12000x9x128.rank) scatter_S12000x9x128_S137x1_S12000x137x128_02_1_1_1.scatterDimsToOperandDims,
        List.idxOf_lt_length_iff.2 hs⟩ = ix2 n 0 := by
    funext b; refine Fin.ext ?_
    match b with
    | ⟨0, _⟩ => rfl
    | ⟨1, _⟩ => rfl
  rw [hsi]
theorem sc_win0 (E' : Fin 12000) (n : Fin 137) (f' : Fin 128) :
    scatter_S12000x9x128_S137x1_S12000x137x128_02_1_1_1.window (ix3 E' n f') ⟨0, by decide⟩ = E'.val := by
  have hk : (⟨0, by decide⟩ : Fin S12000x9x128.rank) ∈ scatter_S12000x9x128_S137x1_S12000x137x128_02_1_1_1.sKept := by decide
  unfold ScatterDims.window
  rw [dif_pos hk]
  rfl
theorem sc_win1 (E' : Fin 12000) (n : Fin 137) (f' : Fin 128) :
    scatter_S12000x9x128_S137x1_S12000x137x128_02_1_1_1.window (ix3 E' n f') ⟨1, by decide⟩ = 0 := by
  unfold ScatterDims.window
  rw [dif_neg (by decide)]
theorem sc_win2 (E' : Fin 12000) (n : Fin 137) (f' : Fin 128) :
    scatter_S12000x9x128_S137x1_S12000x137x128_02_1_1_1.window (ix3 E' n f') ⟨2, by decide⟩ = f'.val := by
  have hk : (⟨2, by decide⟩ : Fin S12000x9x128.rank) ∈ scatter_S12000x9x128_S137x1_S12000x137x128_02_1_1_1.sKept := by decide
  unfold ScatterDims.window
  rw [dif_pos hk]
  rfl

/-- Update `(E', n, f')` lands on `(E, s, f)` exactly when `E' = E`, `f' = f` and the `n`-th index word,
    read signed, is `s`. (Forwards: the landing index exists, so every axis is in range, and its coordinates are
    the three sums. Backwards: with those equalities every sum is in range and the landing index is `(E, s, f)`.) -/
theorem sc_lands (idx : IVec S137x1 32) (E' E : Fin 12000) (n : Fin 137) (f' f : Fin 128) (s : Fin 9) :
    scatter_S12000x9x128_S137x1_S12000x137x128_02_1_1_1.resultIdx? (ix3 E' n f') idx = some (ix3 E s f)
      ↔ E' = E ∧ f' = f ∧ (idx (ix2 n 0)).toInt = (s.val : Int) := by
  have e0 := sc_start0 idx E' n f'
  have e1 := sc_start1 idx E' n f'
  have e2 := sc_start2 idx E' n f'
  have w0 := sc_win0 E' n f'
  have w1 := sc_win1 E' n f'
  have w2 := sc_win2 E' n f'
  unfold ScatterDims.resultIdx?
  constructor
  · intro h
    split at h
    · rename_i hall
      have hfun := Option.some.inj h
      have c0 : (scatter_S12000x9x128_S137x1_S12000x137x128_02_1_1_1.start (ix3 E' n f') idx ⟨0, by decide⟩
          + (scatter_S12000x9x128_S137x1_S12000x137x128_02_1_1_1.window (ix3 E' n f') ⟨0, by decide⟩ : Int)).toNat = E.val :=
        congrArg Fin.val (congrFun hfun ⟨0, by decide⟩)
      have c1 : (scatter_S12000x9x128_S137x1_S12000x137x128_02_1_1_1.start (ix3 E' n f') idx ⟨1, by decide⟩
          + (scatter_S12000x9x128_S137x1_S12000x137x128_02_1_1_1.window (ix3 E' n f') ⟨1, by decide⟩ : Int)).toNat = s.val :=
        congrArg Fin.val (congrFun hfun ⟨1, by decide⟩)
      have c2 : (scatter_S12000x9x128_S137x1_S12000x137x128_02_1_1_1.start (ix3 E' n f') idx ⟨2, by decide⟩
          + (scatter_S12000x9x128_S137x1_S12000x137x128_02_1_1_1.window (ix3 E' n f') ⟨2, by decide⟩ : Int)).toNat = f.val :=
        congrArg Fin.val (congrFun hfun ⟨2, by decide⟩)
      have b1 := (hall ⟨1, by decide⟩).1
      rw [e0, w0] at c0
      rw [e1, w1] at c1 b1
      rw [e2, w2] at c2
      exact ⟨Fin.ext (by omega), Fin.ext (by omega), by omega⟩
    · exact absurd h (by simp)
  · rintro ⟨rfl, rfl, hw⟩
    have hall : ∀ a : Fin S12000x9x128.rank,
        0 ≤ scatter_S12000x9x128_S137x1_S12000x137x128_02_1_1_1.start (ix3 E' n f') idx a + (scatter_S12000x9x128_S137x1_S12000x137x128_02_1_1_1.window (ix3 E' n f') a : Int)
          ∧ scatter_S12000x9x128_S137x1_S12000x137x128_02_1_1_1.start (ix3 E' n f') idx a + (scatter_S12000x9x128_S137x1_S12000x137x128_02_1_1_1.window (ix3 E' n f') a : Int) < (S12000x9x128.size a : Int) := by
      intro a
      match a with
      | ⟨0, _⟩ =>
        rw [e0, w0]
        exact ⟨by omega, by show (0 : Int) + (E'.val : Int) < ((12000 : Nat) : Int); omega⟩
      | ⟨1, _⟩ =>
        rw [e1, w1, hw]
        exact ⟨by omega, by show (s.val : Int) + ((0 : Nat) : Int) < ((9 : Nat) : Int); omega⟩
      | ⟨2, _⟩ =>
        rw [e2, w2]
        exact ⟨by omega, by show (0 : Int) + (f'.val : Int) < ((128 : Nat) : Int); omega⟩
    rw [dif_pos hall]
    congr 1
    funext a
    refine Fin.ext ?_
    match a with
    | ⟨0, _⟩ =>
      show (scatter_S12000x9x128_S137x1_S12000x137x128_02_1_1_1.start (ix3 E' n f') idx ⟨0, by decide⟩ + (scatter_S12000x9x128_S137x1_S12000x137x128_02_1_1_1.window (ix3 E' n f') ⟨0, by decide⟩ : Int)).toNat = E'.val
      rw [e0, w0]; omega
    | ⟨1, _⟩ =>
      show (scatter_S12000x9x128_S137x1_S12000x137x128_02_1_1_1.start (ix3 E' n f') idx ⟨1, by decide⟩ + (scatter_S12000x9x128_S137x1_S12000x137x128_02_1_1_1.window (ix3 E' n f') ⟨1, by decide⟩ : Int)).toNat = s.val
      rw [e1, w1, hw]; omega
    | ⟨2, _⟩ =>
      show (scatter_S12000x9x128_S137x1_S12000x137x128_02_1_1_1.start (ix3 E' n f') idx ⟨2, by decide⟩ + (scatter_S12000x9x128_S137x1_S12000x137x128_02_1_1_1.window (ix3 E' n f') ⟨2, by decide⟩ : Int)).toNat = f'.val
      rw [e2, w2]; omega

/-! ## The scatter-add at one element

Element `(E, s, f)` of the result is the zero it starts from plus the sum of the updates that land on it. By the
landing criterion those are the updates `(E, n, f)` over the table entries `n` whose wrapped output-component word
names `s`: the sum over update indices is re-indexed by `n` (the update's coordinate on axis 1, with inverse
`n ↦ (E, n, f)`), and each term is the product read off above. -/

theorem yij_apply (x0 : (⟨S1200x9x128, .f32⟩ : BufTy).Contents (Elt Ideal)) (x1 : (⟨S12000x20, .f32⟩ : BufTy).Contents (Elt Ideal)) (x2 : (⟨S12000x3, .f32⟩ : BufTy).Contents (Elt Ideal)) (x3 : (⟨S12000x1, .f32⟩ : BufTy).Contents (Elt Ideal)) (x4 : (⟨S20x384, .f32⟩ : BufTy).Contents (Elt Ideal)) (x5 : (⟨S384, .f32⟩ : BufTy).Contents (Elt Ideal)) (x6 : (⟨S137, .f32⟩ : BufTy).Contents (Elt Ideal)) (x8 : (⟨S12000, .i32⟩ : BufTy).Contents (Elt Ideal)) (x9 x10 x11 x12 : (⟨S137, .i32⟩ : BufTy).Contents (Elt Ideal))
    (h1 : ∀ n : Fin 137, Cert.SO3.InRange 9 (Cert.SO3.wrapW 9#32 (x9 (ix1 n))))
    (h2 : ∀ n : Fin 137, Cert.SO3.InRange 9 (Cert.SO3.wrapW 9#32 (x10 (ix1 n))))
    (hw : ∀ n : Fin 137, Cert.SO3.InRange 3 (Cert.SO3.wrapW 3#32 (x12 (ix1 n))))
    (E : Fin 12000) (s : Fin 9) (f : Fin 128) :
    val_main_v96 (F := Ideal) x0 x1 x2 x3 x4 x5 x6 x8 x9 x10 x11 x12 (ix3 E s f)
      = Cert.SO3.rval (fun k => val_main_v46 (F := Ideal) x2 (ix2 E k))
          (fun l => val_main_v53 (F := Ideal) x1 x3 x4 x5 (ix3 E l f))
          (fun a => val_main_v60 (F := Ideal) x0 x8 (ix3 E a f)) (fun n => x6 (ix1 n))
          (fun n => Cert.SO3.fin9 (Cert.SO3.wrapW 9#32 (x9 (ix1 n))))
          (fun n => Cert.SO3.fin9 (Cert.SO3.wrapW 9#32 (x10 (ix1 n))))
          (fun n => Cert.SO3.fin3 (Cert.SO3.wrapW 3#32 (x12 (ix1 n))))
          (fun n => Cert.SO3.Lands (Cert.SO3.wrapW 9#32 (x11 (ix1 n))) s) := by
  have key : ∀ j : S12000x137x128.Idx,
      scatter_S12000x9x128_S137x1_S12000x137x128_02_1_1_1.resultIdx? j (val_main_v95 (F := Ideal) x11) = some (ix3 E s f)
        ↔ j 0 = E ∧ j 2 = f ∧ Cert.SO3.Lands (Cert.SO3.wrapW 9#32 (x11 (ix1 (j 1)))) s := by
    intro j
    have h := sc_lands (val_main_v95 (F := Ideal) x11) (j 0) E (j 1) (j 2) f s
    have hj : scatter_S12000x9x128_S137x1_S12000x137x128_02_1_1_1.resultIdx? j (val_main_v95 (F := Ideal) x11)
        = scatter_S12000x9x128_S137x1_S12000x137x128_02_1_1_1.resultIdx? (ix3 (j 0) (j 1) (j 2)) (val_main_v95 (F := Ideal) x11) :=
      congrArg (fun q => scatter_S12000x9x128_S137x1_S12000x137x128_02_1_1_1.resultIdx? q (val_main_v95 (F := Ideal) x11)) (eq_ix3 j)
    have hwr : (val_main_v95 (F := Ideal) x11 (ix2 (j 1) 0)).toInt
        = (Cert.SO3.wrapW 9#32 (x11 (ix1 (j 1)))).toInt := congrArg BitVec.toInt (wrap11 x11 (j 1))
    rw [hj]
    constructor
    · intro hh
      obtain ⟨a, b, c⟩ := h.1 hh
      exact ⟨a, b, hwr.symm.trans c⟩
    · rintro ⟨a, b, c⟩
      exact h.2 ⟨a, b, hwr.trans c⟩
  have hz : val_main_v89 (F := Ideal) (ix3 E s f) = Cert.SO3.zero32 := by
    rw [val_main_v89_apply, val_main_cst_17_apply]
    rfl
  unfold Cert.SO3.rval val_main_v96 Host.scatterAdd
  rw [Ideal.hostScatterAdd_def]
  unfold Ideal.hostScatterAdd
  show _ + _ = _ + _
  rw [hz]
  congr 1
  refine Finset.sum_bij' (fun j _ => j 1) (fun n _ => ix3 E n f) ?_ ?_ ?_ ?_ ?_
  · intro j hj
    exact Finset.mem_filter.2 ⟨Finset.mem_univ _, ((key j).1 (Finset.mem_filter.1 hj).2).2.2⟩
  · intro n hn
    exact Finset.mem_filter.2 ⟨Finset.mem_univ _, (key _).2 ⟨rfl, rfl, (Finset.mem_filter.1 hn).2⟩⟩
  · intro j hj
    obtain ⟨h0, h2', _⟩ := (key j).1 (Finset.mem_filter.1 hj).2
    show ix3 E (j 1) f = j
    rw [← h0, ← h2']
    exact (eq_ix3 j).symm
  · intro n hn
    rfl
  · intro j hj
    obtain ⟨h0, h2', _⟩ := (key j).1 (Finset.mem_filter.1 hj).2
    have hj' : j = ix3 E (j 1) f := by
      rw [← h0, ← h2']
      exact eq_ix3 j
    exact (congrArg (val_main_v88 (F := Ideal) x0 x1 x2 x3 x4 x5 x6 x8 x9 x10 x12) hj').trans
      (v88_at x0 x1 x2 x3 x4 x5 x6 x8 x9 x10 x12 h1 h2 hw E (j 1) f)

end Cert.ReferenceIdeal.Ref2

end
-- ==== Proof.Algebra.lean ====
/-
  The algebra the two programs share, proved once over Spec.lean's definitions.

  * `kval_dense_eq_rval`: on finite factors the densified contraction equals the sparse sum. The coercion from the
    reals is pushed out of every product and sum, and the identity is proved over the reals: write the three
    degree terms as a sum over the degree, distribute, exchange the finite sums so that the sparse entry is outermost,
    and collapse the sum over (degree, input component, harmonic) of the indicator of the entry's own triple.
  * `Yrow_real`, `Wval_real`: the harmonics of a direction of positive squared length, and the gated filter of finite
    data, are finite.
  * the wrapped index words: a word in `[-n, n)` wraps into `[0, n)`, and an in-range word names the component
    whose number is its signed value.
-/
import proofs.«408281_j76957224010212_1_alg».proof.Proof.Spec
import Mathlib.Data.EReal.Basic
import Mathlib.Data.EReal.Operations
import Mathlib.Data.EReal.Inv
import Mathlib.Algebra.BigOperators.Ring.Finset
import Mathlib.Algebra.BigOperators.Fin
import Mathlib.Analysis.Real.Sqrt

noncomputable section

namespace Cert.SO3

open Idealize.ShloMosaic

/-! Auxiliary lemmas live in `Cert.SO3.Alg`; the theorems the certificate uses follow, in `Cert.SO3`. -/

namespace Alg

/-! ## Finite extended reals -/

/-- The zero word denotes the real zero. -/
theorem zero32_eq : zero32 = ((0 : ℝ) : EReal) := by
  simp [zero32, Ideal.ofBits, Ideal.ieee]

/-- The coercion of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The law over the reals -/

/-- The indicator of one triple sums to the value at that triple. -/
theorem collapse (F : Fin 3 → Fin 9 → Fin 9 → ℝ) (l0 : Fin 3) (a0 k0 : Fin 9) (p : Prop) [Decidable p] :
    (∑ l : Fin 3, ∑ a : Fin 9, ∑ k : Fin 9, if a0 = a ∧ k0 = k ∧ p ∧ l0 = l then F l a k else 0)
      = if p then F l0 a0 k0 else 0 := by
  rw [Fintype.sum_eq_single l0, Fintype.sum_eq_single a0, Fintype.sum_eq_single k0]
  · by_cases hp : p <;> simp [hp]
  · intro k hk
    exact if_neg (fun h => hk h.2.1.symm)
  · intro a ha
    exact Finset.sum_eq_zero (fun k _ => if_neg (fun h => ha h.1.symm))
  · intro l hl
    exact Finset.sum_eq_zero (fun a _ => Finset.sum_eq_zero (fun k _ => if_neg (fun h => hl h.2.2.2.symm)))

/-- The densified contraction equals the sparse sum, over the reals. -/
theorem real_law (Y : Fin 9 → ℝ) (W : Fin 3 → ℝ) (x : Fin 9 → ℝ) (cg : Fin 137 → ℝ)
    (i1 i2 : Fin 137 → Fin 9) (iw : Fin 137 → Fin 3) (hit : Fin 137 → Prop) [DecidablePred hit] :
    ((0 + W 0 * ∑ a : Fin 9, (∑ k : Fin 9, Y k *
          (0 + ∑ n ∈ Finset.univ.filter (fun n => i1 n = a ∧ i2 n = k ∧ hit n ∧ iw n = 0), cg n)) * x a)
        + W 1 * ∑ a : Fin 9, (∑ k : Fin 9, Y k *
          (0 + ∑ n ∈ Finset.univ.filter (fun n => i1 n = a ∧ i2 n = k ∧ hit n ∧ iw n = 1), cg n)) * x a)
      + W 2 * ∑ a : Fin 9, (∑ k : Fin 9, Y k *
          (0 + ∑ n ∈ Finset.univ.filter (fun n => i1 n = a ∧ i2 n = k ∧ hit n ∧ iw n = 2), cg n)) * x a
      = 0 + ∑ n ∈ Finset.univ.filter hit, ((Y (i2 n) * cg n) * W (iw n)) * x (i1 n) := by
  -- the three degree terms are the sum over the degree
  have h3 : ∀ S : Fin 3 → ℝ, ((0 + S 0) + S 1) + S 2 = ∑ l : Fin 3, S l := by
    intro S; rw [Fin.sum_univ_three, zero_add]
  rw [h3 (fun l => W l * ∑ a : Fin 9, (∑ k : Fin 9, Y k *
          (0 + ∑ n ∈ Finset.univ.filter (fun n => i1 n = a ∧ i2 n = k ∧ hit n ∧ iw n = l), cg n)) * x a)]
  -- distribute: every term is one product under the indicator of the entry's triple
  have hL : (∑ l : Fin 3, W l * ∑ a : Fin 9, (∑ k : Fin 9, Y k *
          (0 + ∑ n ∈ Finset.univ.filter (fun n => i1 n = a ∧ i2 n = k ∧ hit n ∧ iw n = l), cg n)) * x a)
      = ∑ l : Fin 3, ∑ a : Fin 9, ∑ k : Fin 9, ∑ n : Fin 137,
          if i1 n = a ∧ i2 n = k ∧ hit n ∧ iw n = l then ((Y k * cg n) * W l) * x a else 0 := by
    refine Finset.sum_congr rfl (fun l _ => ?_)
    rw [Finset.mul_sum]
    refine Finset.sum_congr rfl (fun a _ => ?_)
    rw [Finset.sum_mul, Finset.mul_sum]
    refine Finset.sum_congr rfl (fun k _ => ?_)
    rw [zero_add, Finset.sum_filter, Finset.mul_sum, Finset.sum_mul, Finset.mul_sum]
    refine Finset.sum_congr rfl (fun n _ => ?_)
    split_ifs <;> ring
  -- the sparse sum, entry by entry, is the collapsed triple sum
  have hR : (∑ n ∈ Finset.univ.filter hit, ((Y (i2 n) * cg n) * W (iw n)) * x (i1 n))
      = ∑ n : Fin 137, ∑ l : Fin 3, ∑ a : Fin 9, ∑ k : Fin 9,
          if i1 n = a ∧ i2 n = k ∧ hit n ∧ iw n = l then ((Y k * cg n) * W l) * x a else 0 := by
    rw [Finset.sum_filter]
    refine Finset.sum_congr rfl (fun n _ => ?_)
    rw [collapse (fun l a k => ((Y k * cg n) * W l) * x a) (iw n) (i1 n) (i2 n) (hit n)]
  rw [hL, hR, zero_add]
  -- exchange the sums: the entry moves from innermost to outermost
  symm
  rw [Finset.sum_comm]
  refine Finset.sum_congr rfl (fun l _ => ?_)
  rw [Finset.sum_comm]
  refine Finset.sum_congr rfl (fun a _ => ?_)
  rw [Finset.sum_comm]

/-! ## Finiteness of the pieces -/

/-- A finite sum of finite extended reals is finite. -/
theorem real_sum {ι : Type} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl (fun i _ => hg i)⟩

/-- A product of finite extended reals is finite. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- A sum of two finite extended reals is finite. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

/-- A difference of finite extended reals is finite. -/
theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

/-- A 32-bit pattern whose exponent field is not all ones denotes a real (a zero, a subnormal or a normal). -/
theorem ofBits_real (b : BitVec 32) (h : (b.extractLsb' 23 8).toNat ≠ 2 ^ 8 - 1) :
    ∃ r : ℝ, Ideal.ofBits .f32 b = (r : EReal) := by
  show ∃ r : ℝ, Ideal.ieee 8 23 b = (r : EReal)
  simp only [Ideal.ieee]
  rw [if_neg h]
  split_ifs <;> exact ⟨_, rfl⟩

theorem one32_real : ∃ r : ℝ, one32 = (r : EReal) := ofBits_real _ (by decide)
theorem three32_real : ∃ r : ℝ, three32 = (r : EReal) := ofBits_real _ (by decide)
theorem r3_real : ∃ r : ℝ, r3 = (r : EReal) := ofBits_real _ (by decide)
theorem r15_real : ∃ r : ℝ, r15 = (r : EReal) := ofBits_real _ (by decide)
theorem h5_real : ∃ r : ℝ, h5 = (r : EReal) := ofBits_real _ (by decide)
theorem h15_real : ∃ r : ℝ, h15 = (r : EReal) := ofBits_real _ (by decide)

/-- The harmonics of a finite vector are finite: each is a polynomial in its components with finite coefficients. -/
theorem sh_real (u : Fin 3 → EReal) (hu : ∀ j, ∃ r : ℝ, u j = (r : EReal)) (k : Fin 9) :
    ∃ r : ℝ, sh u k = (r : EReal) := by
  fin_cases k
  · show ∃ r : ℝ, one32 = (r : EReal)
    exact one32_real
  · show ∃ r : ℝ, r3 * u 1 = (r : EReal)
    exact real_mul r3_real (hu 1)
  · show ∃ r : ℝ, r3 * u 2 = (r : EReal)
    exact real_mul r3_real (hu 2)
  · show ∃ r : ℝ, r3 * u 0 = (r : EReal)
    exact real_mul r3_real (hu 0)
  · show ∃ r : ℝ, r15 * u 0 * u 1 = (r : EReal)
    exact real_mul (real_mul r15_real (hu 0)) (hu 1)
  · show ∃ r : ℝ, r15 * u 1 * u 2 = (r : EReal)
    exact real_mul (real_mul r15_real (hu 1)) (hu 2)
  · show ∃ r : ℝ, h5 * (three32 * u 2 * u 2 - one32) = (r : EReal)
    exact real_mul h5_real (real_sub (real_mul (real_mul three32_real (hu 2)) (hu 2)) one32_real)
  · show ∃ r : ℝ, r15 * u 0 * u 2 = (r : EReal)
    exact real_mul (real_mul r15_real (hu 0)) (hu 2)
  · show ∃ r : ℝ, h15 * (u 0 * u 0 - u 1 * u 1) = (r : EReal)
    exact real_mul h15_real (real_sub (real_mul (hu 0) (hu 0)) (real_mul (hu 1) (hu 1)))

/-- A finite direction of positive squared length has a finite unit vector: the squared length is a positive
    real, its root a nonzero real, and the quotient by a nonzero real is the product with the reciprocal. -/
theorem unitv_real (d : Fin 3 → EReal) (hd : ∀ j, ∃ r : ℝ, d j = (r : EReal)) (hpos : 0 < ssq d) (j : Fin 3) :
    ∃ r : ℝ, unitv d j = (r : EReal) := by
  obtain ⟨dr, rfl⟩ : ∃ dr : Fin 3 → ℝ, d = fun j => (dr j : EReal) := by
    choose dr hdr using hd; exact ⟨dr, funext hdr⟩
  have hs : ssq (fun j => (dr j : EReal)) = ((∑ j : Fin 3, dr j * dr j : ℝ) : EReal) := by
    simp only [ssq, ← EReal.coe_mul, ← coe_sum]
  rw [hs] at hpos
  have hpos' : (0 : ℝ) < ∑ j : Fin 3, dr j * dr j := by exact_mod_cast hpos
  have hne : Real.sqrt (∑ j : Fin 3, dr j * dr j) ≠ 0 := (Real.sqrt_pos.mpr hpos').ne'
  refine ⟨dr j * (1 / Real.sqrt (∑ j : Fin 3, dr j * dr j)), ?_⟩
  rw [unitv, hs, Ideal.sqrt_coe, if_neg (not_lt.mpr hpos'.le), Ideal.div_coe hne, EReal.coe_mul]

/-! ## The wrap of an index word -/

/-- The wrap adds the extent to a negative word and leaves the others. -/
theorem wrapW_eq (n w : BitVec 32) : wrapW n w = if w.toInt < 0 then w + n else w := by
  by_cases hn : w.toInt < 0
  · simp [wrapW, Scalar.select, IntOp.cmpi, IntOp.addi, BitVec.slt, hn]
  · simp [wrapW, Scalar.select, IntOp.cmpi, IntOp.addi, BitVec.slt, hn]

end Alg

open Alg

/-! ## The law on the extended reals -/

/-- On finite factors the kernel's densified contraction is the reference's sparse sum. -/
theorem kval_dense_eq_rval (Y : Fin 9 → EReal) (W : Fin 3 → EReal) (xj : Fin 9 → EReal) (cg : Fin 137 → EReal)
    (i1 i2 : Fin 137 → Fin 9) (iw : Fin 137 → Fin 3) (hit : Fin 137 → Prop) [DecidablePred hit]
    (hY : ∀ k, ∃ r : ℝ, Y k = (r : EReal)) (hW : ∀ l, ∃ r : ℝ, W l = (r : EReal))
    (hx : ∀ a, ∃ r : ℝ, xj a = (r : EReal)) (hc : ∀ n, ∃ r : ℝ, cg n = (r : EReal)) :
    kval Y W xj (dense cg i1 i2 iw hit) = rval Y W xj cg i1 i2 iw hit := by
  obtain ⟨Yr, rfl⟩ : ∃ Yr : Fin 9 → ℝ, Y = fun k => (Yr k : EReal) := by
    choose Yr hYr using hY; exact ⟨Yr, funext hYr⟩
  obtain ⟨Wr, rfl⟩ : ∃ Wr : Fin 3 → ℝ, W = fun l => (Wr l : EReal) := by
    choose Wr hWr using hW; exact ⟨Wr, funext hWr⟩
  obtain ⟨xr, rfl⟩ : ∃ xr : Fin 9 → ℝ, xj = fun a => (xr a : EReal) := by
    choose xr hxr using hx; exact ⟨xr, funext hxr⟩
  obtain ⟨cr, rfl⟩ : ∃ cr : Fin 137 → ℝ, cg = fun n => (cr n : EReal) := by
    choose cr hcr using hc; exact ⟨cr, funext hcr⟩
  simp only [kval, dense, rval, zero32_eq, ← EReal.coe_mul, ← EReal.coe_add, ← coe_sum]
  exact congrArg Real.toEReal (real_law Yr Wr xr cr i1 i2 iw hit)

/-! ## Finiteness of the harmonics and of the filter -/

theorem Yrow_real (d : Fin 3 → EReal) (hd : ∀ j, ∃ r : ℝ, d j = (r : EReal)) (hpos : 0 < ssq d) (k : Fin 9) :
    ∃ r : ℝ, Yrow d k = (r : EReal) :=
  sh_real (unitv d) (unitv_real d hd hpos) k

theorem Wval_real (rad : Fin 20 → EReal) (Wf : Fin 20 → Fin 384 → EReal) (bf : Fin 384 → EReal) (cut : EReal)
    (q : Fin 384) (hrad : ∀ r, ∃ x : ℝ, rad r = (x : EReal)) (hWf : ∀ r q, ∃ x : ℝ, Wf r q = (x : EReal))
    (hbf : ∀ q, ∃ x : ℝ, bf q = (x : EReal)) (hcut : ∃ x : ℝ, cut = (x : EReal)) :
    ∃ x : ℝ, Wval rad Wf bf cut q = (x : EReal) :=
  real_mul (real_add (real_sum _ _ (fun r => real_mul (hrad r) (hWf r q))) (hbf q)) hcut

/-! ## Index words -/

theorem wrapW_inRange9 (w : BitVec 32) (h : (-9 : Int) ≤ w.toInt ∧ w.toInt < 9) : InRange 9 (wrapW 9#32 w) := by
  unfold InRange
  rw [wrapW_eq]
  have h9 : (9#32 : BitVec 32).toInt = 9 := by decide
  split_ifs with hn
  · rw [BitVec.toInt_add, h9, Int.bmod_eq_of_le_mul_two (by omega) (by omega)]
    omega
  · omega

theorem wrapW_inRange3 (w : BitVec 32) (h : (-3 : Int) ≤ w.toInt ∧ w.toInt < 3) : InRange 3 (wrapW 3#32 w) := by
  unfold InRange
  rw [wrapW_eq]
  have h3 : (3#32 : BitVec 32).toInt = 3 := by decide
  split_ifs with hn
  · rw [BitVec.toInt_add, h3, Int.bmod_eq_of_le_mul_two (by omega) (by omega)]
    omega
  · omega

theorem fin9_val {w : BitVec 32} (h : InRange 9 w) : ((fin9 w).val : Int) = w.toInt := by
  unfold InRange at h
  have hc := BitVec.toInt_eq_toNat_cond w
  have hlt := w.isLt
  simp only [fin9]
  split_ifs at hc <;> omega

theorem fin3_val {w : BitVec 32} (h : InRange 3 w) : ((fin3 w).val : Int) = w.toInt := by
  unfold InRange at h
  have hc := BitVec.toInt_eq_toNat_cond w
  have hlt := w.isLt
  simp only [fin3]
  split_ifs at hc <;> omega

end Cert.SO3

end
-- ==== Proof.PreFacts.lean ====
/-
  The precondition, read back. The printed predicate is a conjunction of fourteen whole-array "all" reductions: for each
  of the seven float inputs, |x| < +∞ at every entry; for every row of the direction array, the sum of the squares of
  its three entries above zero; and for the three index tables of the sparse Clebsch–Gordan list, a signed lower and a
  signed upper bound at every entry. Read at the extended reals: every float entry is a real number, every direction
  has positive squared length, and every index word lies in [-9, 9) (the two component tables) or in [-3, 3) (the
  degree table).
-/
import proofs.«408281_j76957224010212_1_alg».proof.Pre_finite_inputs
import proofs.«408281_j76957224010212_1_alg».proof.Proof.Gen.Pre_finite_inputs
import proofs.«408281_j76957224010212_1_alg».proof.Proof.Spec
import Idealize.ShloMosaic.Lib.ValueIdx
import Idealize.ShloMosaic.Lib.ReduceAll
import Idealize.ShloMosaic.Lib.StableHlo.Predicate
import Idealize.ShloMosaic.PureOps.Ideal.Laws

noncomputable section

namespace Cert.Pre_finite_inputs.Dec

open Idealize.ShloMosaic Idealize.ShloMosaic.ValueIdx

/-- The rank-0 shape has one index. -/
instance : Subsingleton S_.Idx := ⟨fun a b => funext fun d => d.elim0⟩

/-! ## The element facts -/

/-- The word 0x7F800000 denotes +∞. -/
theorem inf32 : Ideal.ofBits .f32 0x7F800000#32 = (⊤ : EReal) := by
  simp [Ideal.ofBits, Ideal.ieee]

/-- A comparison word is 1 exactly when the comparison holds. -/
theorem ofBool_eq_one {b : Bool} : BitVec.ofBool b = 1#1 ↔ b = true := by cases b <;> decide

/-- An extended real whose absolute value max x (-x) is below +∞ is a real number: at +∞ the maximum is +∞, and at
    -∞ the negation is. -/
theorem real_of_abs_lt_top (x : EReal) (h : max x (-x) < ⊤) : ∃ r : ℝ, x = (r : EReal) := by
  induction x using EReal.rec with
  | bot => simp at h
  | coe r => exact ⟨r, rfl⟩
  | top => simp at h

/-- The same from the comparison word "|x| < +∞ is true". -/
theorem real_of_cmp (x : EReal) (h : Ideal.cmp .olt (max x (-x)) (Ideal.ofBits .f32 0x7F800000#32) = 1#1) :
    ∃ r : ℝ, x = (r : EReal) := by
  rw [inf32] at h
  unfold Ideal.cmp at h
  rw [ofBool_eq_one] at h
  exact real_of_abs_lt_top x (by simpa using h)

/-- The two signed bounds as integers. -/
theorem toInt_m9 : (4294967287#32 : BitVec 32).toInt = -9 := by decide
theorem toInt_9 : (9#32 : BitVec 32).toInt = 9 := by decide
theorem toInt_m3 : (4294967293#32 : BitVec 32).toInt = -3 := by decide
theorem toInt_3 : (3#32 : BitVec 32).toInt = 3 := by decide

/-! ## One reduction at a time -/

/-- "all (|x| < +∞)" is true: every entry of x is a real number. -/
theorem finite_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) (i : s.Idx) : ∃ r : ℝ, x i = (r : EReal) :=
  real_of_cmp (x i) (Host.reduce_andi_all _ _ hr hu ix0 e i)

/-- Row E of the [12000, 3] array with coordinate k inserted on axis 1 is the index (E, k). -/
theorem lift_row (h : S12000x3.Reduces [1] S12000) (E : Fin 12000) (k : Fin 3) : h.lift (ix1 E) k = ix2 E k := by
  funext c
  apply Fin.ext
  match c with
  | ⟨0, _⟩ => rfl
  | ⟨1, _⟩ => rfl

/-- "all (sum over axis 1 of x·x > 0)" is true: every row has positive squared length. The host's sum over axis 1 at
    row E is the initial value 0 plus the sum over the three coordinates of the row. -/
theorem dir_all (x : FVec Ideal S12000x3 .f32) (hr1 : S12000x3.ReducesTo [1] S12000)
    (hb : S_.BroadcastsInDim S12000 (![] : Fin 0 → Fin S12000.rank)) (hr : S12000.ReducesTo [0] S_) (hu : 0 < S_.numel)
    (e : Host.reduce IntOp.andi
          (cmpf .ogt (Host.reduceAdd (mulf x x) (constant (F := Ideal) S_ .f32 0x00000000#32) hr1 hu)
            (broadcastInDim S12000 ![] hb (constant (F := Ideal) S_ .f32 0x00000000#32)))
          (constantI S_ 1 1#1) hr hu ix0 = 1#1) (E : Fin 12000) :
    0 < Cert.SO3.ssq (fun j => x (ix2 E j)) := by
  have hi : Ideal.cmp .ogt (Ideal.hostReduceAdd hr1 (mulf x x) (Ideal.ofBits .f32 0x00000000#32) (ix1 E))
      (Ideal.ofBits .f32 0x00000000#32) = 1#1 := Host.reduce_andi_all _ _ hr hu ix0 e (ix1 E)
  have hR : S12000x3.Reduces [1] S12000 := by decide
  rw [Ideal.hostReduceAdd_single hr1 hR, Ideal.ofBits_zero_f32, zero_add] at hi
  unfold Ideal.cmp at hi
  rw [ofBool_eq_one] at hi
  have hpos : (0 : EReal) < ∑ k : Fin 3, mulf x x (hR.lift (ix1 E) k) := of_decide_eq_true hi
  unfold Cert.SO3.ssq
  refine lt_of_lt_of_eq hpos (Finset.sum_congr rfl fun k _ => ?_)
  rw [lift_row hR E k]
  rfl

/-- "all (x ≥ lo)" and "all (x < hi)", signed, are true: every word of the table lies in [lo, hi). -/
theorem range_all (x : IVec S137 32) (lo hi : BitVec 32)
    (hb : S_.BroadcastsInDim S137 (![] : Fin 0 → Fin S137.rank)) (hr : S137.ReducesTo [0] S_) (hu : 0 < S_.numel)
    (ea : Host.reduce IntOp.andi (cmpi .sge x (broadcastInDim S137 ![] hb (constantI S_ 32 lo)))
          (constantI S_ 1 1#1) hr hu ix0 = 1#1)
    (eb : Host.reduce IntOp.andi (cmpi .slt x (broadcastInDim S137 ![] hb (constantI S_ 32 hi)))
          (constantI S_ 1 1#1) hr hu ix0 = 1#1) (n : Fin 137) :
    lo.toInt ≤ (x (ix1 n)).toInt ∧ (x (ix1 n)).toInt < hi.toInt :=
  ⟨IntOp.cmpi_sge.1 (Host.reduce_andi_all _ _ hr hu ix0 ea (ix1 n)),
   IntOp.cmpi_slt.1 (Host.reduce_andi_all _ _ hr hu ix0 eb (ix1 n))⟩

/-! ## The precondition decoded -/

/-- The conjunction of two scalar truth words at the one index is the conjunction of the words. -/
theorem andi_ix0 (a b : IVec S_ 1) : andi a b ix0 = IntOp.andi (a ix0) (b ix0) := rfl

section

variable {x0 : FVec Ideal S1200x9x128 .f32} {x1 : FVec Ideal S12000x20 .f32} {x2 : FVec Ideal S12000x3 .f32}
  {x3 : FVec Ideal S12000x1 .f32} {x4 : FVec Ideal S20x384 .f32} {x5 : FVec Ideal S384 .f32} {x6 : FVec Ideal S137 .f32}
  {x7 x8 : IVec S12000 32} {x9 x10 x11 x12 : IVec S137 32}

/-- Every conjunct of the precondition at once: the precondition is a left-nested conjunction of fourteen reductions, each
    read by its lemma above. -/
theorem decode (hpre : Cert.Pre_finite_inputs.fn (F := Ideal) x0 x1 x2 x3 x4 x5 x6 x7 x8 x9 x10 x11 x12 = fun _ => 1#1) :
    (∀ i, ∃ r : ℝ, x0 i = (r : EReal)) ∧ (∀ i, ∃ r : ℝ, x1 i = (r : EReal)) ∧ (∀ i, ∃ r : ℝ, x2 i = (r : EReal)) ∧
    (∀ i, ∃ r : ℝ, x3 i = (r : EReal)) ∧ (∀ i, ∃ r : ℝ, x4 i = (r : EReal)) ∧ (∀ i, ∃ r : ℝ, x5 i = (r : EReal)) ∧
    (∀ i, ∃ r : ℝ, x6 i = (r : EReal)) ∧
    (∀ E : Fin 12000, 0 < Cert.SO3.ssq (fun j => x2 (ix2 E j))) ∧
    (∀ n : Fin 137, (-9 : Int) ≤ (x9 (ix1 n)).toInt ∧ (x9 (ix1 n)).toInt < 9) ∧
    (∀ n : Fin 137, (-9 : Int) ≤ (x10 (ix1 n)).toInt ∧ (x10 (ix1 n)).toInt < 9) ∧
    (∀ n : Fin 137, (-3 : Int) ≤ (x12 (ix1 n)).toInt ∧ (x12 (ix1 n)).toInt < 3) := by
  have h := congrFun hpre ix0
  dsimp only [fn, fn_part1, fn_part2, fn_part3] at h
  simp only [andi_ix0, IntOp.andi_eq_one] at h
  obtain ⟨⟨⟨⟨⟨⟨⟨⟨⟨⟨⟨⟨⟨f0, f1⟩, f2⟩, f3⟩, f4⟩, f5⟩, f6⟩, fd⟩, a9⟩, b9⟩, a10⟩, b10⟩, a12⟩, b12⟩ := h
  refine ⟨finite_all x0 _ _ _ f0, finite_all x1 _ _ _ f1, finite_all x2 _ _ _ f2, finite_all x3 _ _ _ f3,
    finite_all x4 _ _ _ f4, finite_all x5 _ _ _ f5, finite_all x6 _ _ _ f6, dir_all x2 _ _ _ _ fd, fun n => ?_, fun n => ?_,
    fun n => ?_⟩
  · have := range_all x9 _ _ _ _ _ a9 b9 n
    rwa [toInt_m9, toInt_9] at this
  · have := range_all x10 _ _ _ _ _ a10 b10 n
    rwa [toInt_m9, toInt_9] at this
  · have := range_all x12 _ _ _ _ _ a12 b12 n
    rwa [toInt_m3, toInt_3] at this

variable (hpre : Cert.Pre_finite_inputs.fn (F := Ideal) x0 x1 x2 x3 x4 x5 x6 x7 x8 x9 x10 x11 x12 = fun _ => 1#1)
include hpre

/-- Every entry of each float input is a real number. -/
theorem finite0 : ∀ i, ∃ r : ℝ, x0 i = (r : EReal) := (decode hpre).1
theorem finite1 : ∀ i, ∃ r : ℝ, x1 i = (r : EReal) := (decode hpre).2.1
theorem finite2 : ∀ i, ∃ r : ℝ, x2 i = (r : EReal) := (decode hpre).2.2.1
theorem finite3 : ∀ i, ∃ r : ℝ, x3 i = (r : EReal) := (decode hpre).2.2.2.1
theorem finite4 : ∀ i, ∃ r : ℝ, x4 i = (r : EReal) := (decode hpre).2.2.2.2.1
theorem finite5 : ∀ i, ∃ r : ℝ, x5 i = (r : EReal) := (decode hpre).2.2.2.2.2.1
theorem finite6 : ∀ i, ∃ r : ℝ, x6 i = (r : EReal) := (decode hpre).2.2.2.2.2.2.1

/-- Every direction has positive squared length. -/
theorem dir_pos : ∀ E : Fin 12000, 0 < Cert.SO3.ssq (fun j => x2 (ix2 E j)) := (decode hpre).2.2.2.2.2.2.2.1

/-- Every word of the first component table lies in [-9, 9). -/
theorem in1_range : ∀ n : Fin 137, (-9 : Int) ≤ (x9 (ix1 n)).toInt ∧ (x9 (ix1 n)).toInt < 9 :=
  (decode hpre).2.2.2.2.2.2.2.2.1

/-- Every word of the second component table lies in [-9, 9). -/
theorem in2_range : ∀ n : Fin 137, (-9 : Int) ≤ (x10 (ix1 n)).toInt ∧ (x10 (ix1 n)).toInt < 9 :=
  (decode hpre).2.2.2.2.2.2.2.2.2.1

/-- Every word of the degree table lies in [-3, 3). -/
theorem deg_range : ∀ n : Fin 137, (-3 : Int) ≤ (x12 (ix1 n)).toInt ∧ (x12 (ix1 n)).toInt < 3 :=
  (decode hpre).2.2.2.2.2.2.2.2.2.2

end

end Cert.Pre_finite_inputs.Dec

end
-- ==== Proof.Entry.lean ====
/-
  The two programs' per-edge results agree, entry by entry.

  Under the precondition every float input is a real, every direction has positive squared length (so the harmonics
  are reals), and the wrapped input-component and degree words are valid positions. The kernel's entry is the dense
  contraction of the table built by the four-index scatter; the reference's entry is the sparse sum over the entries
  that land on the output component; the algebraic law of `Cert.SO3.kval_dense_eq_rval` joins them. The neighbour
  features are the same gather on both sides and are carried unopened.
-/
import proofs.«408281_j76957224010212_1_alg».proof.Proof.KEntry
import proofs.«408281_j76957224010212_1_alg».proof.Proof.KHost
import proofs.«408281_j76957224010212_1_alg».proof.Proof.KDense
import proofs.«408281_j76957224010212_1_alg».proof.Proof.RPieces
import proofs.«408281_j76957224010212_1_alg».proof.Proof.RGather
import proofs.«408281_j76957224010212_1_alg».proof.Proof.Algebra
import proofs.«408281_j76957224010212_1_alg».proof.Proof.PreFacts

noncomputable section

namespace Cert.Bridge

open Idealize.ShloMosaic Idealize.ShloMosaic.TcCoe Idealize.ShloMosaic.ValueIdx
open Idealize.SL Idealize.SL.Sem
open Cert.KernelIdeal (nD τ sig)

variable (m : (ℓ : Loc nD τ sig) → Buf (Elt Ideal) ℓ)

/-- Argument `K` of the kernel program on device `c`, as launched. -/
abbrev A0 (c : Dev nD) := m ((c.tc : Thread nD τ).loc Cert.KernelIdeal.main_arg0)
abbrev A1 (c : Dev nD) := m ((c.tc : Thread nD τ).loc Cert.KernelIdeal.main_arg1)
abbrev A2 (c : Dev nD) := m ((c.tc : Thread nD τ).loc Cert.KernelIdeal.main_arg2)
abbrev A3 (c : Dev nD) := m ((c.tc : Thread nD τ).loc Cert.KernelIdeal.main_arg3)
abbrev A4 (c : Dev nD) := m ((c.tc : Thread nD τ).loc Cert.KernelIdeal.main_arg4)
abbrev A5 (c : Dev nD) := m ((c.tc : Thread nD τ).loc Cert.KernelIdeal.main_arg5)
abbrev A6 (c : Dev nD) := m ((c.tc : Thread nD τ).loc Cert.KernelIdeal.main_arg6)
abbrev A7 (c : Dev nD) := m ((c.tc : Thread nD τ).loc Cert.KernelIdeal.main_arg7)
abbrev A8 (c : Dev nD) := m ((c.tc : Thread nD τ).loc Cert.KernelIdeal.main_arg8)
abbrev A9 (c : Dev nD) := m ((c.tc : Thread nD τ).loc Cert.KernelIdeal.main_arg9)
abbrev A10 (c : Dev nD) := m ((c.tc : Thread nD τ).loc Cert.KernelIdeal.main_arg10)
abbrev A11 (c : Dev nD) := m ((c.tc : Thread nD τ).loc Cert.KernelIdeal.main_arg11)
abbrev A12 (c : Dev nD) := m ((c.tc : Thread nD τ).loc Cert.KernelIdeal.main_arg12)

/-- The gathered neighbour features, as the reference names them, are the array the kernel's region finds. -/
theorem xj_eq (c : Dev nD) :
    (Cert.KernelIdeal.Fr.V m c Cert.KernelIdeal.main_v35 : Cert.KernelIdeal.S12000x9x128.Idx → EReal)
      = Cert.ReferenceIdeal.Read.val_main_v60 (F := Ideal) (A0 m c) (A8 m c) := by
  rw [Cert.KernelIdeal.Fr.V_xj]
  rfl

/-- Every gathered neighbour feature is a real: it is an entry of the feature array. -/
theorem xj_real (c : Dev nD) (h0 : ∀ i, ∃ r : ℝ, A0 m c i = (r : EReal)) (i : Cert.KernelIdeal.S12000x9x128.Idx) :
    ∃ r : ℝ, Cert.ReferenceIdeal.Read.val_main_v60 (F := Ideal) (A0 m c) (A8 m c) i = (r : EReal) :=
  h0 _

/-- THE ENTRY EQUATION: at every edge, output component and channel the kernel's dense contraction is the reference's
    sparse sum. -/
theorem entry_eq (c : Dev nD)
    (hpre : Cert.Pre_finite_inputs.fn (F := Ideal) (A0 m c) (A1 m c) (A2 m c) (A3 m c) (A4 m c) (A5 m c) (A6 m c) (A7 m c) (A8 m c)
      (A9 m c) (A10 m c) (A11 m c) (A12 m c) = fun _ => 1#1)
    (E : Fin 12000) (s : Fin 9) (f : Fin 128) :
    Cert.KernelIdeal.Fr.yijE m c E s f
      = Cert.ReferenceIdeal.Read.val_main_v96 (F := Ideal) (A0 m c) (A1 m c) (A2 m c) (A3 m c) (A4 m c) (A5 m c) (A6 m c) (A8 m c)
          (A9 m c) (A10 m c) (A11 m c) (A12 m c) (ix3 E s f) := by
  open Cert.Pre_finite_inputs.Dec in
  have h1 : ∀ n : Fin 137, Cert.SO3.InRange 9 (Cert.SO3.wrapW 9#32 (A9 m c (ix1 n))) := fun n => Cert.SO3.wrapW_inRange9 _ (in1_range hpre n)
  have h2 : ∀ n : Fin 137, Cert.SO3.InRange 9 (Cert.SO3.wrapW 9#32 (A10 m c (ix1 n))) := fun n => Cert.SO3.wrapW_inRange9 _ (Cert.Pre_finite_inputs.Dec.in2_range hpre n)
  have hw : ∀ n : Fin 137, Cert.SO3.InRange 3 (Cert.SO3.wrapW 3#32 (A12 m c (ix1 n))) := fun n => Cert.SO3.wrapW_inRange3 _ (Cert.Pre_finite_inputs.Dec.deg_range hpre n)
  have f0 := Cert.Pre_finite_inputs.Dec.finite0 hpre
  have f1 := Cert.Pre_finite_inputs.Dec.finite1 hpre
  have f2 := Cert.Pre_finite_inputs.Dec.finite2 hpre
  have f3 := Cert.Pre_finite_inputs.Dec.finite3 hpre
  have f4 := Cert.Pre_finite_inputs.Dec.finite4 hpre
  have f5 := Cert.Pre_finite_inputs.Dec.finite5 hpre
  have f6 := Cert.Pre_finite_inputs.Dec.finite6 hpre
  have hpos := Cert.Pre_finite_inputs.Dec.dir_pos hpre E
  rw [Cert.ReferenceIdeal.Ref2.yij_apply (A0 m c) (A1 m c) (A2 m c) (A3 m c) (A4 m c) (A5 m c) (A6 m c) (A8 m c) (A9 m c) (A10 m c) (A11 m c) (A12 m c) h1 h2 hw E s f]
  simp only [Cert.ReferenceIdeal.Ref.Y_apply, Cert.ReferenceIdeal.Ref.W_apply]
  unfold Cert.KernelIdeal.Fr.yijE
  rw [Cert.KernelIdeal.Fr.V_arg1, Cert.KernelIdeal.Fr.V_arg2, Cert.KernelIdeal.Fr.V_arg3, Cert.KernelIdeal.Fr.V_arg4, Cert.KernelIdeal.Fr.V_arg5, xj_eq]
  simp only [Cert.KernelIdeal.Fr.gw_apply m c h1 h2 hw]
  exact Cert.SO3.kval_dense_eq_rval _ _ _ _ _ _ _ _
    (fun k => Cert.SO3.Yrow_real _ (fun j => f2 _) hpos k)
    (fun l => Cert.SO3.Wval_real _ _ _ _ _ (fun r => f1 _) (fun r q => f4 _) (fun q => f5 _) (f3 _))
    (fun a => f0 _)
    (fun n => f6 _)

end Cert.Bridge

end
-- ==== Proof.lean ====
/-
  The certificate of the SO(3) tensor-product convolution kernel against its jnp reference.

  Both programs compute, for every edge, the nine degree-≤2 real spherical harmonics of the edge's unit direction and a
  cutoff-gated radial filter, combine them with the neighbour's features through the Clebsch–Gordan table, and sum the
  per-edge results into the receiver atoms. The reference contracts the table sparsely (137 entries: gathers, a product
  and a column scatter-add); the kernel first densifies it by one four-index scatter-add and then contracts it with two
  small matrix products per degree inside its region. Over the reals the dense and the sparse contraction are one
  number (`Cert.SO3.kval_dense_eq_rval`), and the final segment sum is the same operation of equal arrays.

  The statement's precondition says, beyond finiteness of the float inputs, that every direction has positive squared
  length (the reference divides by its square root) and that the input-component and degree indices are valid
  positions of the axes they are gathered from (counting from the end when negative, as jnp does): outside it the
  reference is undefined or reads out of range.

  * frames: the kernel programs run their one region under the launch theorem for "host operations, a region, host
    operations" (`Fr.run_main`), the reference is its run of host operations;
  * preserves: the idealization rewrote nothing;
  * algebraic: the region's output array is the per-edge dense contraction (`Fr.final_out`), which is the reference's
    per-edge sparse sum (`Cert.Bridge.entry_eq`); both programs then apply the same accumulating row scatter.
-/
import proofs.«408281_j76957224010212_1_alg».proof.Defs
import proofs.«408281_j76957224010212_1_alg».proof.Proof.Gen.Kernel
import proofs.«408281_j76957224010212_1_alg».proof.Proof.Gen.KernelIdeal
import proofs.«408281_j76957224010212_1_alg».proof.Proof.Gen.ReferenceIdeal
import proofs.«408281_j76957224010212_1_alg».proof.Proof.Gen.Pre_finite_inputs
import proofs.«408281_j76957224010212_1_alg».proof.Proof.Gen.ReferenceIdeal.Run
import proofs.«408281_j76957224010212_1_alg».proof.Proof.Gen.ReferenceIdeal.Read
import proofs.«408281_j76957224010212_1_alg».proof.Proof.KFrameBits
import proofs.«408281_j76957224010212_1_alg».proof.Proof.KArray
import proofs.«408281_j76957224010212_1_alg».proof.Proof.Entry
import Idealize.ShloMosaic.Adequacy
import Idealize.ShloMosaic.Init

noncomputable section

namespace Cert.Proof

open Idealize.ShloMosaic Idealize.ShloMosaic.TcCoe Idealize.ShloMosaic.ValueIdx Idealize.SL.Sem

theorem frame_p : Cert.frame_Kernel := fun m ρ _ => Cert.Kernel.Fr.frame m ρ

theorem frame_pi : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the segment sum of their per-edge results, and those agree entry by entry. -/
theorem algebraic : Cert.algebraic_KernelIdeal_ReferenceIdeal := by
  intro m ρ m' ρ' hpre hagree
  refine ⟨fun c => Host.scatterAdd Cert.KernelIdeal.scatter_S1200x9x128_S12000x1_S12000x9x128_12_0_0_1
      (broadcastInDim Cert.KernelIdeal.S1200x9x128 ![] Cert.KernelIdeal.Facts₀.bcast_S_S1200x9x128 (constant (F := Ideal) Cert.KernelIdeal.S_ .f32 0x00000000#32))
      (broadcastInDim Cert.KernelIdeal.S12000x1 ![0] Cert.KernelIdeal.Facts₀.bcast_S12000_S12000x1_0 (m ((c.tc : Thread Cert.KernelIdeal.nD Cert.KernelIdeal.τ).loc Cert.KernelIdeal.main_arg7)))
      (Cert.KernelIdeal.Fr.yijArr m c), ?_, ?_⟩
  · refine (θ_run Cert.KernelIdeal.defs _ _).mono (fun r h c => ⟨?_, Cert.KernelIdeal.Fr.kept m r h c⟩)
      (Cert.KernelIdeal.Fr.run_main (F := Ideal) m ρ)
    have hres := (h c).2 Cert.KernelIdeal.main_v39 (Pipeline.mem_restRefs_of Cert.KernelIdeal.main_v39 (by decide) (by decide))
    refine hres.trans ((Cert.KernelIdeal.Fr.tail_result m (Cert.KernelIdeal.Fr.dats m) c).trans ?_)
    rw [Cert.KernelIdeal.Fr.final_out]
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v99_eq, e0, e1, e2, e3, e4, e5, e6, e7, e8, e9, e10, e11, e12]
    have hy : Cert.ReferenceIdeal.Read.val_main_v96 (F := Ideal) (Cert.Bridge.A0 m c) (Cert.Bridge.A1 m c) (Cert.Bridge.A2 m c) (Cert.Bridge.A3 m c)
        (Cert.Bridge.A4 m c) (Cert.Bridge.A5 m c) (Cert.Bridge.A6 m c) (Cert.Bridge.A8 m c) (Cert.Bridge.A9 m c) (Cert.Bridge.A10 m c)
        (Cert.Bridge.A11 m c) (Cert.Bridge.A12 m c) = Cert.KernelIdeal.Fr.yijArr m c :=
      funext fun i => by
        rw [eq_ix3 i]
        exact (Cert.Bridge.entry_eq m c (hpre c) _ _ _).symm
    unfold Cert.ReferenceIdeal.Read.val_main_v99
    rw [hy]
    rfl

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
